-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S128x128 : Shape := ⟨2, ![128, 128]⟩
abbrev S128 : Shape := ⟨1, ![128]⟩
abbrev S128x896 : Shape := ⟨2, ![128, 896]⟩
abbrev S896 : Shape := ⟨1, ![896]⟩
abbrev S262144 : Shape := ⟨1, ![262144]⟩
abbrev S65536 : Shape := ⟨1, ![65536]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x896 : S_.BroadcastsInDim S128x896 (![] : Fin 0 → Fin S128x896.rank)
  reducesTo_S128x896_S_d0_1 : S128x896.ReducesTo [0, 1] S_
  bcast_S_S896 : S_.BroadcastsInDim S896 (![] : Fin 0 → Fin S896.rank)
  reducesTo_S896_S_d0 : S896.ReducesTo [0] S_
  bcast_S_S262144 : S_.BroadcastsInDim S262144 (![] : Fin 0 → Fin S262144.rank)
  reducesTo_S262144_S_d0 : S262144.ReducesTo [0] S_

variable [Facts]

def fn_part4 {F : FTy → Type} [FloatOps F] (main_v63 : IVec S_ 1) (main_v65 : IVec S262144 1) (main_v67 : IVec S262144 1) : IVec S_ 1 :=
  let main_v68 : IVec S262144 1 := andi main_v65 main_v67
  let main_c_26 : IVec S_ 1 := constantI S_ 1 1#1
  let main_v69 : IVec S_ 1 := (fun x v => Host.reduce IntOp.andi x v reducesTo_S262144_S_d0 h_S_) main_v68 main_c_26
  let main_v70 : IVec S_ 1 := andi main_v63 main_v69
  main_v70

def fn_part3 {F : FTy → Type} [FloatOps F] (main_arg11 : FVec F S128x896 .f32) (main_arg12 : FVec F S896 .f32) (main_arg15 : IVec S262144 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x896 .f32 := Host.absf main_arg11
  let main_cst_20 : FVec F S_ .f32 := constant S_ .f32 0x7F800000#32
  let main_v55 : FVec F S128x896 .f32 := broadcastInDim S128x896 ![] bcast_S_S128x896 main_cst_20
  let main_v56 : IVec S128x896 1 := cmpf .olt main_v54 main_v55
  let main_c_21 : IVec S_ 1 := constantI S_ 1 1#1
  let main_v57 : IVec S_ 1 := (fun x v => Host.reduce IntOp.andi x v reducesTo_S128x896_S_d0_1 h_S_) main_v56 main_c_21
  let main_v58 : IVec S_ 1 := andi main_v53 main_v57
  let main_v59 : FVec F S896 .f32 := Host.absf main_arg12
  let main_cst_22 : FVec F S_ .f32 := constant S_ .f32 0x7F800000#32
  let main_v60 : FVec F S896 .f32 := broadcastInDim S896 ![] bcast_S_S896 main_cst_22
  let main_v61 : IVec S896 1 := cmpf .olt main_v59 main_v60
  let main_c_23 : IVec S_ 1 := constantI S_ 1 1#1
  let main_v62 : IVec S_ 1 := (fun x v => Host.reduce IntOp.andi x v reducesTo_S896_S_d0 h_S_) main_v61 main_c_23
  let main_v63 : IVec S_ 1 := andi main_v58 main_v62
  let main_c_24 : IVec S_ 32 := constantI S_ 32 0#32
  let main_v64 : IVec S262144 32 := broadcastInDim S262144 ![] bcast_S_S262144 main_c_24
  let main_v65 : IVec S262144 1 := cmpi .sge main_arg15 main_v64
  let main_c_25 : IVec S_ 32 := constantI S_ 32 7#32
  let main_v66 : IVec S262144 32 := broadcastInDim S262144 ![] bcast_S_S262144 main_c_25
  let main_v67 : IVec S262144 1 := cmpi .slt main_arg15 main_v66
  fn_part4 (F := F) main_v63 main_v65 main_v67

def fn_part2 {F : FTy → Type} [FloatOps F] (main_arg7 : FVec F S128x896 .f32) (main_arg8 : FVec F S896 .f32) (main_arg9 : FVec F S128x128 .f32) (main_arg10 : FVec F S128 .f32) (main_arg11 : FVec F S128x896 .f32) (main_arg12 : FVec F S896 .f32) (main_arg15 : IVec S262144 32) (main_v33 : IVec S_ 1) : IVec S_ 1 :=
  let main_v34 : FVec F S128x896 .f32 := Host.absf main_arg7
  let main_cst_12 : FVec F S_ .f32 := constant S_ .f32 0x7F800000#32
  let main_v35 : FVec F S128x896 .f32 := broadcastInDim S128x896 ![] bcast_S_S128x896 main_cst_12
  let main_v36 : IVec S128x896 1 := cmpf .olt main_v34 main_v35
  let main_c_13 : IVec S_ 1 := constantI S_ 1 1#1
  let main_v37 : IVec S_ 1 := (fun x v => Host.reduce IntOp.andi x v reducesTo_S128x896_S_d0_1 h_S_) main_v36 main_c_13
  let main_v38 : IVec S_ 1 := andi main_v33 main_v37
  let main_v39 : FVec F S896 .f32 := Host.absf main_arg8
  let main_cst_14 : FVec F S_ .f32 := constant S_ .f32 0x7F800000#32
  let main_v40 : FVec F S896 .f32 := broadcastInDim S896 ![] bcast_S_S896 main_cst_14
  let main_v41 : IVec S896 1 := cmpf .olt main_v39 main_v40
  let main_c_15 : IVec S_ 1 := constantI S_ 1 1#1
  let main_v42 : IVec S_ 1 := (fun x v => Host.reduce IntOp.andi x v reducesTo_S896_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg15 main_v48 main_v49 main_v50

def fn_part1 {F : FTy → Type} [FloatOps F] (main_arg4 : FVec F S896 .f32) (main_arg5 : FVec F S128x128 .f32) (main_arg6 : FVec F S128 .f32) (main_arg7 : FVec F S128x896 .f32) (main_arg8 : FVec F S896 .f32) (main_arg9 : FVec F S128x128 .f32) (main_arg10 : FVec F S128 .f32) (main_arg11 : FVec F S128x896 .f32) (main_arg12 : FVec F S896 .f32) (main_arg15 : IVec S262144 32) (main_v13 : IVec S_ 1) (main_v16 : IVec S128x896 1) : IVec S_ 1 :=
  let main_c_5 : IVec S_ 1 := constantI S_ 1 1#1
  let main_v17 : IVec S_ 1 := (fun x v => Host.reduce IntOp.andi x v reducesTo_S128x896_S_d0_1 h_S_) main_v16 main_c_5
  let main_v18 : IVec S_ 1 := andi main_v13 main_v17
  let main_v19 : FVec F S896 .f32 := Host.absf main_arg4
  let main_cst_6 : FVec F S_ .f32 := constant S_ .f32 0x7F800000#32
  let main_v20 : FVec F S896 .f32 := broadcastInDim S896 ![] bcast_S_S896 main_cst_6
  let main_v21 : IVec S896 1 := cmpf .olt main_v19 main_v20
  let main_c_7 : IVec S_ 1 := constantI S_ 1 1#1
  let main_v22 : IVec S_ 1 := (fun x v => Host.reduce IntOp.andi x v reducesTo_S896_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg15 main_v33

def fn {F : FTy → Type} [FloatOps F] (main_arg0 : FVec F S65536x128 .f32) (main_arg1 : FVec F S128x128 .f32) (main_arg2 : FVec F S128 .f32) (main_arg3 : FVec F S128x896 .f32) (main_arg4 : FVec F S896 .f32) (main_arg5 : FVec F S128x128 .f32) (main_arg6 : FVec F S128 .f32) (main_arg7 : FVec F S128x896 .f32) (main_arg8 : FVec F S896 .f32) (main_arg9 : FVec F S128x128 .f32) (main_arg10 : FVec F S128 .f32) (main_arg11 : FVec F S128x896 .f32) (main_arg12 : FVec F S896 .f32) (main_arg13 : IVec S262144 32) (main_arg14 : IVec S262144 32) (main_arg15 : IVec S262144 32) (main_arg16 : IVec S65536 32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x896 .f32 := Host.absf main_arg3
  let main_cst_4 : FVec F S_ .f32 := constant S_ .f32 0x7F800000#32
  let main_v15 : FVec F S128x896 .f32 := broadcastInDim S128x896 ![] bcast_S_S128x896 main_cst_4
  let main_v16 : IVec S128x896 1 := cmpf .olt main_v14 main_v15
  fn_part1 (F := F) main_arg4 main_arg5 main_arg6 main_arg7 main_arg8 main_arg9 main_arg10 main_arg11 main_arg12 main_arg15 main_v13 main_v16
-- ==== Kernel.lean ====
abbrev S65536x128 : Shape := ⟨2, ![65536, 128]⟩
abbrev S128x128 : Shape := ⟨2, ![128, 128]⟩
abbrev S128 : Shape := ⟨1, ![128]⟩
abbrev S128x896 : Shape := ⟨2, ![128, 896]⟩
abbrev S896 : Shape := ⟨1, ![896]⟩
abbrev S262144 : Shape := ⟨1, ![262144]⟩
abbrev S65536 : Shape := ⟨1, ![65536]⟩
abbrev S_ : Shape := ⟨0, ![]⟩
abbrev S262144x1 : Shape := ⟨2, ![262144, 1]⟩
abbrev S262144x128 : Shape := ⟨2, ![262144, 128]⟩
abbrev S1x7 : Shape := ⟨2, ![1, 7]⟩
abbrev S262144x7 : Shape := ⟨2, ![262144, 7]⟩
abbrev S1x896 : Shape := ⟨2, ![1, 896]⟩
abbrev S4096x128 : Shape := ⟨2, ![4096, 128]⟩
abbrev S4096x7 : Shape := ⟨2, ![4096, 7]⟩
abbrev S4096x896 : Shape := ⟨2, ![4096, 896]⟩
abbrev S4096x1 : Shape := ⟨2, ![4096, 1]⟩
abbrev S1x128 : Shape := ⟨2, ![1, 128]⟩
abbrev S8192x128 : Shape := ⟨2, ![8192, 128]⟩
abbrev S32x128 : Shape := ⟨2, ![32, 128]⟩
abbrev S65536x1 : Shape := ⟨2, ![65536, 1]⟩

abbrev nBuf : Space → Nat
  | .hbm => 90
  | .vmem => 48
  | .smem => 0
  | _ => 0

abbrev bufTy : (tb : Table) → Fin (tcTables nBuf tb) → BufTy
  | .hbm, ⟨0, _⟩ => ⟨S65536x128, .f32⟩
  | .hbm, ⟨1, _⟩ => ⟨S128x128, .f32⟩
  | .hbm, ⟨2, _⟩ => ⟨S128, .f32⟩
  | .hbm, ⟨3, _⟩ => ⟨S128x896, .f32⟩
  | .hbm, ⟨4, _⟩ => ⟨S896, .f32⟩
  | .hbm, ⟨5, _⟩ => ⟨S128x128, .f32⟩
  | .hbm, ⟨6, _⟩ => ⟨S128, .f32⟩
  | .hbm, ⟨7, _⟩ => ⟨S128x896, .f32⟩
  | .hbm, ⟨8, _⟩ => ⟨S896, .f32⟩
  | .hbm, ⟨9, _⟩ => ⟨S128x128, .f32⟩
  | .hbm, ⟨10, _⟩ => ⟨S128, .f32⟩
  | .hbm, ⟨11, _⟩ => ⟨S128x896, .f32⟩
  | .hbm, ⟨12, _⟩ => ⟨S896, .f32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S65536, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x128, .f32⟩
  | .hbm, ⟨26, _⟩ => ⟨S262144x1, .i32⟩
  | .hbm, ⟨27, _⟩ => ⟨S1x7, .i32⟩
  | .hbm, ⟨28, _⟩ => ⟨S262144x7, .i32⟩
  | .hbm, ⟨29, _⟩ => ⟨S262144x7, .i32⟩
  | .hbm, ⟨30, _⟩ => ⟨S262144x7, .i1⟩
  | .hbm, ⟨31, _⟩ => ⟨S262144x7, .f32⟩
  | .hbm, ⟨32, _⟩ => ⟨S1x896, .f32⟩
  | .hbm, ⟨33, _⟩ => ⟨S262144x128, .f32⟩
  | .hbm, ⟨34, _⟩ => ⟨S_, .f32⟩
  | .hbm, ⟨35, _⟩ => ⟨S65536x128, .f32⟩
  | .hbm, ⟨36, _⟩ => ⟨S262144x1, .i32⟩
  | .hbm, ⟨37, _⟩ => ⟨S65536x128, .f32⟩
  | .hbm, ⟨38, _⟩ => ⟨S1x128, .f32⟩
  | .hbm, ⟨39, _⟩ => ⟨S65536x128, .f32⟩
  | .hbm, ⟨40, _⟩ => ⟨S_, .i32⟩
  | .hbm, ⟨41, _⟩ => ⟨S262144, .i32⟩
  | .hbm, ⟨42, _⟩ => ⟨S262144, .i1⟩
  | .hbm, ⟨43, _⟩ => ⟨S_, .i32⟩
  | .hbm, ⟨44, _⟩ => ⟨S262144, .i32⟩
  | .hbm, ⟨45, _⟩ => ⟨S262144, .i32⟩
  | .hbm, ⟨46, _⟩ => ⟨S262144, .i32⟩
  | .hbm, ⟨47, _⟩ => ⟨S262144x1, .i32⟩
  | .hbm, ⟨48, _⟩ => ⟨S262144x128, .f32⟩
  | .hbm, ⟨49, _⟩ => ⟨S262144x1, .i32⟩
  | .hbm, ⟨50, _⟩ => ⟨S1x7, .i32⟩
  | .hbm, ⟨51, _⟩ => ⟨S262144x7, .i32⟩
  | .hbm, ⟨52, _⟩ => ⟨S262144x7, .i32⟩
  | .hbm, ⟨53, _⟩ => ⟨S262144x7, .i1⟩
  | .hbm, ⟨54, _⟩ => ⟨S262144x7, .f32⟩
  | .hbm, ⟨55, _⟩ => ⟨S1x896, .f32⟩
  | .hbm, ⟨56, _⟩ => ⟨S262144x128, .f32⟩
  | .hbm, ⟨57, _⟩ => ⟨S_, .f32⟩
  | .hbm, ⟨58, _⟩ => ⟨S65536x128, .f32⟩
  | .hbm, ⟨59, _⟩ => ⟨S262144x1, .i32⟩
  | .hbm, ⟨60, _⟩ => ⟨S65536x128, .f32⟩
  | .hbm, ⟨61, _⟩ => ⟨S1x128, .f32⟩
  | .hbm, ⟨62, _⟩ => ⟨S65536x128, .f32⟩
  | .hbm, ⟨63, _⟩ => ⟨S_, .i32⟩
  | .hbm, ⟨64, _⟩ => ⟨S262144, .i32⟩
  | .hbm, ⟨65, _⟩ => ⟨S262144, .i1⟩
  | .hbm, ⟨66, _⟩ => ⟨S_, .i32⟩
  | .hbm, ⟨67, _⟩ => ⟨S262144, .i32⟩
  | .hbm, ⟨68, _⟩ => ⟨S262144, .i32⟩
  | .hbm, ⟨69, _⟩ => ⟨S262144, .i32⟩
  | .hbm, ⟨70, _⟩ => ⟨S262144x1, .i32⟩
  | .hbm, ⟨71, _⟩ => ⟨S262144x128, .f32⟩
  | .hbm, ⟨72, _⟩ => ⟨S262144x1, .i32⟩
  | .hbm, ⟨73, _⟩ => ⟨S1x7, .i32⟩
  | .hbm, ⟨74, _⟩ => ⟨S262144x7, .i32⟩
  | .hbm, ⟨75, _⟩ => ⟨S262144x7, .i32⟩
  | .hbm, ⟨76, _⟩ => ⟨S262144x7, .i1⟩
  | .hbm, ⟨77, _⟩ => ⟨S262144x7, .f32⟩
  | .hbm, ⟨78, _⟩ => ⟨S1x896, .f32⟩
  | .hbm, ⟨79, _⟩ => ⟨S262144x128, .f32⟩
  | .hbm, ⟨80, _⟩ => ⟨S_, .f32⟩
  | .hbm, ⟨81, _⟩ => ⟨S65536x128, .f32⟩
  | .hbm, ⟨82, _⟩ => ⟨S262144x1, .i32⟩
  | .hbm, ⟨83, _⟩ => ⟨S65536x128, .f32⟩
  | .hbm, ⟨84, _⟩ => ⟨S1x128, .f32⟩
  | .hbm, ⟨85, _⟩ => ⟨S65536x128, .f32⟩
  | .hbm, ⟨86, _⟩ => ⟨S_, .f32⟩
  | .hbm, ⟨87, _⟩ => ⟨S32x128, .f32⟩
  | .hbm, ⟨88, _⟩ => ⟨S65536x1, .i32⟩
  | .hbm, ⟨89, _⟩ => ⟨S32x128, .f32⟩
  | .local _ .vmem, ⟨0, _⟩ => ⟨S4096x128, .f32⟩
  | .local _ .vmem, ⟨1, _⟩ => ⟨S4096x128, .f32⟩
  | .local _ .vmem, ⟨2, _⟩ => ⟨S4096x7, .f32⟩
  | .local _ .vmem, ⟨3, _⟩ => ⟨S4096x7, .f32⟩
  | .local _ .vmem, ⟨4, _⟩ => ⟨S128x896, .f32⟩
  | .local _ .vmem, ⟨5, _⟩ => ⟨S1x896, .f32⟩
  | .local _ .vmem, ⟨6, _⟩ => ⟨S4096x128, .f32⟩
  | .local _ .vmem, ⟨7, _⟩ => ⟨S4096x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S128x128, .f32⟩
  | .local _ .vmem, ⟨13, _⟩ => ⟨S1x128, .f32⟩
  | .local _ .vmem, ⟨14, _⟩ => ⟨S8192x128, .f32⟩
  | .local _ .vmem, ⟨15, _⟩ => ⟨S8192x128, .f32⟩
  | .local _ .vmem, ⟨16, _⟩ => ⟨S4096x128, .f32⟩
  | .local _ .vmem, ⟨17, _⟩ => ⟨S4096x128, .f32⟩
  | .local _ .vmem, ⟨18, _⟩ => ⟨S4096x7, .f32⟩
  | .local _ .vmem, ⟨19, _⟩ => ⟨S4096x7, .f32⟩
  | .local _ .vmem, ⟨20, _⟩ => ⟨S128x896, .f32⟩
  | .local _ .vmem, ⟨21, _⟩ => ⟨S1x896, .f32⟩
  | .local _ .vmem, ⟨22, _⟩ => ⟨S4096x128, .f32⟩
  | .local _ .vmem, ⟨23, _⟩ => ⟨S4096x128, .f32⟩
  | .local _ .vmem, ⟨24, _⟩ => ⟨S8192x128, .f32⟩
  | .local _ .vmem, ⟨25, _⟩ => ⟨S8192x128, .f32⟩
  | .local _ .vmem, ⟨26, _⟩ => ⟨S8192x128, .f32⟩
  | .local _ .vmem, ⟨27, _⟩ => ⟨S8192x128, .f32⟩
  | .local _ .vmem, ⟨28, _⟩ => ⟨S128x128, .f32⟩
  | .local _ .vmem, ⟨29, _⟩ => ⟨S1x128, .f32⟩
  | .local _ .vmem, ⟨30, _⟩ => ⟨S8192x128, .f32⟩
  | .local _ .vmem, ⟨31, _⟩ => ⟨S8192x128, .f32⟩
  | .local _ .vmem, ⟨32, _⟩ => ⟨S4096x128, .f32⟩
  | .local _ .vmem, ⟨33, _⟩ => ⟨S4096x128, .f32⟩
  | .local _ .vmem, ⟨34, _⟩ => ⟨S4096x7, .f32⟩
  | .local _ .vmem, ⟨35, _⟩ => ⟨S4096x7, .f32⟩
  | .local _ .vmem, ⟨36, _⟩ => ⟨S128x896, .f32⟩
  | .local _ .vmem, ⟨37, _⟩ => ⟨S1x896, .f32⟩
  | .local _ .vmem, ⟨38, _⟩ => ⟨S4096x128, .f32⟩
  | .local _ .vmem, ⟨39, _⟩ => ⟨S4096x128, .f32⟩
  | .local _ .vmem, ⟨40, _⟩ => ⟨S8192x128, .f32⟩
  | .local _ .vmem, ⟨41, _⟩ => ⟨S8192x128, .f32⟩
  | .local _ .vmem, ⟨42, _⟩ => ⟨S8192x128, .f32⟩
  | .local _ .vmem, ⟨43, _⟩ => ⟨S8192x128, .f32⟩
  | .local _ .vmem, ⟨44, _⟩ => ⟨S128x128, .f32⟩
  | .local _ .vmem, ⟨45, _⟩ => ⟨S1x128, .f32⟩
  | .local _ .vmem, ⟨46, _⟩ => ⟨S8192x128, .f32⟩
  | .local _ .vmem, ⟨47, _⟩ => ⟨S8192x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_4 : Ref sig .tc := ⟨.hbm, 63, rfl⟩
abbrev main_v30 : Ref sig .tc := ⟨.hbm, 64, rfl⟩
abbrev main_v31 : Ref sig .tc := ⟨.hbm, 65, rfl⟩
abbrev main_c_5 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_6 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_7 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x7 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x896 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x896 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8192x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x7 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x896 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x896 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4096x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S8192x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x7_0_1 : S262144x1.BroadcastsInDim S262144x7 (![0, 1] : Fin 2 → Fin S262144x7.rank)
  bcast_S1x7_S262144x7_0_1 : S1x7.BroadcastsInDim S262144x7 (![0, 1] : Fin 2 → Fin S262144x7.rank)
  shapeCasts_S896_S1x896 : S896.ShapeCasts S1x896
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x896_S128x896_0_0 : ∀ a, (![0, 0] : Fin 2 → Nat) a + S128x896.size a ≤ S128x896.size a
  h_S128x896 : 0 < S128x896.numel
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S4096x896 : S1x896.Broadcasts S4096x896
  inb_S4096x7_S4096x7_0_0 : ∀ a, (![0, 0] : Fin 2 → Nat) a + S4096x7.size a ≤ S4096x7.size a
  h_S4096x7 : 0 < S4096x7.numel
  shapeCasts_S4096x7_S4096x7 : S4096x7.ShapeCasts S4096x7
  slices_S4096x7_o0_0_S4096x1 : S4096x7.Slices ![0, 0] S4096x1
  slices_S4096x896_o0_0_S4096x128 : S4096x896.Slices ![0, 0] S4096x128
  broadcasts_S4096x1_S4096x128 : S4096x1.Broadcasts S4096x128
  slices_S4096x7_o0_1_S4096x1 : S4096x7.Slices ![0, 1] S4096x1
  slices_S4096x896_o0_128_S4096x128 : S4096x896.Slices ![0, 128] S4096x128
  slices_S4096x7_o0_2_S4096x1 : S4096x7.Slices ![0, 2] S4096x1
  slices_S4096x896_o0_256_S4096x128 : S4096x896.Slices ![0, 256] S4096x128
  slices_S4096x7_o0_3_S4096x1 : S4096x7.Slices ![0, 3] S4096x1
  slices_S4096x896_o0_384_S4096x128 : S4096x896.Slices ![0, 384] S4096x128
  slices_S4096x7_o0_4_S4096x1 : S4096x7.Slices ![0, 4] S4096x1
  slices_S4096x896_o0_512_S4096x128 : S4096x896.Slices ![0, 512] S4096x128
  slices_S4096x7_o0_5_S4096x1 : S4096x7.Slices ![0, 5] S4096x1
  slices_S4096x896_o0_640_S4096x128 : S4096x896.Slices ![0, 640] S4096x128
  slices_S4096x7_o0_6_S4096x1 : S4096x7.Slices ![0, 6] S4096x1
  slices_S4096x896_o0_768_S4096x128 : S4096x896.Slices ![0, 768] S4096x128
  bcast_S_S65536x128 : S_.BroadcastsInDim S65536x128 (![] : Fin 0 → Fin S65536x128.rank)
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  shapeCasts_S8192x128_S8192x128 : S8192x128.ShapeCasts S8192x128
  bcast_S_S32x128 : S_.BroadcastsInDim S32x128 (![] : Fin 0 → Fin S32x128.rank)
  bcast_S65536_S65536x1_0 : S65536.BroadcastsInDim S65536x1 (![0] : Fin 1 → Fin S65536x1.rank)
  gather_S65536x128_S262144x1_S262144x128_1_0_n_n_0_1_1128_wf : GatherDims.WF S65536x128 S262144x1 S262144x128 [1] [0] [] [0] [] 1 ![1, 128]
  dot_S4096x128_S128x896_S4096x896_1_0_0_1_n_n_wf : DotDims.WF S4096x128 S128x896 S4096x896 [1] [0] [0] [1] [] []
  scatter_S65536x128_S262144x1_S262144x128_1_0_0_1_wf : ScatterDims.WF S65536x128 S262144x1 S262144x128 [1] [0] [0] 1
  dot_S8192x128_S128x128_S8192x128_1_0_0_1_n_n_wf : DotDims.WF S8192x128 S128x128 S8192x128 [1] [0] [0] [1] [] []
  scatter_S32x128_S65536x1_S65536x128_1_0_0_1_wf : ScatterDims.WF S32x128 S65536x1 S65536x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x7.size a ≤ S262144x7.size a
  hwx0_1 : ∀ i : grid0.Coords, EltTy.bits .f32 = 32 ∨ (Rect.block (s := S262144x7) S4096x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x896.size a ≤ S128x896.size a
  hwx0_2 : ∀ i : grid0.Coords, EltTy.bits .f32 = 32 ∨ (Rect.block (s := S128x896) S128x896.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x896.size a ≤ S1x896.size a
  hwx0_3 : ∀ i : grid0.Coords, EltTy.bits .f32 = 32 ∨ (Rect.block (s := S1x896) S1x896.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S262144x128.size a
  hwx0_4 : ∀ i : grid0.Coords, EltTy.bits .f32 = 32 ∨ (Rect.block (s := S262144x128) S4096x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S65536x128.size a
  hwx1_0 : ∀ i : grid1.Coords, EltTy.bits .f32 = 32 ∨ (Rect.block (s := S65536x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S65536x128.size a
  hwx1_1 : ∀ i : grid1.Coords, EltTy.bits .f32 = 32 ∨ (Rect.block (s := S65536x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x128.size a ≤ S65536x128.size a
  hwx1_4 : ∀ i : grid1.Coords, EltTy.bits .f32 = 32 ∨ (Rect.block (s := S65536x128) S8192x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S262144x128.size a
  hwx2_0 : ∀ i : grid2.Coords, EltTy.bits .f32 = 32 ∨ (Rect.block (s := S262144x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x7.size a ≤ S262144x7.size a
  hwx2_1 : ∀ i : grid2.Coords, EltTy.bits .f32 = 32 ∨ (Rect.block (s := S262144x7) S4096x7.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x896.size a ≤ S128x896.size a
  hwx2_2 : ∀ i : grid2.Coords, EltTy.bits .f32 = 32 ∨ (Rect.block (s := S128x896) S128x896.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x896.size a ≤ S1x896.size a
  hwx2_3 : ∀ i : grid2.Coords, EltTy.bits .f32 = 32 ∨ (Rect.block (s := S1x896) S1x896.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x128.size a ≤ S262144x128.size a
  hwx2_4 : ∀ i : grid2.Coords, EltTy.bits .f32 = 32 ∨ (Rect.block (s := S262144x128) S4096x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S65536x128.size a
  hwx3_0 : ∀ i : grid3.Coords, EltTy.bits .f32 = 32 ∨ (Rect.block (s := S65536x128) S8192x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S65536x128.size a
  hwx3_1 : ∀ i : grid3.Coords, EltTy.bits .f32 = 32 ∨ (Rect.block (s := S65536x128) S8192x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8192x128.size a ≤ S65536x128.size a
  hwx3_4 : ∀ i : grid3.Coords, EltTy.bits .f32 = 32 ∨ (Rect.block (s := S65536x128) S8192x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S262144x128.size a
  hwx4_0 : ∀ i : grid4.Coords, EltTy.bits .f32 = 32 ∨ (Rect.block (s := S262144x128) S4096x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x7.size a ≤ S262144x7.size a
  hwx4_1 : ∀ i : grid4.Coords, EltTy.bits .f32 = 32 ∨ (Rect.block (s := S262144x7) S4096x7.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x896.size a ≤ S128x896.size a
  hwx4_2 : ∀ i : grid4.Coords, EltTy.bits .f32 = 32 ∨ (Rect.block (s := S128x896) S128x896.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x896.size a ≤ S1x896.size a
  hwx4_3 : ∀ i : grid4.Coords, EltTy.bits .f32 = 32 ∨ (Rect.block (s := S1x896) S1x896.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4096x128.size a ≤ S262144x128.size a
  hwx4_4 : ∀ i : grid4.Coords, EltTy.bits .f32 = 32 ∨ (Rect.block (s := S262144x128) S4096x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x128.size a ≤ S65536x128.size a
  hwx5_0 : ∀ i : grid5.Coords, EltTy.bits .f32 = 32 ∨ (Rect.block (s := S65536x128) S8192x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x128.size a ≤ S65536x128.size a
  hwx5_1 : ∀ i : grid5.Coords, EltTy.bits .f32 = 32 ∨ (Rect.block (s := S65536x128) S8192x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S8192x128.size a ≤ S65536x128.size a
  hwx5_4 : ∀ i : grid5.Coords, EltTy.bits .f32 = 32 ∨ (Rect.block (s := S65536x128) S8192x128.size (cc5_transform_4 i) (hinb5_4 i)).WholeWords (EltTy.packing .f32)

variable [Facts₀]

def gather_S65536x128_S262144x1_S262144x128_1_0_n_n_0_1_1128 : GatherDims S65536x128 S262144x1 S262144x128 where
  offsetDims := [1]
  collapsedSliceDims := [0]
  operandBatchingDims := []
  startIndicesBatchingDims := []
  startIndexMap := [0]
  indexVectorDim := 1
  sliceSizes := ![1, 128]
  wf := gather_S65536x128_S262144x1_S262144x128_1_0_n_n_0_1_1128_wf
def dot_S4096x128_S128x896_S4096x896_1_0_0_1_n_n : DotDims S4096x128 S128x896 S4096x896 where
  lhsContracting := [1]
  rhsContracting := [0]
  lhsNonContracting := [0]
  rhsNonContracting := [1]
  lhsBatch := []
  rhsBatch := []
  wf := dot_S4096x128_S128x896_S4096x896_1_0_0_1_n_n_wf
def scatter_S65536x128_S262144x1_S262144x128_1_0_0_1 : ScatterDims S65536x128 S262144x1 S262144x128 where
  updateWindowDims := [1]
  insertedWindowDims := [0]
  scatterDimsToOperandDims := [0]
  indexVectorDim := 1
  wf := scatter_S65536x128_S262144x1_S262144x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S32x128_S65536x1_S65536x128_1_0_0_1 : ScatterDims S32x128 S65536x1 S65536x128 where
  updateWindowDims := [1]
  insertedWindowDims := [0]
  scatterDimsToOperandDims := [0]
  indexVectorDim := 1
  wf := scatter_S32x128_S65536x1_S65536x128_1_0_0_1_wf

abbrev win0_0 : Pipeline.Window sig grid0 :=
  Pipeline.Window.ofSpec (Memref.whole main_v6) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x896.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x896.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S8192x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S4096x7.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x896.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1x896.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S4096x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v14) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S8192x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S8192x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v36) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S4096x7.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128x896.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v38) S1x896.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v39) S4096x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v29) S8192x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v42) S8192x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v43) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v44) S8192x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S65536x128 : Shape := ⟨2, ![65536, 128]⟩
abbrev S128x128 : Shape := ⟨2, ![128, 128]⟩
abbrev S128 : Shape := ⟨1, ![128]⟩
abbrev S128x896 : Shape := ⟨2, ![128, 896]⟩
abbrev S896 : Shape := ⟨1, ![896]⟩
abbrev S262144 : Shape := ⟨1, ![262144]⟩
abbrev S65536 : Shape := ⟨1, ![65536]⟩
abbrev S1x128 : Shape := ⟨2, ![1, 128]⟩
abbrev S_ : Shape := ⟨0, ![]⟩
abbrev S262144x1 : Shape := ⟨2, ![262144, 1]⟩
abbrev S262144x128 : Shape := ⟨2, ![262144, 128]⟩
abbrev S262144x896 : Shape := ⟨2, ![262144, 896]⟩
abbrev S1x896 : Shape := ⟨2, ![1, 896]⟩
abbrev S262144x7x128 : Shape := ⟨3, ![262144, 7, 128]⟩
abbrev S262144x1x1 : Shape := ⟨3, ![262144, 1, 1]⟩
abbrev S1 : Shape := ⟨1, ![1]⟩
abbrev S1x1x1 : Shape := ⟨3, ![1, 1, 1]⟩
abbrev S262144x1x128 : Shape := ⟨3, ![262144, 1, 128]⟩
abbrev S32x128 : Shape := ⟨2, ![32, 128]⟩
abbrev S65536x1 : Shape := ⟨2, ![65536, 1]⟩

abbrev nBuf : Space → Nat
  | .hbm => 174
  | .vmem => 0
  | .smem => 0
  | _ => 0

abbrev hbmTy0_0 (i : Nat) : BufTy := match i % 128 with
  | 0 => ⟨S65536x128, .f32⟩
  | 1 => ⟨S128x128, .f32⟩
  | 2 => ⟨S128, .f32⟩
  | 3 => ⟨S128x896, .f32⟩
  | 4 => ⟨S896, .f32⟩
  | 5 => ⟨S128x128, .f32⟩
  | 6 => ⟨S128, .f32⟩
  | 7 => ⟨S128x896, .f32⟩
  | 8 => ⟨S896, .f32⟩
  | 9 => ⟨S128x128, .f32⟩
  | 10 => ⟨S128, .f32⟩
  | 11 => ⟨S128x896, .f32⟩
  | 12 => ⟨S896, .f32⟩
  | 13 => ⟨S262144, .i32⟩
  | 14 => ⟨S262144, .i32⟩
  | 15 => ⟨S262144, .i32⟩
  | 16 => ⟨S65536, .i32⟩
  | 17 => ⟨S65536x128, .f32⟩
  | 18 => ⟨S1x128, .f32⟩
  | 19 => ⟨S65536x128, .f32⟩
  | 20 => ⟨S65536x128, .f32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S262144x1, .i32⟩
  | 29 => ⟨S262144x128, .f32⟩
  | 30 => ⟨S262144x896, .f32⟩
  | 31 => ⟨S1x896, .f32⟩
  | 32 => ⟨S262144x896, .f32⟩
  | 33 => ⟨S262144x896, .f32⟩
  | 34 => ⟨S262144x7x128, .f32⟩
  | 35 => ⟨S262144x1x1, .i32⟩
  | 36 => ⟨S_, .i32⟩
  | 37 => ⟨S262144x1x1, .i32⟩
  | 38 => ⟨S262144x1x1, .i1⟩
  | 39 => ⟨S_, .i32⟩
  | 40 => ⟨S262144x1x1, .i32⟩
  | 41 => ⟨S262144x1x1, .i32⟩
  | 42 => ⟨S262144x1x1, .i32⟩
  | 43 => ⟨S1, .i32⟩
  | 44 => ⟨S_, .i32⟩
  | 45 => ⟨S262144x1x1, .i32⟩
  | 46 => ⟨S262144x1x1, .i1⟩
  | 47 => ⟨S1x1x1, .i32⟩
  | 48 => ⟨S262144x1x1, .i32⟩
  | 49 => ⟨S262144x1x1, .i1⟩
  | 50 => ⟨S262144x1x1, .i1⟩
  | 51 => ⟨S_, .i1⟩
  | 52 => ⟨S262144x1, .i1⟩
  | 53 => ⟨S262144x1x128, .f32⟩
  | 54 => ⟨S262144x1x128, .i1⟩
  | 55 => ⟨S_, .f32⟩
  | 56 => ⟨S262144x1x128, .f32⟩
  | 57 => ⟨S262144x1x128, .f32⟩
  | 58 => ⟨S262144x128, .f32⟩
  | 59 => ⟨S_, .f32⟩
  | 60 => ⟨S65536x128, .f32⟩
  | 61 => ⟨S262144x1, .i32⟩
  | 62 => ⟨S65536x128, .f32⟩
  | 63 => ⟨S65536x128, .f32⟩
  | 64 => ⟨S_, .f32⟩
  | 65 => ⟨S65536x128, .f32⟩
  | 66 => ⟨S65536x128, .f32⟩
  | 67 => ⟨S65536x128, .f32⟩
  | 68 => ⟨S65536x128, .f32⟩
  | 69 => ⟨S1x128, .f32⟩
  | 70 => ⟨S65536x128, .f32⟩
  | 71 => ⟨S65536x128, .f32⟩
  | 72 => ⟨S_, .i32⟩
  | 73 => ⟨S262144, .i32⟩
  | 74 => ⟨S262144, .i1⟩
  | 75 => ⟨S_, .i32⟩
  | 76 => ⟨S262144, .i32⟩
  | 77 => ⟨S262144, .i32⟩
  | 78 => ⟨S262144, .i32⟩
  | 79 => ⟨S262144x1, .i32⟩
  | 80 => ⟨S262144x128, .f32⟩
  | 81 => ⟨S262144x896, .f32⟩
  | 82 => ⟨S1x896, .f32⟩
  | 83 => ⟨S262144x896, .f32⟩
  | 84 => ⟨S262144x896, .f32⟩
  | 85 => ⟨S262144x7x128, .f32⟩
  | 86 => ⟨S262144x1x1, .i32⟩
  | 87 => ⟨S_, .i32⟩
  | 88 => ⟨S262144x1x1, .i32⟩
  | 89 => ⟨S262144x1x1, .i1⟩
  | 90 => ⟨S_, .i32⟩
  | 91 => ⟨S262144x1x1, .i32⟩
  | 92 => ⟨S262144x1x1, .i32⟩
  | 93 => ⟨S262144x1x1, .i32⟩
  | 94 => ⟨S1, .i32⟩
  | 95 => ⟨S_, .i32⟩
  | 96 => ⟨S262144x1x1, .i32⟩
  | 97 => ⟨S262144x1x1, .i1⟩
  | 98 => ⟨S1x1x1, .i32⟩
  | 99 => ⟨S262144x1x1, .i32⟩
  | 100 => ⟨S262144x1x1, .i1⟩
  | 101 => ⟨S262144x1x1, .i1⟩
  | 102 => ⟨S_, .i1⟩
  | 103 => ⟨S262144x1, .i1⟩
  | 104 => ⟨S262144x1x128, .f32⟩
  | 105 => ⟨S262144x1x128, .i1⟩
  | 106 => ⟨S_, .f32⟩
  | 107 => ⟨S262144x1x128, .f32⟩
  | 108 => ⟨S262144x1x128, .f32⟩
  | 109 => ⟨S262144x128, .f32⟩
  | 110 => ⟨S_, .f32⟩
  | 111 => ⟨S65536x128, .f32⟩
  | 112 => ⟨S262144x1, .i32⟩
  | 113 => ⟨S65536x128, .f32⟩
  | 114 => ⟨S65536x128, .f32⟩
  | 115 => ⟨S_, .f32⟩
  | 116 => ⟨S65536x128, .f32⟩
  | 117 => ⟨S65536x128, .f32⟩
  | 118 => ⟨S65536x128, .f32⟩
  | 119 => ⟨S65536x128, .f32⟩
  | 120 => ⟨S1x128, .f32⟩
  | 121 => ⟨S65536x128, .f32⟩
  | 122 => ⟨S65536x128, .f32⟩
  | 123 => ⟨S_, .i32⟩
  | 124 => ⟨S262144, .i32⟩
  | 125 => ⟨S262144, .i1⟩
  | 126 => ⟨S_, .i32⟩
  | 127 => ⟨S262144, .i32⟩
  | _ => ⟨S65536x128, .f32⟩

abbrev hbmTy0_1 (i : Nat) : BufTy := match i % 128 with
  | 0 => ⟨S262144, .i32⟩
  | 1 => ⟨S262144, .i32⟩
  | 2 => ⟨S262144x1, .i32⟩
  | 3 => ⟨S262144x128, .f32⟩
  | 4 => ⟨S262144x896, .f32⟩
  | 5 => ⟨S1x896, .f32⟩
  | 6 => ⟨S262144x896, .f32⟩
  | 7 => ⟨S262144x896, .f32⟩
  | 8 => ⟨S262144x7x128, .f32⟩
  | 9 => ⟨S262144x1x1, .i32⟩
  | 10 => ⟨S_, .i32⟩
  | 11 => ⟨S262144x1x1, .i32⟩
  | 12 => ⟨S262144x1x1, .i1⟩
  | 13 => ⟨S_, .i32⟩
  | 14 => ⟨S262144x1x1, .i32⟩
  | 15 => ⟨S262144x1x1, .i32⟩
  | 16 => ⟨S262144x1x1, .i32⟩
  | 17 => ⟨S1, .i32⟩
  | 18 => ⟨S_, .i32⟩
  | 19 => ⟨S262144x1x1, .i32⟩
  | 20 => ⟨S262144x1x1, .i1⟩
  | 21 => ⟨S1x1x1, .i32⟩
  | 22 => ⟨S262144x1x1, .i32⟩
  | 23 => ⟨S262144x1x1, .i1⟩
  | 24 => ⟨S262144x1x1, .i1⟩
  | 25 => ⟨S_, .i1⟩
  | 26 => ⟨S262144x1, .i1⟩
  | 27 => ⟨S262144x1x128, .f32⟩
  | 28 => ⟨S262144x1x128, .i1⟩
  | 29 => ⟨S_, .f32⟩
  | 30 => ⟨S262144x1x128, .f32⟩
  | 31 => ⟨S262144x1x128, .f32⟩
  | 32 => ⟨S262144x128, .f32⟩
  | 33 => ⟨S_, .f32⟩
  | 34 => ⟨S65536x128, .f32⟩
  | 35 => ⟨S262144x1, .i32⟩
  | 36 => ⟨S65536x128, .f32⟩
  | 37 => ⟨S65536x128, .f32⟩
  | 38 => ⟨S_, .f32⟩
  | 39 => ⟨S65536x128, .f32⟩
  | 40 => ⟨S65536x128, .f32⟩
  | 41 => ⟨S65536x128, .f32⟩
  | 42 => ⟨S_, .f32⟩
  | 43 => ⟨S32x128, .f32⟩
  | 44 => ⟨S65536x1, .i32⟩
  | 45 => ⟨S32x128, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_1 : Ref sig .tc := ⟨.hbm, 43, rfl⟩
abbrev main_call0_c_2 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_c_3 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_cst : Ref sig .tc := ⟨.hbm, 55, rfl⟩
abbrev main_call0_v14 : Ref sig .tc := ⟨.hbm, 56, rfl⟩
abbrev main_v17 : Ref sig .tc := ⟨.hbm, 57, rfl⟩
abbrev main_v18 : Ref sig .tc := ⟨.hbm, 58, rfl⟩
abbrev main_cst : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_call1_cst : Ref sig .tc := ⟨.hbm, 64, rfl⟩
abbrev main_call1_v0 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_c_1 : Ref sig .tc := ⟨.hbm, 72, rfl⟩
abbrev main_v29 : Ref sig .tc := ⟨.hbm, 73, rfl⟩
abbrev main_v30 : Ref sig .tc := ⟨.hbm, 74, rfl⟩
abbrev main_c_2 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_1 : Ref sig .tc := ⟨.hbm, 94, rfl⟩
abbrev main_call2_c_2 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_c_3 : Ref sig .tc := ⟨.hbm, 102, rfl⟩
abbrev main_call2_v11 : Ref sig .tc := ⟨.hbm, 103, rfl⟩
abbrev main_call2_v12 : Ref sig .tc := ⟨.hbm, 104, rfl⟩
abbrev main_call2_v13 : Ref sig .tc := ⟨.hbm, 105, rfl⟩
abbrev main_call2_cst : Ref sig .tc := ⟨.hbm, 106, rfl⟩
abbrev main_call2_v14 : Ref sig .tc := ⟨.hbm, 107, rfl⟩
abbrev main_v42 : Ref sig .tc := ⟨.hbm, 108, rfl⟩
abbrev main_v43 : Ref sig .tc := ⟨.hbm, 109, rfl⟩
abbrev main_cst_3 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_call3_cst : Ref sig .tc := ⟨.hbm, 115, rfl⟩
abbrev main_call3_v0 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_c_4 : Ref sig .tc := ⟨.hbm, 123, rfl⟩
abbrev main_v54 : Ref sig .tc := ⟨.hbm, 124, rfl⟩
abbrev main_v55 : Ref sig .tc := ⟨.hbm, 125, rfl⟩
abbrev main_c_5 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_call4_c : Ref sig .tc := ⟨.hbm, 138, rfl⟩
abbrev main_call4_v0 : Ref sig .tc := ⟨.hbm, 139, rfl⟩
abbrev main_call4_v1 : Ref sig .tc := ⟨.hbm, 140, rfl⟩
abbrev main_call4_c_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_c_1 : Ref sig .tc := ⟨.hbm, 145, rfl⟩
abbrev main_call4_c_2 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_call4_c_3 : Ref sig .tc := ⟨.hbm, 153, rfl⟩
abbrev main_call4_v11 : Ref sig .tc := ⟨.hbm, 154, rfl⟩
abbrev main_call4_v12 : Ref sig .tc := ⟨.hbm, 155, rfl⟩
abbrev main_call4_v13 : Ref sig .tc := ⟨.hbm, 156, rfl⟩
abbrev main_call4_cst : Ref sig .tc := ⟨.hbm, 157, rfl⟩
abbrev main_call4_v14 : Ref sig .tc := ⟨.hbm, 158, rfl⟩
abbrev main_v67 : Ref sig .tc := ⟨.hbm, 159, rfl⟩
abbrev main_v68 : Ref sig .tc := ⟨.hbm, 160, rfl⟩
abbrev main_cst_6 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_call5_cst : Ref sig .tc := ⟨.hbm, 166, rfl⟩
abbrev main_call5_v0 : Ref sig .tc := ⟨.hbm, 167, rfl⟩
abbrev main_v73 : Ref sig .tc := ⟨.hbm, 168, rfl⟩
abbrev main_v74 : Ref sig .tc := ⟨.hbm, 169, rfl⟩
abbrev main_cst_7 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S262144 : S_.BroadcastsInDim S262144 (![] : Fin 0 → Fin S262144.rank)
  bcast_S262144_S262144x1_0 : S262144.BroadcastsInDim S262144x1 (![0] : Fin 1 → Fin S262144x1.rank)
  bcast_S896_S1x896_1 : S896.BroadcastsInDim S1x896 (![1] : Fin 1 → Fin S1x896.rank)
  bcast_S1x896_S262144x896_0_1 : S1x896.BroadcastsInDim S262144x896 (![0, 1] : Fin 2 → Fin S262144x896.rank)
  shapeCasts_S262144x896_S262144x7x128 : S262144x896.ShapeCasts S262144x7x128
  bcast_S262144_S262144x1x1_0 : S262144.BroadcastsInDim S262144x1x1 (![0] : Fin 1 → Fin S262144x1x1.rank)
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  bcast_S262144x1_S262144x1x128_0_1 : S262144x1.BroadcastsInDim S262144x1x128 (![0, 1] : Fin 2 → Fin S262144x1x128.rank)
  bcast_S_S262144x1x128 : S_.BroadcastsInDim S262144x1x128 (![] : Fin 0 → Fin S262144x1x128.rank)
  shapeCasts_S262144x1x128_S262144x128 : S262144x1x128.ShapeCasts S262144x128
  bcast_S_S65536x128 : S_.BroadcastsInDim S65536x128 (![] : Fin 0 → Fin S65536x128.rank)
  bcast_S_S32x128 : S_.BroadcastsInDim S32x128 (![] : Fin 0 → Fin S32x128.rank)
  bcast_S65536_S65536x1_0 : S65536.BroadcastsInDim S65536x1 (![0] : Fin 1 → Fin S65536x1.rank)
  dot_S65536x128_S128x128_S65536x128_1_0_0_1_n_n_wf : DotDims.WF S65536x128 S128x128 S65536x128 [1] [0] [0] [1] [] []
  gather_S65536x128_S262144x1_S262144x128_1_0_n_n_0_1_1128_wf : GatherDims.WF S65536x128 S262144x1 S262144x128 [1] [0] [] [0] [] 1 ![1, 128]
  dot_S262144x128_S128x896_S262144x896_1_0_0_1_n_n_wf : DotDims.WF S262144x128 S128x896 S262144x896 [1] [0] [0] [1] [] []
  gather_S262144x7x128_S262144x1x1_S262144x1x128_2_1_0_0_1_2_11128_wf : GatherDims.WF S262144x7x128 S262144x1x1 S262144x1x128 [2] [1] [0] [1] [0] 2 ![1, 1, 128]
  scatter_S65536x128_S262144x1_S262144x128_1_0_0_1_wf : ScatterDims.WF S65536x128 S262144x1 S262144x128 [1] [0] [0] 1
  scatter_S32x128_S65536x1_S65536x128_1_0_0_1_wf : ScatterDims.WF S32x128 S65536x1 S65536x128 [1] [0] [0] 1

variable [Facts₀]

def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def gather_S65536x128_S262144x1_S262144x128_1_0_n_n_0_1_1128 : GatherDims S65536x128 S262144x1 S262144x128 where
  offsetDims := [1]
  collapsedSliceDims := [0]
  operandBatchingDims := []
  startIndicesBatchingDims := []
  startIndexMap := [0]
  indexVectorDim := 1
  sliceSizes := ![1, 128]
  wf := gather_S65536x128_S262144x1_S262144x128_1_0_n_n_0_1_1128_wf
def dot_S262144x128_S128x896_S262144x896_1_0_0_1_n_n : DotDims S262144x128 S128x896 S262144x896 where
  lhsContracting := [1]
  rhsContracting := [0]
  lhsNonContracting := [0]
  rhsNonContracting := [1]
  lhsBatch := []
  rhsBatch := []
  wf := dot_S262144x128_S128x896_S262144x896_1_0_0_1_n_n_wf
def gather_S262144x7x128_S262144x1x1_S262144x1x128_2_1_0_0_1_2_11128 : GatherDims S262144x7x128 S262144x1x1 S262144x1x128 where
  offsetDims := [2]
  collapsedSliceDims := [1]
  operandBatchingDims := [0]
  startIndicesBatchingDims := [0]
  startIndexMap := [1]
  indexVectorDim := 2
  sliceSizes := ![1, 1, 128]
  wf := gather_S262144x7x128_S262144x1x1_S262144x1x128_2_1_0_0_1_2_11128_wf
def scatter_S65536x128_S262144x1_S262144x128_1_0_0_1 : ScatterDims S65536x128 S262144x1 S262144x128 where
  updateWindowDims := [1]
  insertedWindowDims := [0]
  scatterDimsToOperandDims := [0]
  indexVectorDim := 1
  wf := scatter_S65536x128_S262144x1_S262144x128_1_0_0_1_wf
def scatter_S32x128_S65536x1_S65536x128_1_0_0_1 : ScatterDims S32x128 S65536x1 S65536x128 where
  updateWindowDims := [1]
  insertedWindowDims := [0]
  scatterDimsToOperandDims := [0]
  indexVectorDim := 1
  wf := scatter_S32x128_S65536x1_S65536x128_1_0_0_1_wf

class Facts : Prop extends Facts₀ where

variable [Facts]
-- ==== Proof.Spec.lean ====
/-
  The mathematics of one layer of the relational graph convolution, over the extended reals, free of both programs.

  An edge e carries a source row xr : Fin 128 → EReal (the features of its source node) and a relation label.
  The layer applies ONE affine map into 7·128 columns, dense xr W b j = (∑ k, xr k · W[k, j]) + b[j], and keeps the
  128 columns 128·r + d of the edge's own relation r.  One program keeps them by a weighted sum over all seven
  relation slices with the indicator row of the label as weights (accumulated from zero, slice 0 first); the other
  reads slice r directly.  msgRow_indicator says the two agree on every extended real: a zero weight annihilates
  its slice (0 · x = 0 also at the infinities), the unit weight keeps it, and zero is neutral for the sum.

  A node n then takes max ((∑ k, x[n,k] · Ws[k,d] + bs[d]) + agg[n,d]) 0 + x[n,d]: updRow.
-/
import Idealize.ShloMosaic.PureOps.Ideal
import Idealize.ShloMosaic.Lib.ValueIdx

noncomputable section

namespace Cert.RelConv

open Idealize.ShloMosaic Idealize.ShloMosaic.ValueIdx

/-- The shapes of one layer: edges × features, edges × relations, the two weight matrices, nodes × features. A bias is a plain row. -/
abbrev SE128 : Shape := ⟨2, ![262144, 128]⟩
abbrev SE7 : Shape := ⟨2, ![262144, 7]⟩
abbrev SW896 : Shape := ⟨2, ![128, 896]⟩
abbrev SN128 : Shape := ⟨2, ![65536, 128]⟩
abbrev SE : Shape := ⟨1, ![262144]⟩
abbrev SW128 : Shape := ⟨2, ![128, 128]⟩

/-- Column 128·r + d of the 896: feature d of relation slice r. -/
def col (r : Fin 7) (d : Fin 128) : Fin 896 := ⟨128 * r.val + d.val, by have := r.isLt; have := d.isLt; omega⟩

theorem col_val (r : Fin 7) (d : Fin 128) : (col r d).val = 128 * r.val + d.val := rfl

/-- The affine map of one source row into column j. -/
def dense (xr : Fin 128 → EReal) (W : SW896.Idx → EReal) (b : Fin 896 → EReal) (j : Fin 896) : EReal :=
  (∑ k : Fin 128, xr k * W (ix2 k j)) + b j

/-- The weighted sum over the seven relation slices, accumulated from zero with slice 0 first. -/
def msgRow (xr : Fin 128 → EReal) (w : Fin 7 → EReal) (W : SW896.Idx → EReal) (b : Fin 896 → EReal) (d : Fin 128) : EReal :=
  0 + w 0 * dense xr W b (col 0 d) + w 1 * dense xr W b (col 1 d) + w 2 * dense xr W b (col 2 d)
    + w 3 * dense xr W b (col 3 d) + w 4 * dense xr W b (col 4 d) + w 5 * dense xr W b (col 5 d)
    + w 6 * dense xr W b (col 6 d)

/-- With the indicator of relation r as weights the weighted sum is slice r, on all of the extended reals. -/
theorem msgRow_indicator (xr : Fin 128 → EReal) (r : Fin 7) (W : SW896.Idx → EReal) (b : Fin 896 → EReal) (d : Fin 128) :
    msgRow xr (fun s => if s.val = r.val then 1 else 0) W b d = dense xr W b (col r d) := by
  unfold msgRow
  fin_cases r <;> simp

/-- The message array: row e of the result is the weighted sum of row e of the sources with row e of the weights. -/
def msgArr (nb : SE128.Idx → EReal) (oh : SE7.Idx → EReal) (W : SW896.Idx → EReal) (b : Fin 896 → EReal) : SE128.Idx → EReal :=
  fun i => msgRow (fun k => nb (ix2 (n0 := 262144) (i 0) k)) (fun s => oh (ix2 (n0 := 262144) (i 0) s)) W b (i 1)

theorem msgArr_apply (nb : SE128.Idx → EReal) (oh : SE7.Idx → EReal) (W : SW896.Idx → EReal) (b : Fin 896 → EReal)
    (e : Fin 262144) (d : Fin 128) :
    msgArr nb oh W b (ix2 e d) = msgRow (fun k => nb (ix2 e k)) (fun s => oh (ix2 e s)) W b d := rfl

/-- The relation labels are in range: every edge's label, read as a natural number, is below 7. -/
def InRange (rel : SE.Idx → BitVec 32) : Prop := ∀ e : Fin 262144, (rel (ix1 e)).toNat < 7

/-- The label of edge e as a relation index. -/
def relOf (rel : SE.Idx → BitVec 32) (h : InRange rel) (e : Fin 262144) : Fin 7 := ⟨(rel (ix1 e)).toNat, h e⟩

/-- The indicator array of a labelling: 1 at (e, r e), 0 elsewhere. -/
def indicator (r : Fin 262144 → Fin 7) : SE7.Idx → EReal :=
  fun i => if (i 1).val = (r (i 0)).val then 1 else 0

theorem indicator_apply (r : Fin 262144 → Fin 7) (e : Fin 262144) (s : Fin 7) :
    indicator r (ix2 e s) = if s.val = (r e).val then 1 else 0 := rfl

/-- The selected-slice array: row e of the result is slice r e of the affine image of row e of the sources. -/
def selArr (nb : SE128.Idx → EReal) (r : Fin 262144 → Fin 7) (W : SW896.Idx → EReal) (b : Fin 896 → EReal) : SE128.Idx → EReal :=
  fun i => dense (fun k => nb (ix2 (n0 := 262144) (i 0) k)) W b (col (r (i 0)) (i 1))

theorem selArr_apply (nb : SE128.Idx → EReal) (r : Fin 262144 → Fin 7) (W : SW896.Idx → EReal) (b : Fin 896 → EReal)
    (e : Fin 262144) (d : Fin 128) :
    selArr nb r W b (ix2 e d) = dense (fun k => nb (ix2 e k)) W b (col (r e) d) := rfl

/-- With the indicator array of a labelling as weights the weighted slice sum is the selected slice, array-wise. -/
theorem msgArr_indicator (nb : SE128.Idx → EReal) (r : Fin 262144 → Fin 7) (W : SW896.Idx → EReal) (b : Fin 896 → EReal) :
    msgArr nb (indicator r) W b = selArr nb r W b := by
  funext i
  obtain ⟨e, d, rfl⟩ : ∃ (e : Fin 262144) (d : Fin 128), i = ix2 e d := ⟨i 0, i 1, eq_ix2 i⟩
  rw [msgArr_apply, selArr_apply]
  exact msgRow_indicator _ (r e) W b d

/-- One node's update at feature d: the self-loop affine map plus the aggregate, clamped at zero, plus the node's own feature. -/
def updRow (xr : Fin 128 → EReal) (a : EReal) (Ws : SW128.Idx → EReal) (bs : Fin 128 → EReal) (d : Fin 128) : EReal :=
  max (((∑ k : Fin 128, xr k * Ws (ix2 k d)) + bs d) + a) 0 + xr d

/-- The updated node array. -/
def updArr (x : SN128.Idx → EReal) (agg : SN128.Idx → EReal) (Ws : SW128.Idx → EReal) (bs : Fin 128 → EReal) : SN128.Idx → EReal :=
  fun i => updRow (fun k => x (ix2 (n0 := 65536) (i 0) k)) (agg i) Ws bs (i 1)

theorem updArr_apply (x agg : SN128.Idx → EReal) (Ws : SW128.Idx → EReal) (bs : Fin 128 → EReal) (n : Fin 65536) (d : Fin 128) :
    updArr x agg Ws bs (ix2 n d) = updRow (fun k => x (ix2 n k)) (agg (ix2 n d)) Ws bs d := rfl

end Cert.RelConv

end
-- ==== Proof.KLayer.lean ====
/-
  The kernel program's layer in normal form.  Around its two regions the program runs host operations: the source rows of
  the edges are gathered from the node array (negative node numbers wrapped once by the node count), the relation labels
  are turned into an indicator array by comparing each label with 0..6, the two biases are reshaped into rows, and the
  per-edge messages are summed into their destination nodes by a scatter-sum into zeros.  srcRows, nodeSum and oneHot
  name those host chains as the program spells them; layerK is one layer as a function of the node array and the layer's
  parameters, with the selected-slice array in the place of the weighted slice sum (the two agree when every label is in
  range: oneHot_eq and Cert.RelConv.msgArr_indicator).
-/
import proofs.«423819_j7524782702912_1_alg».proof.KernelIdeal
import proofs.«423819_j7524782702912_1_alg».proof.Proof.Gen.KernelIdeal
import proofs.«423819_j7524782702912_1_alg».proof.Proof.Spec
import Idealize.ShloMosaic.Lib.StableHlo.Predicate
import Idealize.ShloMosaic.Lib.Pipeline.Value
import Idealize.ShloMosaic.Lib.ValueIdx
import Idealize.ShloMosaic.Lib.Affine

noncomputable section

namespace Cert.KernelIdeal.Layer

open Cert.KernelIdeal Cert.KernelIdeal.Gen
open Idealize.ShloMosaic Idealize.ShloMosaic.TcCoe Idealize.SL.Sem Idealize.ShloMosaic.ValueIdx Cert.RelConv

/-- The source rows of the edges: row e is row node_in e of the node array (a negative number wrapped by 65536 first). -/
def srcRows (x : Vec Ideal S65536x128 .f32) (nin : IVec S262144 32) : Vec Ideal S262144x128 .f32 :=
  Host.gather gather_S65536x128_S262144x1_S262144x128_1_0_n_n_0_1_1128 x
    (broadcastInDim S262144x1 ![0] bcast_S262144_S262144x1_0
      (select (cmpi .slt nin (broadcastInDim S262144 ![] bcast_S_S262144 (constantI S_ 32 0#32)))
        (addi nin (broadcastInDim S262144 ![] bcast_S_S262144 (constantI S_ 32 65536#32))) nin))

/-- The messages summed into their destination nodes, from zeros. -/
def nodeSum (nout : IVec S262144 32) (msg : Vec Ideal S262144x128 .f32) : Vec Ideal S65536x128 .f32 :=
  Host.scatterAdd scatter_S65536x128_S262144x1_S262144x128_1_0_0_1
    (broadcastInDim S65536x128 ![] bcast_S_S65536x128 (constant (F := Ideal) S_ .f32 0x00000000#32))
    (broadcastInDim S262144x1 ![0] bcast_S262144_S262144x1_0 nout) msg

/-- The labels against 0..6, as floats: the program's indicator array. -/
def oneHot (rel : IVec S262144 32) : Vec Ideal S262144x7 .f32 :=
  uitofp (F := Ideal) .f32 (cmpi .eq
    (broadcastInDim S262144x7 ![0, 1] bcast_S262144x1_S262144x7_0_1 (broadcastInDim S262144x1 ![0] bcast_S262144_S262144x1_0 rel))
    (broadcastInDim S262144x7 ![0, 1] bcast_S1x7_S262144x7_0_1 (iotaInDim S1x7 32 1)))

/-- One layer: the update of the node array by the node sums of the selected-slice messages of the source rows. -/
def layerK (x : Vec Ideal S65536x128 .f32) (Ws : Vec Ideal S128x128 .f32) (bs : Vec Ideal S128 .f32)
    (Wr : Vec Ideal S128x896 .f32) (br : Vec Ideal S896 .f32) (nin nout : IVec S262144 32) (r : Fin 262144 → Fin 7) :
    Vec Ideal S65536x128 .f32 :=
  updArr x (nodeSum nout (selArr (srcRows x nin) r Wr (fun j => br (ix1 j)))) Ws (fun d => bs (ix1 d))

/-- A label broadcast along the seven columns reads the label of its row. -/
theorem label_at (rel : IVec S262144 32) (e : Fin 262144) (s : Fin 7) :
    broadcastInDim S262144x7 ![0, 1] bcast_S262144x1_S262144x7_0_1 (broadcastInDim S262144x1 ![0] bcast_S262144_S262144x1_0 rel) (ix2 e s)
      = rel (ix1 e) := by
  have h1 : (ix2 e s : S262144x7.Idx) = StableHlo.Predicate.ij e s :=
    funext fun a => by match a with | ⟨0, _⟩ => rfl | ⟨1, _⟩ => rfl
  have h2 : (Shape.Idx.ofFin e : S262144.Idx) = ix1 e := funext fun a => by match a with | ⟨0, _⟩ => rfl
  rw [h1]
  exact (StableHlo.Predicate.bcast_rows _ _ rel e s).trans (congrArg rel h2)

/-- The counting row 0..6 broadcast down the rows reads its column's number. -/
theorem count_at (e : Fin 262144) (s : Fin 7) :
    broadcastInDim S262144x7 ![0, 1] bcast_S1x7_S262144x7_0_1 (iotaInDim S1x7 32 1) (ix2 e s) = BitVec.ofNat 32 s.val := by
  rfl

/-- With every label in range the program's indicator array is the indicator of the labelling. -/
theorem oneHot_eq (rel : IVec S262144 32) (hrel : InRange rel) : oneHot rel = indicator (relOf rel hrel) := by
  funext i
  obtain ⟨e, s, rfl⟩ : ∃ (e : Fin 262144) (s : Fin 7), i = ix2 e s := ⟨i 0, i 1, eq_ix2 i⟩
  rw [indicator_apply]
  show (((IntOp.cmpi .eq
      (broadcastInDim S262144x7 ![0, 1] bcast_S262144x1_S262144x7_0_1 (broadcastInDim S262144x1 ![0] bcast_S262144_S262144x1_0 rel) (ix2 e s))
      (broadcastInDim S262144x7 ![0, 1] bcast_S1x7_S262144x7_0_1 (iotaInDim S1x7 32 1) (ix2 e s))).toNat : ℝ) : EReal) = _
  rw [label_at, count_at]
  have h7 : (rel (ix1 e)).toNat < 7 := hrel e
  have hs : s.val < 7 := s.isLt
  by_cases hq : s.val = (rel (ix1 e)).toNat
  · have : rel (ix1 e) = BitVec.ofNat 32 s.val := by
      apply BitVec.eq_of_toNat_eq; rw [BitVec.toNat_ofNat]; omega
    rw [(IntOp.cmpi_eq).mpr this, if_pos (by exact hq)]
    simp
  · have : rel (ix1 e) ≠ BitVec.ofNat 32 s.val := by
      intro h; apply hq; rw [h, BitVec.toNat_ofNat]; omega
    have h0 : IntOp.cmpi .eq (rel (ix1 e)) (BitVec.ofNat 32 s.val) = 0#1 := by
      have := (IntOp.cmpi_eq (x := rel (ix1 e)) (y := BitVec.ofNat 32 s.val)).not.mpr this
      revert this; generalize IntOp.cmpi .eq (rel (ix1 e)) (BitVec.ofNat 32 s.val) = w; intro hw
      have := w.isLt; apply BitVec.eq_of_toNat_eq; have h1 : w.toNat ≠ 1 := fun h => hw (BitVec.eq_of_toNat_eq h); simp; omega
    rw [h0, if_neg (by exact hq)]
    simp

/-- A bias reshaped into a one-row array reads, in that row, the bias. -/
theorem biasRow896 (b : Vec Ideal S896 .f32) (j : Fin 896) :
    shapeCast S1x896 b shapeCasts_S896_S1x896 (ix2 0 j) = b (ix1 j) := by
  rw [shapeCast_addUnit_apply]
  exact congrArg b (funext fun a => by match a with | ⟨0, _⟩ => rfl)

theorem biasRow128 (b : Vec Ideal S128 .f32) (d : Fin 128) :
    shapeCast S1x128 b shapeCasts_S128_S1x128 (ix2 0 d) = b (ix1 d) := by
  rw [shapeCast_addUnit_apply]
  exact congrArg b (funext fun a => by match a with | ⟨0, _⟩ => rfl)

end Cert.KernelIdeal.Layer

end
-- ==== Proof.MsgPay.lean ====
import proofs.«423819_j7524782702912_1_alg».proof.Proof.Gen.KernelIdeal.Skeleton
import proofs.«423819_j7524782702912_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.MsgPay

open Idealize.ShloMosaic Idealize.ShloMosaic.TcCoe Idealize.SL.Sem Idealize.ShloMosaic.ValueIdx Cert.RelConv Cert.KernelIdeal Cert.KernelIdeal.Gen

/-! ## The block product at an index -/

/-- The left operand's index at output index i and contraction index c keeps i's row … -/
private theorem lhs_mm_0 (i : S4096x896.Idx) (c : dot_S4096x128_S128x896_S4096x896_1_0_0_1_n_n.contr.Idx) :
    (dot_S4096x128_S128x896_S4096x896_1_0_0_1_n_n.lhsIdx i c 0).val = (i 0).val := by
  unfold DotDims.lhsIdx
  rw [dif_neg (show ¬(0 : Fin S4096x128.rank) ∈ dot_S4096x128_S128x896_S4096x896_1_0_0_1_n_n.lhsBatch by decide), dif_pos (show (0 : Fin S4096x128.rank) ∈ dot_S4096x128_S128x896_S4096x896_1_0_0_1_n_n.lhsNonContracting by decide)]
  rfl
/-- … and takes the contraction coordinate as its column. -/
private theorem lhs_mm_1 (i : S4096x896.Idx) (c : dot_S4096x128_S128x896_S4096x896_1_0_0_1_n_n.contr.Idx) :
    (dot_S4096x128_S128x896_S4096x896_1_0_0_1_n_n.lhsIdx i c 1).val = (c ⟨0, by decide⟩).val :=
  dot_S4096x128_S128x896_S4096x896_1_0_0_1_n_n.lhsIdx_val_of_single rfl i c
/-- The right operand's index takes the contraction coordinate as its row … -/
private theorem rhs_mm_0 (i : S4096x896.Idx) (c : dot_S4096x128_S128x896_S4096x896_1_0_0_1_n_n.contr.Idx) :
    (dot_S4096x128_S128x896_S4096x896_1_0_0_1_n_n.rhsIdx i c 0).val = (c ⟨0, by decide⟩).val :=
  dot_S4096x128_S128x896_S4096x896_1_0_0_1_n_n.rhsIdx_val_of_single rfl i c
/-- … and keeps i's column. -/
private theorem rhs_mm_1 (i : S4096x896.Idx) (c : dot_S4096x128_S128x896_S4096x896_1_0_0_1_n_n.contr.Idx) :
    (dot_S4096x128_S128x896_S4096x896_1_0_0_1_n_n.rhsIdx i c 1).val = (i 1).val := by
  unfold DotDims.rhsIdx
  rw [dif_neg (show ¬(1 : Fin S128x896.rank) ∈ dot_S4096x128_S128x896_S4096x896_1_0_0_1_n_n.rhsBatch by decide), dif_pos (show (1 : Fin S128x896.rank) ∈ dot_S4096x128_S128x896_S4096x896_1_0_0_1_n_n.rhsNonContracting by decide)]
  rfl

/-- The [4096,128] × [128,896] product into a zero accumulator, at (p, j): the sum over the 128 contraction positions of
    row p of the left operand against column j of the right one. -/
private theorem mm_apply (lhs : FVec Ideal S4096x128 .bf16) (rhs : FVec Ideal S128x896 .bf16) (p : Fin 4096) (j : Fin 896) :
    matmul dot_S4096x128_S128x896_S4096x896_1_0_0_1_n_n none lhs rhs (constant (F := Ideal) S4096x896 .f32 0x00000000#32) (ix2 p j)
      = ∑ k : Fin 128, lhs (ix2 p k) * rhs (ix2 k j) := by
  simp only [matmul]
  rw [Ideal.matmul_constant_zero_apply, ← Equiv.sum_comp (contrEquiv1 dot_S4096x128_S128x896_S4096x896_1_0_0_1_n_n 128 rfl rfl).symm]
  refine Finset.sum_congr rfl fun k _ => ?_
  have hk := contrEquiv1_symm_val dot_S4096x128_S128x896_S4096x896_1_0_0_1_n_n 128 rfl rfl k
  have el : dot_S4096x128_S128x896_S4096x896_1_0_0_1_n_n.lhsIdx (ix2 p j) ((contrEquiv1 dot_S4096x128_S128x896_S4096x896_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S4096x128_S128x896_S4096x896_1_0_0_1_n_n.rhsIdx (ix2 p j) ((contrEquiv1 dot_S4096x128_S128x896_S4096x896_1_0_0_1_n_n 128 rfl rfl).symm k) = ix2 k j := funext fun a => Fin.ext (by
    match a with
    | ⟨0, _⟩ => exact (rhs_mm_0 _ _).trans hk
    | ⟨1, _⟩ => exact rhs_mm_1 _ _)
  rw [el, er]

/-! ## The affine image of the source block -/

/-- The affine image of the source block: its product with the weights plus the bias row broadcast down the rows. -/
private def denseArr (x0 : Vec Ideal S4096x128 .f32) (W : Vec Ideal S128x896 .f32) (b2 : Vec Ideal S1x896 .f32) : FVec Ideal S4096x896 .f32 :=
  addf (matmul dot_S4096x128_S128x896_S4096x896_1_0_0_1_n_n none
      (truncf .bf16 (shapeCast S4096x128 x0 shapeCasts_S4096x128_S4096x128) bitsLt_bf16_f32)
      (truncf .bf16 W bitsLt_bf16_f32) (constant (F := Ideal) S4096x896 .f32 0x00000000#32))
    (broadcastTo S4096x896 (shapeCast S1x896 b2 shapeCasts_S1x896_S1x896) broadcasts_S1x896_S4096x896)

/-- At (p, j) it is the affine map of row p of the source block into column j: a change of float format is the identity
    on the extended reals, and the bias row is read at its one row. -/
private theorem denseArr_apply (x0 : Vec Ideal S4096x128 .f32) (W : Vec Ideal S128x896 .f32) (b2 : Vec Ideal S1x896 .f32)
    (p : Fin 4096) (j : Fin 896) :
    denseArr x0 W b2 (ix2 p j) = dense (fun k => x0 (ix2 p k)) W (fun j => b2 (ix2 0 j)) j := by
  unfold denseArr dense
  rw [addf_apply, mm_apply, broadcastTo_1b_ab_apply, shapeCast_self, shapeCast_self]
  rfl

/-! ## One relation slice's term of the accumulation -/

/-- Column r of the [4096,7] weights broadcast along the features, times the 128 columns of the affine image from column o on. -/
private def term (Dn : FVec Ideal S4096x896 .f32) (w : FVec Ideal S4096x7 .f32) (r o : Nat)
    (hw : S4096x7.Slices ![0, r] S4096x1) (hd : S4096x896.Slices ![0, o] S4096x128) : FVec Ideal S4096x128 .f32 :=
  mulf (broadcastTo S4096x128 (extractStridedSlice S4096x1 ![0, r] w hw) broadcasts_S4096x1_S4096x128)
    (extractStridedSlice S4096x128 ![0, o] Dn hd)

/-- A [4096,1] column broadcast to [4096,128] reads, at (p, q), the column at row p. -/
private theorem bcol_apply {α : Type} (v : S4096x1.Idx → α) (h : S4096x1.Broadcasts S4096x128) (p : Fin 4096) (q : Fin 128) :
    broadcastTo S4096x128 v h (ix2 p q) = v (ix2 p (0 : Fin 1)) := by
  refine broadcastTo_apply v h (ix2 p q) (ix2 p (0 : Fin 1)) fun ax => ?_
  match ax with
  | ⟨0, _⟩ =>
    show p.val = if (4096 : Nat) = 1 then 0 else p.val
    rw [if_neg (by decide)]
  | ⟨1, _⟩ => rfl

/-- At (p, q) the term of relation slice s is weight (p, s) times the affine image at (p, 128·s + q). -/
private theorem term_apply (Dn : FVec Ideal S4096x896 .f32) (w : FVec Ideal S4096x7 .f32) (r o : Nat)
    (hw : S4096x7.Slices ![0, r] S4096x1) (hd : S4096x896.Slices ![0, o] S4096x128) (s : Fin 7) (hs : s.val = r) (ho : o = 128 * r)
    (p : Fin 4096) (q : Fin 128) :
    term Dn w r o hw hd (ix2 p q) = w (ix2 p s) * Dn (ix2 p (col s q)) := by
  unfold term
  rw [mulf_apply, bcol_apply, slice2_axis1_apply r w hw p (0 : Fin 1) s (by rw [hs]; rfl),
    slice2_axis1_apply o Dn hd p q (col s q) (by rw [col_val, ho, hs])]

/-! ## The kernel's stored value -/

/-- The message kernel's stored value at row p, feature q of its block: the weighted sum over the seven relation slices of
    the affine image of row p of the source block, the weights row p of the indicator block. -/
theorem msg_pay_apply (x0 : Vec Ideal S4096x128 .f32) (W : Vec Ideal S128x896 .f32) (b2 : Vec Ideal S1x896 .f32)
    (oh : Vec Ideal S4096x7 .f32) (p : Fin 4096) (q : Fin 128) :
    k0_pay1 (F := Ideal) x0 W b2 oh (ix2 p q)
      = msgRow (fun k => x0 (ix2 p k)) (fun s => oh (ix2 p s)) W (fun j => b2 (ix2 0 j)) q := by
  have e : k0_pay1 (F := Ideal) x0 W b2 oh
      = addf (addf (addf (addf (addf (addf (addf (broadcast S4096x128 (Scalar.ofBits (F := Ideal) .f32 0x00000000#32))
          (term (denseArr x0 W b2) (shapeCast S4096x7 oh shapeCasts_S4096x7_S4096x7) 0 0 slices_S4096x7_o0_0_S4096x1 slices_S4096x896_o0_0_S4096x128))
          (term (denseArr x0 W b2) (shapeCast S4096x7 oh shapeCasts_S4096x7_S4096x7) 1 128 slices_S4096x7_o0_1_S4096x1 slices_S4096x896_o0_128_S4096x128))
          (term (denseArr x0 W b2) (shapeCast S4096x7 oh shapeCasts_S4096x7_S4096x7) 2 256 slices_S4096x7_o0_2_S4096x1 slices_S4096x896_o0_256_S4096x128))
          (term (denseArr x0 W b2) (shapeCast S4096x7 oh shapeCasts_S4096x7_S4096x7) 3 384 slices_S4096x7_o0_3_S4096x1 slices_S4096x896_o0_384_S4096x128))
          (term (denseArr x0 W b2) (shapeCast S4096x7 oh shapeCasts_S4096x7_S4096x7) 4 512 slices_S4096x7_o0_4_S4096x1 slices_S4096x896_o0_512_S4096x128))
          (term (denseArr x0 W b2) (shapeCast S4096x7 oh shapeCasts_S4096x7_S4096x7) 5 640 slices_S4096x7_o0_5_S4096x1 slices_S4096x896_o0_640_S4096x128))
          (term (denseArr x0 W b2) (shapeCast S4096x7 oh shapeCasts_S4096x7_S4096x7) 6 768 slices_S4096x7_o0_6_S4096x1 slices_S4096x896_o0_768_S4096x128) := rfl
  rw [e, shapeCast_self]
  simp only [addf_apply]
  rw [term_apply _ _ 0 0 _ _ 0 rfl rfl, term_apply _ _ 1 128 _ _ 1 rfl rfl, term_apply _ _ 2 256 _ _ 2 rfl rfl,
    term_apply _ _ 3 384 _ _ 3 rfl rfl, term_apply _ _ 4 512 _ _ 4 rfl rfl, term_apply _ _ 5 640 _ _ 5 rfl rfl,
    term_apply _ _ 6 768 _ _ 6 rfl rfl]
  simp only [denseArr_apply]
  unfold msgRow
  rw [broadcast_apply]
  show Ideal.ofBits .f32 0x00000000#32 + _ + _ + _ + _ + _ + _ + _ = _
  rw [Ideal.ofBits_zero_f32]

/-- The second and third layers' message kernels store the same function of their blocks. -/
theorem msg_pay_apply2 (x0 : Vec Ideal S4096x128 .f32) (W : Vec Ideal S128x896 .f32) (b2 : Vec Ideal S1x896 .f32)
    (oh : Vec Ideal S4096x7 .f32) (p : Fin 4096) (q : Fin 128) :
    k2_pay1 (F := Ideal) x0 W b2 oh (ix2 p q)
      = msgRow (fun k => x0 (ix2 p k)) (fun s => oh (ix2 p s)) W (fun j => b2 (ix2 0 j)) q :=
  msg_pay_apply x0 W b2 oh p q

theorem msg_pay_apply4 (x0 : Vec Ideal S4096x128 .f32) (W : Vec Ideal S128x896 .f32) (b2 : Vec Ideal S1x896 .f32)
    (oh : Vec Ideal S4096x7 .f32) (p : Fin 4096) (q : Fin 128) :
    k4_pay1 (F := Ideal) x0 W b2 oh (ix2 p q)
      = msgRow (fun k => x0 (ix2 p k)) (fun s => oh (ix2 p s)) W (fun j => b2 (ix2 0 j)) q :=
  msg_pay_apply x0 W b2 oh p q

end Cert.KernelIdeal.MsgPay

end
-- ==== Proof.MsgFinal0.lean ====
import proofs.«423819_j7524782702912_1_alg».proof.Proof.Gen.KernelIdeal.Frame
import proofs.«423819_j7524782702912_1_alg».proof.Proof.MsgPay
import Idealize.ShloMosaic.Lib.Pipeline.Value

noncomputable section

namespace Cert.KernelIdeal.MsgFinal0

open Idealize.ShloMosaic Idealize.ShloMosaic.TcCoe Idealize.SL.Sem Idealize.ShloMosaic.ValueIdx Cert.RelConv Cert.KernelIdeal Cert.KernelIdeal.Gen Idealize.ShloMosaic.Pipeline

variable (V : (c : Dev nD) → (b : Ref sig .tc) → Buf (Elt Ideal) ((c : Thread nD τ).loc b))

/-- The zero offsets of a whole-block access, however spelt. -/
private theorem zero_offsets : (![0, 0] : Fin 2 → Nat) = fun _ => 0 := funext fun a => by fin_cases a <;> rfl

/-- The block indices over the grid: at point t the source, indicator and message windows sit on row block t, column
    block 0; the weight matrix and the bias row are one block each. -/
private theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One element of the block a point stores: if the source and indicator blocks are rows 4096·n … 4096·n + 4095 of their
    arrays and the weight and bias blocks are the whole arrays, element (p, q) of the stored block is element
    (4096·n + p, q) of the message array. -/
private theorem block_elem (nb : SE128.Idx → EReal) (oh : SE7.Idx → EReal)
    (x0 : Vec Ideal S4096x128 .f32) (x1 : Vec Ideal S4096x7 .f32) (x2 : Vec Ideal S128x896 .f32) (x3 : Vec Ideal S1x896 .f32)
    (n : Nat) (hn : n < 64)
    (h0 : ∀ (p : Fin 4096) (k : Fin 128), x0 (ix2 p k) = nb (ix2 (n0 := 262144) ⟨n * 4096 + p.val, by omega⟩ k))
    (h1 : ∀ (p : Fin 4096) (s : Fin 7), x1 (ix2 p s) = oh (ix2 (n0 := 262144) ⟨n * 4096 + p.val, by omega⟩ s))
    (p : Fin 4096) (q : Fin 128) :
    k0_pay1 (F := Ideal) x0 x2 x3 x1 (ix2 p q)
      = msgArr nb oh x2 (fun j => x3 (ix2 0 j)) (ix2 (n0 := 262144) ⟨n * 4096 + p.val, by omega⟩ q) := by
  rw [msgArr_apply]
  refine (MsgPay.msg_pay_apply x0 x2 x3 x1 p q).trans ?_
  simp only [h0, h1]

set_option maxHeartbeats 1000000 in
/-- What point t writes back to the message array is block t of the weighted slice sum of the arrays the region found. -/
private theorem flushed_eq (c : Dev nD) (t : Fin cfg0.N) :
    (dat0 (F := Ideal) V c).flushed 4 t = ((cfg0.win 4).blk t).view.read (Elt Ideal)
      (msgArr (V c main_v6) (V c main_v7) (V c main_arg3) (fun j => V c main_v8 (ix2 0 j))) := by
  show (cfg0.win 4).cut (grid0.coords t) ((dat0 (F := Ideal) V c).after 4 t) = _
  rw [after0_4]
  unfold out0_4
  rw [View.canon_unit_zero zero_offsets]
  simp only [View.ld_unit_zero (S := S4096x128) zero_offsets, View.ld_unit_zero (S := S128x896) zero_offsets,
    View.ld_unit_zero (S := S1x896) zero_offsets, View.ld_unit_zero (S := S4096x7) zero_offsets]
  have hN : cfg0.N = 64 := N_0
  have ht : t.val < 64 := by have := t.isLt; omega
  obtain ⟨e00, e01, e10, e11, e20, e21, e30, e31, e40, e41⟩ := block_indices t
  have hW : iblk0 V c 2 t = V c main_arg3 := by
    funext y
    show V c main_arg3 (((cfg0.win 2).blk t).view.emb y) = V c main_arg3 y
    congr 1
    funext a; apply Fin.ext
    match a with
    | ⟨0, _⟩ => show win0_2.index t (0 : Fin 2) * 128 + 1 * (y 0).val = (y 0).val; omega
    | ⟨1, _⟩ => show win0_2.index t (1 : Fin 2) * 896 + 1 * (y 1).val = (y 1).val; omega
  have hb : iblk0 V c 3 t = V c main_v8 := by
    funext y
    show V c main_v8 (((cfg0.win 3).blk t).view.emb y) = V c main_v8 y
    congr 1
    funext a; apply Fin.ext
    match a with
    | ⟨0, _⟩ => show win0_3.index t (0 : Fin 2) * 1 + 1 * (y 0).val = (y 0).val; omega
    | ⟨1, _⟩ => show win0_3.index t (1 : Fin 2) * 896 + 1 * (y 1).val = (y 1).val; omega
  rw [hW, hb]
  funext j
  obtain ⟨p, q, rfl⟩ : ∃ (p : Fin 4096) (q : Fin 128), j = ix2 p q := ⟨j 0, j 1, eq_ix2 j⟩
  refine (block_elem (V c main_v6) (V c main_v7) (iblk0 V c 0 t) (iblk0 V c 1 t) (V c main_arg3) (V c main_v8) t.val ht ?_ ?_ p q).trans ?_
  · intro p k
    show V c main_v6 (((cfg0.win 0).blk t).view.emb (ix2 p k)) = _
    congr 1
    funext a; apply Fin.ext
    match a with
    | ⟨0, _⟩ => show win0_0.index t (0 : Fin 2) * 4096 + 1 * p.val = t.val * 4096 + p.val; omega
    | ⟨1, _⟩ => show win0_0.index t (1 : Fin 2) * 128 + 1 * k.val = k.val; omega
  · intro p s
    show V c main_v7 (((cfg0.win 1).blk t).view.emb (ix2 p s)) = _
    congr 1
    funext a; apply Fin.ext
    match a with
    | ⟨0, _⟩ => show win0_1.index t (0 : Fin 2) * 4096 + 1 * p.val = t.val * 4096 + p.val; omega
    | ⟨1, _⟩ => show win0_1.index t (1 : Fin 2) * 7 + 1 * s.val = s.val; omega
  · show _ = msgArr (V c main_v6) (V c main_v7) (V c main_arg3) (fun j => V c main_v8 (ix2 0 j)) (((cfg0.win 4).blk t).view.emb (ix2 p q))
    congr 1
    funext a; apply Fin.ext
    match a with
    | ⟨0, _⟩ => show t.val * 4096 + p.val = win0_4.index t (0 : Fin 2) * 4096 + 1 * p.val; omega
    | ⟨1, _⟩ => show q.val = win0_4.index t (1 : Fin 2) * 128 + 1 * q.val; omega

/-- An index of the message array is in point t's block iff each coordinate is in the block's range on its axis. -/
private theorem mem_blk (t : Fin cfg0.N) (i : S262144x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v9).slice (win0_4.rect t)).set ↔ _
  rw [View.set_slice_whole, Rect.mem_set_unit]
  exact Iff.rfl

/-- Every index of the message array is in some point's block: row r is in the block of point r / 4096. -/
private theorem covered (i : S262144x128.Idx) :
    ∃ t : Fin cfg0.N, (cfg0.win 4).flush t = true ∧ i ∈ ((cfg0.win 4).blk t).view.set := by
  have hN : cfg0.N = 64 := N_0
  have h0 : (i 0).val < 262144 := (i 0).isLt
  have h1 : (i 1).val < 128 := (i 1).isLt
  have ht : (i 0).val / 4096 < cfg0.N := by rw [hN]; omega
  obtain ⟨-, -, -, -, -, -, -, -, e40, e41⟩ := block_indices ⟨(i 0).val / 4096, ht⟩
  refine ⟨⟨(i 0).val / 4096, ht⟩, flush0_4 _, ?_⟩
  rw [mem_blk]
  intro a
  match a with
  | ⟨0, _⟩ =>
    show win0_4.index ⟨(i 0).val / 4096, ht⟩ (0 : Fin 2) * 4096 ≤ (i 0).val ∧ (i 0).val < win0_4.index ⟨(i 0).val / 4096, ht⟩ (0 : Fin 2) * 4096 + 4096
    rw [e40]; show (i 0).val / 4096 * 4096 ≤ (i 0).val ∧ (i 0).val < (i 0).val / 4096 * 4096 + 4096; omega
  | ⟨1, _⟩ =>
    show win0_4.index ⟨(i 0).val / 4096, ht⟩ (1 : Fin 2) * 128 ≤ (i 1).val ∧ (i 1).val < win0_4.index ⟨(i 0).val / 4096, ht⟩ (1 : Fin 2) * 128 + 128
    rw [e41]; omega

/-- After the first message region the message array holds, row by row, the weighted slice sum of the arrays the region found. -/
theorem final (c : Dev nD) :
    (dat0 (F := Ideal) V c).arrAt 4 cfg0.N
      = msgArr (V c main_v6) (V c main_v7) (V c main_arg3) (fun j => V c main_v8 (ix2 0 j)) :=
  (dat0 (F := Ideal) V c).arrAt_eq_of_cover 4 _ (fun t _ => flushed_eq V c t) covered

end Cert.KernelIdeal.MsgFinal0

end
-- ==== Proof.UpdPay.lean ====
import proofs.«423819_j7524782702912_1_alg».proof.Proof.Gen.KernelIdeal.Skeleton
import proofs.«423819_j7524782702912_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.UpdPay

open Idealize.ShloMosaic Idealize.ShloMosaic.TcCoe Idealize.SL.Sem Idealize.ShloMosaic.ValueIdx Cert.RelConv Cert.KernelIdeal Cert.KernelIdeal.Gen

/-! The update kernel's product contracts axis 1 of the node block with axis 0 of the self-loop weights. At output
    index (p, q) and contraction coordinate k the operand indices are therefore (p, k) and (k, q): one lemma per axis. -/

/-- The left operand's row is the output's row. -/
private theorem lhs_row (i : S8192x128.Idx) (c : dot_S8192x128_S128x128_S8192x128_1_0_0_1_n_n.contr.Idx) :
    (dot_S8192x128_S128x128_S8192x128_1_0_0_1_n_n.lhsIdx i c 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl

/-- The left operand's column is the contraction coordinate. -/
private theorem lhs_col (i : S8192x128.Idx) (c : dot_S8192x128_S128x128_S8192x128_1_0_0_1_n_n.contr.Idx) :
    (dot_S8192x128_S128x128_S8192x128_1_0_0_1_n_n.lhsIdx i c 1).val = (c ⟨0, by decide⟩).val :=
  dot_S8192x128_S128x128_S8192x128_1_0_0_1_n_n.lhsIdx_val_of_single rfl i c

/-- The right operand's row is the contraction coordinate. -/
private theorem rhs_row (i : S8192x128.Idx) (c : dot_S8192x128_S128x128_S8192x128_1_0_0_1_n_n.contr.Idx) :
    (dot_S8192x128_S128x128_S8192x128_1_0_0_1_n_n.rhsIdx i c 0).val = (c ⟨0, by decide⟩).val :=
  dot_S8192x128_S128x128_S8192x128_1_0_0_1_n_n.rhsIdx_val_of_single rfl i c

/-- The right operand's column is the output's column. -/
private theorem rhs_col (i : S8192x128.Idx) (c : dot_S8192x128_S128x128_S8192x128_1_0_0_1_n_n.contr.Idx) :
    (dot_S8192x128_S128x128_S8192x128_1_0_0_1_n_n.rhsIdx i c 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The product into the zero accumulator, read at (p, q): the sum over the 128 features of row p of the left operand
    against column q of the right one. -/
private theorem prod_apply {φ₁ φ₂ : FTy} (a : FVec Ideal S8192x128 φ₁) (w : FVec Ideal S128x128 φ₂) (p : Fin 8192) (q : Fin 128) :
    matmul dot_S8192x128_S128x128_S8192x128_1_0_0_1_n_n none a w (constant (F := Ideal) S8192x128 .f32 0x00000000#32) (ix2 p q)
      = ∑ k : Fin 128, a (ix2 p k) * w (ix2 k q) := by
  refine (Ideal.matmul_constant_zero_apply dot_S8192x128_S128x128_S8192x128_1_0_0_1_n_n none a w (ix2 p q)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p q) ((contrEquiv1 dot_S8192x128_S128x128_S8192x128_1_0_0_1_n_n 128 rfl rfl).symm k) = ix2 p k :=
    funext fun ax => Fin.ext (by
      match ax with
      | ⟨0, _⟩ => exact lhs_row _ _
      | ⟨1, _⟩ => exact (lhs_col _ _).trans hk)
  have er : dot_S8192x128_S128x128_S8192x128_1_0_0_1_n_n.rhsIdx (ix2 p q) ((contrEquiv1 dot_S8192x128_S128x128_S8192x128_1_0_0_1_n_n 128 rfl rfl).symm k) = ix2 k q :=
    funext fun ax => Fin.ext (by
      match ax with
      | ⟨0, _⟩ => exact (rhs_row _ _).trans hk
      | ⟨1, _⟩ => exact rhs_col _ _)
  rw [el, er]

/-- The bias row spread down the 8192 rows, read at (p, q), is its entry q: the row axis of the operand has extent 1. -/
private theorem bias_apply (b : S1x128.Idx → EReal) (h : S1x128.Broadcasts S8192x128) (p : Fin 8192) (q : Fin 128) :
    broadcastTo S8192x128 b h (ix2 p q) = b (ix2 0 q) :=
  broadcastTo_apply b h (ix2 p q) (ix2 0 q) (fun ax => by
    match ax with
    | ⟨0, _⟩ => rfl
    | ⟨1, _⟩ => rfl)

/-- The update kernel's stored value at row p, feature q of its block. -/
theorem upd_pay_apply (x : Vec Ideal S8192x128 .f32) (Ws : Vec Ideal S128x128 .f32) (bs2 : Vec Ideal S1x128 .f32)
    (agg : Vec Ideal S8192x128 .f32) (p : Fin 8192) (q : Fin 128) :
    k1_pay1 (F := Ideal) x Ws bs2 agg (ix2 p q)
      = updRow (fun k => x (ix2 p k)) (agg (ix2 p q)) Ws (fun d => bs2 (ix2 0 d)) q := by
  unfold k1_pay1
  -- the pointwise operations at the index: sum, clamp, sum, sum
  rw [addf_apply, maximumf_apply, addf_apply, addf_apply, broadcast_apply]
  -- the product, the bias row, the two identity reshapes
  rw [prod_apply, bias_apply, shapeCast_self, shapeCast_self]
  -- the clamp's splat is the real zero; a change of float format is the identity on the extended reals
  have hz : (FloatOps.ofBits (F := Ideal) FTy.f32 0x00000000#32) = (0 : EReal) := Ideal.ofBits_zero_f32
  rw [hz]
  rfl

/-- The second and third layers' update kernels cast their node block to its own shape first, which changes nothing. -/
theorem k3_pay1_eq (x : Vec Ideal S8192x128 .f32) (Ws : Vec Ideal S128x128 .f32) (bs2 : Vec Ideal S1x128 .f32)
    (agg : Vec Ideal S8192x128 .f32) : k3_pay1 (F := Ideal) x Ws bs2 agg = k1_pay1 (F := Ideal) x Ws bs2 agg := by
  unfold k3_pay1 k1_pay1
  simp only [shapeCast_self]

theorem k5_pay1_eq (x : Vec Ideal S8192x128 .f32) (Ws : Vec Ideal S128x128 .f32) (bs2 : Vec Ideal S1x128 .f32)
    (agg : Vec Ideal S8192x128 .f32) : k5_pay1 (F := Ideal) x Ws bs2 agg = k1_pay1 (F := Ideal) x Ws bs2 agg := by
  unfold k5_pay1 k1_pay1
  simp only [shapeCast_self]

/-- The second and third layers' update kernels store the same function of their blocks. -/
theorem upd_pay_apply3 (x : Vec Ideal S8192x128 .f32) (Ws : Vec Ideal S128x128 .f32) (bs2 : Vec Ideal S1x128 .f32)
    (agg : Vec Ideal S8192x128 .f32) (p : Fin 8192) (q : Fin 128) :
    k3_pay1 (F := Ideal) x Ws bs2 agg (ix2 p q)
      = updRow (fun k => x (ix2 p k)) (agg (ix2 p q)) Ws (fun d => bs2 (ix2 0 d)) q :=
  (congrFun (k3_pay1_eq x Ws bs2 agg) (ix2 p q)).trans (upd_pay_apply x Ws bs2 agg p q)

theorem upd_pay_apply5 (x : Vec Ideal S8192x128 .f32) (Ws : Vec Ideal S128x128 .f32) (bs2 : Vec Ideal S1x128 .f32)
    (agg : Vec Ideal S8192x128 .f32) (p : Fin 8192) (q : Fin 128) :
    k5_pay1 (F := Ideal) x Ws bs2 agg (ix2 p q)
      = updRow (fun k => x (ix2 p k)) (agg (ix2 p q)) Ws (fun d => bs2 (ix2 0 d)) q :=
  (congrFun (k5_pay1_eq x Ws bs2 agg) (ix2 p q)).trans (upd_pay_apply x Ws bs2 agg p q)

end Cert.KernelIdeal.UpdPay

end
-- ==== Proof.UpdFinal1.lean ====
import proofs.«423819_j7524782702912_1_alg».proof.Proof.Gen.KernelIdeal.Frame
import proofs.«423819_j7524782702912_1_alg».proof.Proof.UpdPay

noncomputable section

namespace Cert.KernelIdeal.UpdFinal1

open Idealize.ShloMosaic Idealize.ShloMosaic.TcCoe Idealize.SL.Sem Idealize.ShloMosaic.ValueIdx Cert.RelConv Cert.KernelIdeal Cert.KernelIdeal.Gen Idealize.ShloMosaic.Pipeline

variable (V : (c : Dev nD) → (b : Ref sig .tc) → Buf (Elt Ideal) ((c : Thread nD τ).loc b))

/-! The update region runs over 8 points. Point t reads rows 8192·t … 8192·t + 8191 of the node array and of the
    aggregate, the whole self-loop matrix and the whole bias row, and writes the same rows of the result. Inside its
    block the stored value at (p, q) is the node update of row p of the block, so it is the node update of row
    8192·t + p of the arrays; the eight blocks tile the 65536 rows, so the result is the updated node array. -/

/-- The origin of a rank-2 rectangle, as the constant zero function. -/
private theorem origin_zero : (![0, 0] : Fin 2 → Nat) = fun _ => 0 := funext fun a => by fin_cases a <;> rfl

/-- The block indices of the five windows at point t, over the 8 points: the node array, the aggregate and the result
    are at block row t, block column 0; the matrix and the bias row are at block (0, 0). -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One block of the update. If x0 and x1 are rows 8192·b … 8192·b + 8191 of X and A, and x2, x3 are W and B, then the
    stored value at (p, q) of the block is the node update of X, A, W, B at row 8192·b + p, feature q. -/
private theorem block_eq (X A : SN128.Idx → EReal) (W : SW128.Idx → EReal) (B : Vec Ideal S1x128 .f32)
    (x0 x1 : Vec Ideal S8192x128 .f32) (x2 : Vec Ideal S128x128 .f32) (x3 : Vec Ideal S1x128 .f32)
    (b : Nat) (hb : b < 8)
    (h0 : ∀ (p : Fin 8192) (k : Fin 128), x0 (ix2 p k) = X (ix2 ⟨b * 8192 + p.val, by have := p.isLt; omega⟩ k))
    (h1 : ∀ (p : Fin 8192) (k : Fin 128), x1 (ix2 p k) = A (ix2 ⟨b * 8192 + p.val, by have := p.isLt; omega⟩ k))
    (h2 : x2 = W) (h3 : x3 = B) (p : Fin 8192) (q : Fin 128) :
    k1_pay1 (F := Ideal) x0 x2 x3 x1 (ix2 p q)
      = updArr X A W (fun d => B (ix2 0 d)) (ix2 ⟨b * 8192 + p.val, by have := p.isLt; omega⟩ q) := by
  subst h2 h3
  rw [UpdPay.upd_pay_apply, updArr_apply, h1]
  exact congrArg (fun r => updRow r _ _ _ q) (funext fun k => h0 p k)

/-- What point t writes back is block t of the updated node array. An element (p, k) of a block sits in its array at
    (block row · 8192 + p, block column · 128 + k); with the block indices above that is row 8192·t + p for the node
    array, the aggregate and the result, and the element's own place for the matrix and the bias row. -/
private theorem flushed_eq (c : Dev nD) (t : Fin cfg1.N) :
    (dat1 (F := Ideal) V c).flushed 4 t
      = ((cfg1.win 4).blk t).view.read (Elt Ideal)
          (updArr (V c main_arg0) (V c main_v12) (V c main_arg1) (fun d => V c main_v13 (ix2 0 d))) := by
  show (cfg1.win 4).cut (grid1.coords t) ((dat1 V c).after 4 t) = _
  rw [after1_4]
  unfold out1_4
  rw [View.canon_unit_zero origin_zero]
  simp only [View.ld_unit_zero (S := S8192x128) origin_zero, View.ld_unit_zero (S := S128x128) origin_zero,
    View.ld_unit_zero (S := S1x128) origin_zero]
  obtain ⟨e00, e01, e10, e11, e20, e21, e30, e31, e40, e41⟩ := idx_facts t
  funext j
  obtain ⟨p, q, rfl⟩ : ∃ (p : Fin 8192) (q : Fin 128), j = ix2 p q := ⟨j 0, j 1, eq_ix2 j⟩
  refine (block_eq (V c main_arg0) (V c main_v12) (V c main_arg1) (V c main_v13)
    (iblk1 V c 0 t) (iblk1 V c 1 t) (iblk1 V c 2 t) (iblk1 V c 3 t) t.val t.isLt ?_ ?_ ?_ ?_ p q).trans ?_
  · -- the node array's block: rows 8192·t + p
    intro p k
    show V c main_arg0 (((cfg1.win 0).blk t).view.emb (ix2 p k)) = _
    refine congrArg _ (funext fun a => Fin.ext ?_)
    match a with
    | ⟨0, _⟩ => show win1_0.index t (0 : Fin 2) * 8192 + 1 * p.val = t.val * 8192 + p.val; omega
    | ⟨1, _⟩ => show win1_0.index t (1 : Fin 2) * 128 + 1 * k.val = k.val; omega
  · -- the aggregate's block: the same rows
    intro p k
    show V c main_v12 (((cfg1.win 1).blk t).view.emb (ix2 p k)) = _
    refine congrArg _ (funext fun a => Fin.ext ?_)
    match a with
    | ⟨0, _⟩ => show win1_1.index t (0 : Fin 2) * 8192 + 1 * p.val = t.val * 8192 + p.val; omega
    | ⟨1, _⟩ => show win1_1.index t (1 : Fin 2) * 128 + 1 * k.val = k.val; omega
  · -- the self-loop matrix: its one block is the whole matrix
    funext y
    show V c main_arg1 (((cfg1.win 2).blk t).view.emb y) = V c main_arg1 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · -- the bias row: its one block is the whole row
    funext y
    show V c main_v13 (((cfg1.win 3).blk t).view.emb y) = V c main_v13 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · -- the result's block: element (p, q) of block t is element (8192·t + p, q) of the array
    show _ = updArr (V c main_arg0) (V c main_v12) (V c main_arg1) (fun d => V c main_v13 (ix2 0 d))
      (((cfg1.win 4).blk t).view.emb (ix2 p q))
    refine congrArg _ (funext fun a => Fin.ext ?_)
    match a with
    | ⟨0, _⟩ => show t.val * 8192 + p.val = win1_4.index t (0 : Fin 2) * 8192 + 1 * p.val; omega
    | ⟨1, _⟩ => show q.val = win1_4.index t (1 : Fin 2) * 128 + 1 * q.val; omega

/-- An index of the result is in point t's block iff each coordinate is in the block's range on its axis. -/
private theorem mem_blk (t : Fin cfg1.N) (i : S65536x128.Idx) :
    i ∈ ((cfg1.win 4).blk t).view.set ↔ ∀ a : Fin 2, win1_4.index t a * S8192x128.size a ≤ (i a).val
      ∧ (i a).val < win1_4.index t a * S8192x128.size a + S8192x128.size a := by
  show i ∈ ((View.whole main_v14).slice (win1_4.rect t)).set ↔ _
  rw [View.set_slice_whole, Rect.mem_set_unit]
  exact Iff.rfl

/-- The eight blocks cover the array: row r lies in the block of point r / 8192, which writes back. -/
private theorem covered (i : S65536x128.Idx) :
    ∃ t : Fin cfg1.N, (cfg1.win 4).flush t = true ∧ i ∈ ((cfg1.win 4).blk t).view.set := by
  have hi0 : (i 0).val < 65536 := (i 0).isLt
  have hi1 : (i 1).val < 128 := (i 1).isLt
  have ht : (i 0).val / 8192 < grid1.N := by rw [N_1]; omega
  obtain ⟨-, -, -, -, -, -, -, -, e40, e41⟩ := idx_facts ⟨(i 0).val / 8192, ht⟩
  have e40' : win1_4.index ⟨(i 0).val / 8192, ht⟩ (0 : Fin 2) = (i 0).val / 8192 := e40
  refine ⟨⟨(i 0).val / 8192, ht⟩, flush1_4 _, ?_⟩
  rw [mem_blk]
  intro a
  match a with
  | ⟨0, _⟩ =>
    show win1_4.index ⟨(i 0).val / 8192, ht⟩ (0 : Fin 2) * 8192 ≤ (i 0).val
      ∧ (i 0).val < win1_4.index ⟨(i 0).val / 8192, ht⟩ (0 : Fin 2) * 8192 + 8192
    omega
  | ⟨1, _⟩ =>
    show win1_4.index ⟨(i 0).val / 8192, ht⟩ (1 : Fin 2) * 128 ≤ (i 1).val
      ∧ (i 1).val < win1_4.index ⟨(i 0).val / 8192, ht⟩ (1 : Fin 2) * 128 + 128
    omega

/-- After the first update region the node array holds the update of the arrays the region found. -/
theorem final (c : Dev nD) :
    (dat1 (F := Ideal) V c).arrAt 4 cfg1.N
      = updArr (V c main_arg0) (V c main_v12) (V c main_arg1) (fun d => V c main_v13 (ix2 0 d)) :=
  (dat1 (F := Ideal) V c).arrAt_eq_of_cover 4
    (updArr (V c main_arg0) (V c main_v12) (V c main_arg1) (fun d => V c main_v13 (ix2 0 d)))
    (fun t _ => flushed_eq V c t) covered

end Cert.KernelIdeal.UpdFinal1

end
-- ==== Proof.Walk0.lean ====
/-
  The first layer of the kernel program, boundary by boundary.  W0 is the memory at launch; three host stretches lead to
  the first region's entry (W3: the source rows gathered, the labels turned into the indicator array, the relation bias
  reshaped into a row); the first region leaves the message array (W4); a host stretch sums the messages into their
  destination nodes and reshapes the self-loop bias (W5); the second region leaves the updated node array (W6).
  Each lemma reads one buffer at one boundary as a function of the buffers at W0; out says that the node array after the
  layer is layerK of the layer's parameters as launched, when every label is in range.  keeps says that a buffer none of
  this writes is at W6 what it was at W0.
-/
import proofs.«423819_j7524782702912_1_alg».proof.Proof.Gen.KernelIdeal.Frame
import proofs.«423819_j7524782702912_1_alg».proof.Proof.KLayer
import proofs.«423819_j7524782702912_1_alg».proof.Proof.MsgFinal0
import proofs.«423819_j7524782702912_1_alg».proof.Proof.UpdFinal1
import Idealize.ShloMosaic.Lib.StableHlo.Run

set_option maxRecDepth 16384
set_option maxHeartbeats 2000000

noncomputable section

namespace Cert.KernelIdeal.Walk0

open Cert.KernelIdeal Cert.KernelIdeal.Gen Cert.KernelIdeal.Layer
open Idealize.ShloMosaic Idealize.ShloMosaic.TcCoe Idealize.SL.Sem Idealize.ShloMosaic.StableHlo Idealize.ShloMosaic.ValueIdx Cert.RelConv

variable (m : (ℓ : Loc nD τ sig) → Buf (Elt Ideal) ℓ) (ρ : Dev nD → PrngReg)

/-- Reads a buffer after the three host stretches before the first region, from the layer's entry boundary. -/
macro "read0_entry" : tactic =>
  `(tactic| (show StableHlo.after hostOps0_2 (StableHlo.after hostOps0_1 (StableHlo.after hostOps0 (W0 _ _ _))) _ = _
             after_results
             all_goals rfl))

/-- Reads a buffer after the host stretch between the two regions. -/
macro "read0_mid" : tactic =>
  `(tactic| (show StableHlo.after hostOps1 (W4 _ _ _) _ = _
             after_results
             all_goals rfl))

/-! ## The first region's entry -/

theorem src_at (c : Dev nD) : W3 m ρ c (Proc.devRef .tc main_v6)
    = srcRows (W0 m ρ c (Proc.devRef .tc main_arg0)) (W0 m ρ c (Proc.devRef .tc main_arg13)) := by
  unfold srcRows
  read0_entry

theorem hot_at (c : Dev nD) : W3 m ρ c (Proc.devRef .tc main_v7) = oneHot (W0 m ρ c (Proc.devRef .tc main_arg15)) := by
  unfold oneHot
  read0_entry

theorem wr_at (c : Dev nD) : W3 m ρ c (Proc.devRef .tc main_arg3) = W0 m ρ c (Proc.devRef .tc main_arg3) := by
  read0_entry

theorem br_at (c : Dev nD) : W3 m ρ c (Proc.devRef .tc main_v8)
    = shapeCast S1x896 (W0 m ρ c (Proc.devRef .tc main_arg4)) shapeCasts_S896_S1x896 := by
  read0_entry

/-! ## The message array -/

theorem msg_at (c : Dev nD) (hrel : InRange (W0 m ρ c (Proc.devRef .tc main_arg15))) :
    W4 m ρ c (Proc.devRef .tc main_v9)
      = selArr (srcRows (W0 m ρ c (Proc.devRef .tc main_arg0)) (W0 m ρ c (Proc.devRef .tc main_arg13)))
          (relOf (W0 m ρ c (Proc.devRef .tc main_arg15)) hrel) (W0 m ρ c (Proc.devRef .tc main_arg3))
          (fun j => W0 m ρ c (Proc.devRef .tc main_arg4) (ix1 j)) := by
  refine (W4_arr m ρ c 4).trans ?_
  rw [MsgFinal0.final (V3 m ρ) c]
  show msgArr (W3 m ρ c (Proc.devRef .tc main_v6)) (W3 m ρ c (Proc.devRef .tc main_v7)) (W3 m ρ c (Proc.devRef .tc main_arg3))
      (fun j => W3 m ρ c (Proc.devRef .tc main_v8) (ix2 0 j)) = _
  rw [src_at, hot_at, wr_at, br_at, oneHot_eq _ hrel, msgArr_indicator]
  have hb : (fun j : Fin 896 => shapeCast S1x896 (W0 m ρ c (Proc.devRef .tc main_arg4)) shapeCasts_S896_S1x896 (ix2 0 j))
      = fun j => W0 m ρ c (Proc.devRef .tc main_arg4) (ix1 j) := funext fun j => biasRow896 _ j
  rw [hb]

/-! ## The second region's entry -/

theorem nout_at4 (c : Dev nD) : W4 m ρ c (Proc.devRef .tc main_arg14) = W0 m ρ c (Proc.devRef .tc main_arg14) := by
  refine (W4_of_ne m ρ c main_arg14 (by decide)).trans ?_
  read0_entry

theorem agg_at (c : Dev nD) : W5 m ρ c (Proc.devRef .tc main_v12)
    = nodeSum (W0 m ρ c (Proc.devRef .tc main_arg14)) (W4 m ρ c (Proc.devRef .tc main_v9)) := by
  unfold nodeSum
  rw [← nout_at4]
  read0_mid

theorem x_at5 (c : Dev nD) : W5 m ρ c (Proc.devRef .tc main_arg0) = W0 m ρ c (Proc.devRef .tc main_arg0) := by
  refine Eq.trans (b := W4 m ρ c (Proc.devRef .tc main_arg0)) (by read0_mid) ?_
  refine (W4_of_ne m ρ c main_arg0 (by decide)).trans ?_
  read0_entry

theorem ws_at5 (c : Dev nD) : W5 m ρ c (Proc.devRef .tc main_arg1) = W0 m ρ c (Proc.devRef .tc main_arg1) := by
  refine Eq.trans (b := W4 m ρ c (Proc.devRef .tc main_arg1)) (by read0_mid) ?_
  refine (W4_of_ne m ρ c main_arg1 (by decide)).trans ?_
  read0_entry

theorem bs_at4 (c : Dev nD) : W4 m ρ c (Proc.devRef .tc main_arg2) = W0 m ρ c (Proc.devRef .tc main_arg2) := by
  refine (W4_of_ne m ρ c main_arg2 (by decide)).trans ?_
  read0_entry

theorem bs_at5 (c : Dev nD) : W5 m ρ c (Proc.devRef .tc main_v13)
    = shapeCast S1x128 (W0 m ρ c (Proc.devRef .tc main_arg2)) shapeCasts_S128_S1x128 := by
  rw [← bs_at4]
  read0_mid

/-! ## The layer -/

/-- The node array after the layer is the layer's function of the buffers at its entry boundary. -/
theorem out (c : Dev nD) (hrel : InRange (W0 m ρ c (Proc.devRef .tc main_arg15))) :
    W6 m ρ c (Proc.devRef .tc main_v14)
      = layerK (W0 m ρ c (Proc.devRef .tc main_arg0)) (W0 m ρ c (Proc.devRef .tc main_arg1)) (W0 m ρ c (Proc.devRef .tc main_arg2))
          (W0 m ρ c (Proc.devRef .tc main_arg3)) (W0 m ρ c (Proc.devRef .tc main_arg4)) (W0 m ρ c (Proc.devRef .tc main_arg13))
          (W0 m ρ c (Proc.devRef .tc main_arg14)) (relOf (W0 m ρ c (Proc.devRef .tc main_arg15)) hrel) := by
  refine (W6_arr m ρ c 4).trans ?_
  rw [UpdFinal1.final (V5 m ρ) c]
  show updArr (W5 m ρ c (Proc.devRef .tc main_arg0)) (W5 m ρ c (Proc.devRef .tc main_v12)) (W5 m ρ c (Proc.devRef .tc main_arg1))
      (fun d => W5 m ρ c (Proc.devRef .tc main_v13) (ix2 0 d)) = _
  rw [x_at5, agg_at, ws_at5, bs_at5, msg_at m ρ c hrel]
  have hb : (fun d : Fin 128 => shapeCast S1x128 (W0 m ρ c (Proc.devRef .tc main_arg2)) shapeCasts_S128_S1x128 (ix2 0 d))
      = fun d => W0 m ρ c (Proc.devRef .tc main_arg2) (ix1 d) := funext fun d => biasRow128 _ d
  rw [hb]
  rfl

/-- A buffer that neither region touches and no host operation of the layer writes is, after the layer, what it was before. -/
macro "layer0_keeps" : tactic =>
  `(tactic| (refine (W6_of_ne _ _ _ _ (by decide)).trans ?_
             show StableHlo.after hostOps1 (W4 _ _ _) _ = _
             after_results
             refine (W4_of_ne _ _ _ _ (by decide)).trans ?_
             read0_entry))

end Cert.KernelIdeal.Walk0

end
-- ==== Proof.MsgFinal2.lean ====
import proofs.«423819_j7524782702912_1_alg».proof.Proof.Gen.KernelIdeal.Frame
import proofs.«423819_j7524782702912_1_alg».proof.Proof.MsgPay
import Idealize.ShloMosaic.Lib.Pipeline.Value

noncomputable section

namespace Cert.KernelIdeal.MsgFinal2

open Idealize.ShloMosaic Idealize.ShloMosaic.TcCoe Idealize.SL.Sem Idealize.ShloMosaic.ValueIdx Cert.RelConv Cert.KernelIdeal Cert.KernelIdeal.Gen Idealize.ShloMosaic.Pipeline

variable (V : (c : Dev nD) → (b : Ref sig .tc) → Buf (Elt Ideal) ((c : Thread nD τ).loc b))

/-- The zero offsets of a whole-block access, however spelt. -/
private theorem zero_offsets : (![0, 0] : Fin 2 → Nat) = fun _ => 0 := funext fun a => by fin_cases a <;> rfl

/-- The block indices over the grid: at point t the source, indicator and message windows sit on row block t, column
    block 0; the weight matrix and the bias row are one block each. -/
private theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- One element of the block a point stores: if the source and indicator blocks are rows 4096·n … 4096·n + 4095 of their
    arrays and the weight and bias blocks are the whole arrays, element (p, q) of the stored block is element
    (4096·n + p, q) of the message array. -/
private theorem block_elem (nb : SE128.Idx → EReal) (oh : SE7.Idx → EReal)
    (x0 : Vec Ideal S4096x128 .f32) (x1 : Vec Ideal S4096x7 .f32) (x2 : Vec Ideal S128x896 .f32) (x3 : Vec Ideal S1x896 .f32)
    (n : Nat) (hn : n < 64)
    (h0 : ∀ (p : Fin 4096) (k : Fin 128), x0 (ix2 p k) = nb (ix2 (n0 := 262144) ⟨n * 4096 + p.val, by omega⟩ k))
    (h1 : ∀ (p : Fin 4096) (s : Fin 7), x1 (ix2 p s) = oh (ix2 (n0 := 262144) ⟨n * 4096 + p.val, by omega⟩ s))
    (p : Fin 4096) (q : Fin 128) :
    k2_pay1 (F := Ideal) x0 x2 x3 x1 (ix2 p q)
      = msgArr nb oh x2 (fun j => x3 (ix2 0 j)) (ix2 (n0 := 262144) ⟨n * 4096 + p.val, by omega⟩ q) := by
  rw [msgArr_apply]
  refine (MsgPay.msg_pay_apply2 x0 x2 x3 x1 p q).trans ?_
  simp only [h0, h1]

set_option maxHeartbeats 1000000 in
/-- What point t writes back to the message array is block t of the weighted slice sum of the arrays the region found. -/
private theorem flushed_eq (c : Dev nD) (t : Fin cfg2.N) :
    (dat2 (F := Ideal) V c).flushed 4 t = ((cfg2.win 4).blk t).view.read (Elt Ideal)
      (msgArr (V c main_v21) (V c main_v22) (V c main_arg7) (fun j => V c main_v23 (ix2 0 j))) := by
  show (cfg2.win 4).cut (grid2.coords t) ((dat2 (F := Ideal) V c).after 4 t) = _
  rw [after2_4]
  unfold out2_4
  rw [View.canon_unit_zero zero_offsets]
  simp only [View.ld_unit_zero (S := S4096x128) zero_offsets, View.ld_unit_zero (S := S128x896) zero_offsets,
    View.ld_unit_zero (S := S1x896) zero_offsets, View.ld_unit_zero (S := S4096x7) zero_offsets]
  have hN : cfg2.N = 64 := N_2
  have ht : t.val < 64 := by have := t.isLt; omega
  obtain ⟨e00, e01, e10, e11, e20, e21, e30, e31, e40, e41⟩ := block_indices t
  have hW : iblk2 V c 2 t = V c main_arg7 := by
    funext y
    show V c main_arg7 (((cfg2.win 2).blk t).view.emb y) = V c main_arg7 y
    congr 1
    funext a; apply Fin.ext
    match a with
    | ⟨0, _⟩ => show win2_2.index t (0 : Fin 2) * 128 + 1 * (y 0).val = (y 0).val; omega
    | ⟨1, _⟩ => show win2_2.index t (1 : Fin 2) * 896 + 1 * (y 1).val = (y 1).val; omega
  have hb : iblk2 V c 3 t = V c main_v23 := by
    funext y
    show V c main_v23 (((cfg2.win 3).blk t).view.emb y) = V c main_v23 y
    congr 1
    funext a; apply Fin.ext
    match a with
    | ⟨0, _⟩ => show win2_3.index t (0 : Fin 2) * 1 + 1 * (y 0).val = (y 0).val; omega
    | ⟨1, _⟩ => show win2_3.index t (1 : Fin 2) * 896 + 1 * (y 1).val = (y 1).val; omega
  rw [hW, hb]
  funext j
  obtain ⟨p, q, rfl⟩ : ∃ (p : Fin 4096) (q : Fin 128), j = ix2 p q := ⟨j 0, j 1, eq_ix2 j⟩
  refine (block_elem (V c main_v21) (V c main_v22) (iblk2 V c 0 t) (iblk2 V c 1 t) (V c main_arg7) (V c main_v23) t.val ht ?_ ?_ p q).trans ?_
  · intro p k
    show V c main_v21 (((cfg2.win 0).blk t).view.emb (ix2 p k)) = _
    congr 1
    funext a; apply Fin.ext
    match a with
    | ⟨0, _⟩ => show win2_0.index t (0 : Fin 2) * 4096 + 1 * p.val = t.val * 4096 + p.val; omega
    | ⟨1, _⟩ => show win2_0.index t (1 : Fin 2) * 128 + 1 * k.val = k.val; omega
  · intro p s
    show V c main_v22 (((cfg2.win 1).blk t).view.emb (ix2 p s)) = _
    congr 1
    funext a; apply Fin.ext
    match a with
    | ⟨0, _⟩ => show win2_1.index t (0 : Fin 2) * 4096 + 1 * p.val = t.val * 4096 + p.val; omega
    | ⟨1, _⟩ => show win2_1.index t (1 : Fin 2) * 7 + 1 * s.val = s.val; omega
  · show _ = msgArr (V c main_v21) (V c main_v22) (V c main_arg7) (fun j => V c main_v23 (ix2 0 j)) (((cfg2.win 4).blk t).view.emb (ix2 p q))
    congr 1
    funext a; apply Fin.ext
    match a with
    | ⟨0, _⟩ => show t.val * 4096 + p.val = win2_4.index t (0 : Fin 2) * 4096 + 1 * p.val; omega
    | ⟨1, _⟩ => show q.val = win2_4.index t (1 : Fin 2) * 128 + 1 * q.val; omega

/-- An index of the message array is in point t's block iff each coordinate is in the block's range on its axis. -/
private theorem mem_blk (t : Fin cfg2.N) (i : S262144x128.Idx) :
    i ∈ ((cfg2.win 4).blk t).view.set ↔ ∀ a : Fin 2, win2_4.index t a * S4096x128.size a ≤ (i a).val ∧ (i a).val < win2_4.index t a * S4096x128.size a + S4096x128.size a := by
  show i ∈ ((View.whole main_v24).slice (win2_4.rect t)).set ↔ _
  rw [View.set_slice_whole, Rect.mem_set_unit]
  exact Iff.rfl

/-- Every index of the message array is in some point's block: row r is in the block of point r / 4096. -/
private theorem covered (i : S262144x128.Idx) :
    ∃ t : Fin cfg2.N, (cfg2.win 4).flush t = true ∧ i ∈ ((cfg2.win 4).blk t).view.set := by
  have hN : cfg2.N = 64 := N_2
  have h0 : (i 0).val < 262144 := (i 0).isLt
  have h1 : (i 1).val < 128 := (i 1).isLt
  have ht : (i 0).val / 4096 < cfg2.N := by rw [hN]; omega
  obtain ⟨-, -, -, -, -, -, -, -, e40, e41⟩ := block_indices ⟨(i 0).val / 4096, ht⟩
  refine ⟨⟨(i 0).val / 4096, ht⟩, flush2_4 _, ?_⟩
  rw [mem_blk]
  intro a
  match a with
  | ⟨0, _⟩ =>
    show win2_4.index ⟨(i 0).val / 4096, ht⟩ (0 : Fin 2) * 4096 ≤ (i 0).val ∧ (i 0).val < win2_4.index ⟨(i 0).val / 4096, ht⟩ (0 : Fin 2) * 4096 + 4096
    rw [e40]; show (i 0).val / 4096 * 4096 ≤ (i 0).val ∧ (i 0).val < (i 0).val / 4096 * 4096 + 4096; omega
  | ⟨1, _⟩ =>
    show win2_4.index ⟨(i 0).val / 4096, ht⟩ (1 : Fin 2) * 128 ≤ (i 1).val ∧ (i 1).val < win2_4.index ⟨(i 0).val / 4096, ht⟩ (1 : Fin 2) * 128 + 128
    rw [e41]; omega

/-- After the first message region the message array holds, row by row, the weighted slice sum of the arrays the region found. -/
theorem final (c : Dev nD) :
    (dat2 (F := Ideal) V c).arrAt 4 cfg2.N
      = msgArr (V c main_v21) (V c main_v22) (V c main_arg7) (fun j => V c main_v23 (ix2 0 j)) :=
  (dat2 (F := Ideal) V c).arrAt_eq_of_cover 4 _ (fun t _ => flushed_eq V c t) covered

end Cert.KernelIdeal.MsgFinal2

end
-- ==== Proof.UpdFinal3.lean ====
import proofs.«423819_j7524782702912_1_alg».proof.Proof.Gen.KernelIdeal.Frame
import proofs.«423819_j7524782702912_1_alg».proof.Proof.UpdPay

noncomputable section

namespace Cert.KernelIdeal.UpdFinal3

open Idealize.ShloMosaic Idealize.ShloMosaic.TcCoe Idealize.SL.Sem Idealize.ShloMosaic.ValueIdx Cert.RelConv Cert.KernelIdeal Cert.KernelIdeal.Gen Idealize.ShloMosaic.Pipeline

variable (V : (c : Dev nD) → (b : Ref sig .tc) → Buf (Elt Ideal) ((c : Thread nD τ).loc b))

/-! The update region runs over 8 points. Point t reads rows 8192·t … 8192·t + 8191 of the node array and of the
    aggregate, the whole self-loop matrix and the whole bias row, and writes the same rows of the result. Inside its
    block the stored value at (p, q) is the node update of row p of the block, so it is the node update of row
    8192·t + p of the arrays; the eight blocks tile the 65536 rows, so the result is the updated node array. -/

/-- The origin of a rank-2 rectangle, as the constant zero function. -/
private theorem origin_zero : (![0, 0] : Fin 2 → Nat) = fun _ => 0 := funext fun a => by fin_cases a <;> rfl

/-- The block indices of the five windows at point t, over the 8 points: the node array, the aggregate and the result
    are at block row t, block column 0; the matrix and the bias row are at block (0, 0). -/
private theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- One block of the update. If x0 and x1 are rows 8192·b … 8192·b + 8191 of X and A, and x2, x3 are W and B, then the
    stored value at (p, q) of the block is the node update of X, A, W, B at row 8192·b + p, feature q. -/
private theorem block_eq (X A : SN128.Idx → EReal) (W : SW128.Idx → EReal) (B : Vec Ideal S1x128 .f32)
    (x0 x1 : Vec Ideal S8192x128 .f32) (x2 : Vec Ideal S128x128 .f32) (x3 : Vec Ideal S1x128 .f32)
    (b : Nat) (hb : b < 8)
    (h0 : ∀ (p : Fin 8192) (k : Fin 128), x0 (ix2 p k) = X (ix2 ⟨b * 8192 + p.val, by have := p.isLt; omega⟩ k))
    (h1 : ∀ (p : Fin 8192) (k : Fin 128), x1 (ix2 p k) = A (ix2 ⟨b * 8192 + p.val, by have := p.isLt; omega⟩ k))
    (h2 : x2 = W) (h3 : x3 = B) (p : Fin 8192) (q : Fin 128) :
    k3_pay1 (F := Ideal) x0 x2 x3 x1 (ix2 p q)
      = updArr X A W (fun d => B (ix2 0 d)) (ix2 ⟨b * 8192 + p.val, by have := p.isLt; omega⟩ q) := by
  subst h2 h3
  rw [UpdPay.upd_pay_apply3, updArr_apply, h1]
  exact congrArg (fun r => updRow r _ _ _ q) (funext fun k => h0 p k)

/-- What point t writes back is block t of the updated node array. An element (p, k) of a block sits in its array at
    (block row · 8192 + p, block column · 128 + k); with the block indices above that is row 8192·t + p for the node
    array, the aggregate and the result, and the element's own place for the matrix and the bias row. -/
private theorem flushed_eq (c : Dev nD) (t : Fin cfg3.N) :
    (dat3 (F := Ideal) V c).flushed 4 t
      = ((cfg3.win 4).blk t).view.read (Elt Ideal)
          (updArr (V c main_v14) (V c main_v27) (V c main_arg5) (fun d => V c main_v28 (ix2 0 d))) := by
  show (cfg3.win 4).cut (grid3.coords t) ((dat3 V c).after 4 t) = _
  rw [after3_4]
  unfold out3_4
  rw [View.canon_unit_zero origin_zero]
  simp only [View.ld_unit_zero (S := S8192x128) origin_zero, View.ld_unit_zero (S := S128x128) origin_zero,
    View.ld_unit_zero (S := S1x128) origin_zero]
  obtain ⟨e00, e01, e10, e11, e20, e21, e30, e31, e40, e41⟩ := idx_facts t
  funext j
  obtain ⟨p, q, rfl⟩ : ∃ (p : Fin 8192) (q : Fin 128), j = ix2 p q := ⟨j 0, j 1, eq_ix2 j⟩
  refine (block_eq (V c main_v14) (V c main_v27) (V c main_arg5) (V c main_v28)
    (iblk3 V c 0 t) (iblk3 V c 1 t) (iblk3 V c 2 t) (iblk3 V c 3 t) t.val t.isLt ?_ ?_ ?_ ?_ p q).trans ?_
  · -- the node array's block: rows 8192·t + p
    intro p k
    show V c main_v14 (((cfg3.win 0).blk t).view.emb (ix2 p k)) = _
    refine congrArg _ (funext fun a => Fin.ext ?_)
    match a with
    | ⟨0, _⟩ => show win3_0.index t (0 : Fin 2) * 8192 + 1 * p.val = t.val * 8192 + p.val; omega
    | ⟨1, _⟩ => show win3_0.index t (1 : Fin 2) * 128 + 1 * k.val = k.val; omega
  · -- the aggregate's block: the same rows
    intro p k
    show V c main_v27 (((cfg3.win 1).blk t).view.emb (ix2 p k)) = _
    refine congrArg _ (funext fun a => Fin.ext ?_)
    match a with
    | ⟨0, _⟩ => show win3_1.index t (0 : Fin 2) * 8192 + 1 * p.val = t.val * 8192 + p.val; omega
    | ⟨1, _⟩ => show win3_1.index t (1 : Fin 2) * 128 + 1 * k.val = k.val; omega
  · -- the self-loop matrix: its one block is the whole matrix
    funext y
    show V c main_arg5 (((cfg3.win 2).blk t).view.emb y) = V c main_arg5 y
    refine congrArg _ (funext fun a => Fin.ext ?_)
    match a with
    | ⟨0, _⟩ => show win3_2.index t (0 : Fin 2) * 128 + 1 * (y 0).val = (y 0).val; omega
    | ⟨1, _⟩ => show win3_2.index t (1 : Fin 2) * 128 + 1 * (y 1).val = (y 1).val; omega
  · -- the bias row: its one block is the whole row
    funext y
    show V c main_v28 (((cfg3.win 3).blk t).view.emb y) = V c main_v28 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  · -- the result's block: element (p, q) of block t is element (8192·t + p, q) of the array
    show _ = updArr (V c main_v14) (V c main_v27) (V c main_arg5) (fun d => V c main_v28 (ix2 0 d))
      (((cfg3.win 4).blk t).view.emb (ix2 p q))
    refine congrArg _ (funext fun a => Fin.ext ?_)
    match a with
    | ⟨0, _⟩ => show t.val * 8192 + p.val = win3_4.index t (0 : Fin 2) * 8192 + 1 * p.val; omega
    | ⟨1, _⟩ => show q.val = win3_4.index t (1 : Fin 2) * 128 + 1 * q.val; omega

/-- An index of the result is in point t's block iff each coordinate is in the block's range on its axis. -/
private theorem mem_blk (t : Fin cfg3.N) (i : S65536x128.Idx) :
    i ∈ ((cfg3.win 4).blk t).view.set ↔ ∀ a : Fin 2, win3_4.index t a * S8192x128.size a ≤ (i a).val
      ∧ (i a).val < win3_4.index t a * S8192x128.size a + S8192x128.size a := by
  show i ∈ ((View.whole main_v29).slice (win3_4.rect t)).set ↔ _
  rw [View.set_slice_whole, Rect.mem_set_unit]
  exact Iff.rfl

/-- The eight blocks cover the array: row r lies in the block of point r / 8192, which writes back. -/
private theorem covered (i : S65536x128.Idx) :
    ∃ t : Fin cfg3.N, (cfg3.win 4).flush t = true ∧ i ∈ ((cfg3.win 4).blk t).view.set := by
  have hi0 : (i 0).val < 65536 := (i 0).isLt
  have hi1 : (i 1).val < 128 := (i 1).isLt
  have ht : (i 0).val / 8192 < grid3.N := by rw [N_3]; omega
  obtain ⟨-, -, -, -, -, -, -, -, e40, e41⟩ := idx_facts ⟨(i 0).val / 8192, ht⟩
  have e40' : win3_4.index ⟨(i 0).val / 8192, ht⟩ (0 : Fin 2) = (i 0).val / 8192 := e40
  refine ⟨⟨(i 0).val / 8192, ht⟩, flush3_4 _, ?_⟩
  rw [mem_blk]
  intro a
  match a with
  | ⟨0, _⟩ =>
    show win3_4.index ⟨(i 0).val / 8192, ht⟩ (0 : Fin 2) * 8192 ≤ (i 0).val
      ∧ (i 0).val < win3_4.index ⟨(i 0).val / 8192, ht⟩ (0 : Fin 2) * 8192 + 8192
    omega
  | ⟨1, _⟩ =>
    show win3_4.index ⟨(i 0).val / 8192, ht⟩ (1 : Fin 2) * 128 ≤ (i 1).val
      ∧ (i 1).val < win3_4.index ⟨(i 0).val / 8192, ht⟩ (1 : Fin 2) * 128 + 128
    omega

/-- After the first update region the node array holds the update of the arrays the region found. -/
theorem final (c : Dev nD) :
    (dat3 (F := Ideal) V c).arrAt 4 cfg3.N
      = updArr (V c main_v14) (V c main_v27) (V c main_arg5) (fun d => V c main_v28 (ix2 0 d)) :=
  (dat3 (F := Ideal) V c).arrAt_eq_of_cover 4
    (updArr (V c main_v14) (V c main_v27) (V c main_arg5) (fun d => V c main_v28 (ix2 0 d)))
    (fun t _ => flushed_eq V c t) covered

end Cert.KernelIdeal.UpdFinal3

end
-- ==== Proof.Walk1.lean ====
/-
  The first layer of the kernel program, boundary by boundary.  W6 is the memory at launch; three host stretches lead to
  the first region's entry (W9: the source rows gathered, the labels turned into the indicator array, the relation bias
  reshaped into a row); the first region leaves the message array (W10); a host stretch sums the messages into their
  destination nodes and reshapes the self-loop bias (W11); the second region leaves the updated node array (W12).
  Each lemma reads one buffer at one boundary as a function of the buffers at W6; out says that the node array after the
  layer is layerK of the layer's parameters as launched, when every label is in range.  keeps says that a buffer none of
  this writes is at W12 what it was at W6.
-/
import proofs.«423819_j7524782702912_1_alg».proof.Proof.Gen.KernelIdeal.Frame
import proofs.«423819_j7524782702912_1_alg».proof.Proof.KLayer
import proofs.«423819_j7524782702912_1_alg».proof.Proof.MsgFinal2
import proofs.«423819_j7524782702912_1_alg».proof.Proof.UpdFinal3
import Idealize.ShloMosaic.Lib.StableHlo.Run

set_option maxRecDepth 16384
set_option maxHeartbeats 2000000

noncomputable section

namespace Cert.KernelIdeal.Walk1

open Cert.KernelIdeal Cert.KernelIdeal.Gen Cert.KernelIdeal.Layer
open Idealize.ShloMosaic Idealize.ShloMosaic.TcCoe Idealize.SL.Sem Idealize.ShloMosaic.StableHlo Idealize.ShloMosaic.ValueIdx Cert.RelConv

variable (m : (ℓ : Loc nD τ sig) → Buf (Elt Ideal) ℓ) (ρ : Dev nD → PrngReg)

/-- Reads a buffer after the three host stretches before the first region, from the layer's entry boundary. -/
macro "read1_entry" : tactic =>
  `(tactic| (show StableHlo.after hostOps2_2 (StableHlo.after hostOps2_1 (StableHlo.after hostOps2 (W6 _ _ _))) _ = _
             after_results
             all_goals rfl))

/-- Reads a buffer after the host stretch between the two regions. -/
macro "read1_mid" : tactic =>
  `(tactic| (show StableHlo.after hostOps3 (W10 _ _ _) _ = _
             after_results
             all_goals rfl))

/-! ## The first region's entry -/

theorem src_at (c : Dev nD) : W9 m ρ c (Proc.devRef .tc main_v21)
    = srcRows (W6 m ρ c (Proc.devRef .tc main_v14)) (W6 m ρ c (Proc.devRef .tc main_arg13)) := by
  unfold srcRows
  read1_entry

theorem hot_at (c : Dev nD) : W9 m ρ c (Proc.devRef .tc main_v22) = oneHot (W6 m ρ c (Proc.devRef .tc main_arg15)) := by
  unfold oneHot
  read1_entry

theorem wr_at (c : Dev nD) : W9 m ρ c (Proc.devRef .tc main_arg7) = W6 m ρ c (Proc.devRef .tc main_arg7) := by
  read1_entry

theorem br_at (c : Dev nD) : W9 m ρ c (Proc.devRef .tc main_v23)
    = shapeCast S1x896 (W6 m ρ c (Proc.devRef .tc main_arg8)) shapeCasts_S896_S1x896 := by
  read1_entry

/-! ## The message array -/

theorem msg_at (c : Dev nD) (hrel : InRange (W6 m ρ c (Proc.devRef .tc main_arg15))) :
    W10 m ρ c (Proc.devRef .tc main_v24)
      = selArr (srcRows (W6 m ρ c (Proc.devRef .tc main_v14)) (W6 m ρ c (Proc.devRef .tc main_arg13)))
          (relOf (W6 m ρ c (Proc.devRef .tc main_arg15)) hrel) (W6 m ρ c (Proc.devRef .tc main_arg7))
          (fun j => W6 m ρ c (Proc.devRef .tc main_arg8) (ix1 j)) := by
  refine (W10_arr m ρ c 4).trans ?_
  rw [MsgFinal2.final (V9 m ρ) c]
  show msgArr (W9 m ρ c (Proc.devRef .tc main_v21)) (W9 m ρ c (Proc.devRef .tc main_v22)) (W9 m ρ c (Proc.devRef .tc main_arg7))
      (fun j => W9 m ρ c (Proc.devRef .tc main_v23) (ix2 0 j)) = _
  rw [src_at, hot_at, wr_at, br_at, oneHot_eq _ hrel, msgArr_indicator]
  have hb : (fun j : Fin 896 => shapeCast S1x896 (W6 m ρ c (Proc.devRef .tc main_arg8)) shapeCasts_S896_S1x896 (ix2 0 j))
      = fun j => W6 m ρ c (Proc.devRef .tc main_arg8) (ix1 j) := funext fun j => biasRow896 _ j
  rw [hb]

/-! ## The second region's entry -/

theorem nout_at4 (c : Dev nD) : W10 m ρ c (Proc.devRef .tc main_arg14) = W6 m ρ c (Proc.devRef .tc main_arg14) := by
  refine (W10_of_ne m ρ c main_arg14 (by decide)).trans ?_
  read1_entry

theorem agg_at (c : Dev nD) : W11 m ρ c (Proc.devRef .tc main_v27)
    = nodeSum (W6 m ρ c (Proc.devRef .tc main_arg14)) (W10 m ρ c (Proc.devRef .tc main_v24)) := by
  unfold nodeSum
  rw [← nout_at4]
  read1_mid

theorem x_at5 (c : Dev nD) : W11 m ρ c (Proc.devRef .tc main_v14) = W6 m ρ c (Proc.devRef .tc main_v14) := by
  refine Eq.trans (b := W10 m ρ c (Proc.devRef .tc main_v14)) (by read1_mid) ?_
  refine (W10_of_ne m ρ c main_v14 (by decide)).trans ?_
  read1_entry

theorem ws_at5 (c : Dev nD) : W11 m ρ c (Proc.devRef .tc main_arg5) = W6 m ρ c (Proc.devRef .tc main_arg5) := by
  refine Eq.trans (b := W10 m ρ c (Proc.devRef .tc main_arg5)) (by read1_mid) ?_
  refine (W10_of_ne m ρ c main_arg5 (by decide)).trans ?_
  read1_entry

theorem bs_at4 (c : Dev nD) : W10 m ρ c (Proc.devRef .tc main_arg6) = W6 m ρ c (Proc.devRef .tc main_arg6) := by
  refine (W10_of_ne m ρ c main_arg6 (by decide)).trans ?_
  read1_entry

theorem bs_at5 (c : Dev nD) : W11 m ρ c (Proc.devRef .tc main_v28)
    = shapeCast S1x128 (W6 m ρ c (Proc.devRef .tc main_arg6)) shapeCasts_S128_S1x128 := by
  rw [← bs_at4]
  read1_mid

/-! ## The layer -/

/-- The node array after the layer is the layer's function of the buffers at its entry boundary. -/
theorem out (c : Dev nD) (hrel : InRange (W6 m ρ c (Proc.devRef .tc main_arg15))) :
    W12 m ρ c (Proc.devRef .tc main_v29)
      = layerK (W6 m ρ c (Proc.devRef .tc main_v14)) (W6 m ρ c (Proc.devRef .tc main_arg5)) (W6 m ρ c (Proc.devRef .tc main_arg6))
          (W6 m ρ c (Proc.devRef .tc main_arg7)) (W6 m ρ c (Proc.devRef .tc main_arg8)) (W6 m ρ c (Proc.devRef .tc main_arg13))
          (W6 m ρ c (Proc.devRef .tc main_arg14)) (relOf (W6 m ρ c (Proc.devRef .tc main_arg15)) hrel) := by
  refine (W12_arr m ρ c 4).trans ?_
  rw [UpdFinal3.final (V11 m ρ) c]
  show updArr (W11 m ρ c (Proc.devRef .tc main_v14)) (W11 m ρ c (Proc.devRef .tc main_v27)) (W11 m ρ c (Proc.devRef .tc main_arg5))
      (fun d => W11 m ρ c (Proc.devRef .tc main_v28) (ix2 0 d)) = _
  rw [x_at5, agg_at, ws_at5, bs_at5, msg_at m ρ c hrel]
  have hb : (fun d : Fin 128 => shapeCast S1x128 (W6 m ρ c (Proc.devRef .tc main_arg6)) shapeCasts_S128_S1x128 (ix2 0 d))
      = fun d => W6 m ρ c (Proc.devRef .tc main_arg6) (ix1 d) := funext fun d => biasRow128 _ d
  rw [hb]
  rfl

/-- A buffer that neither region touches and no host operation of the layer writes is, after the layer, what it was before. -/
macro "layer1_keeps" : tactic =>
  `(tactic| (refine (W12_of_ne _ _ _ _ (by decide)).trans ?_
             show StableHlo.after hostOps3 (W10 _ _ _) _ = _
             after_results
             refine (W10_of_ne _ _ _ _ (by decide)).trans ?_
             read1_entry))

end Cert.KernelIdeal.Walk1

end
-- ==== Proof.MsgFinal4.lean ====
import proofs.«423819_j7524782702912_1_alg».proof.Proof.Gen.KernelIdeal.Frame
import proofs.«423819_j7524782702912_1_alg».proof.Proof.MsgPay
import Idealize.ShloMosaic.Lib.Pipeline.Value

noncomputable section

namespace Cert.KernelIdeal.MsgFinal4

open Idealize.ShloMosaic Idealize.ShloMosaic.TcCoe Idealize.SL.Sem Idealize.ShloMosaic.ValueIdx Cert.RelConv Cert.KernelIdeal Cert.KernelIdeal.Gen Idealize.ShloMosaic.Pipeline

variable (V : (c : Dev nD) → (b : Ref sig .tc) → Buf (Elt Ideal) ((c : Thread nD τ).loc b))

/-- The zero offsets of a whole-block access, however spelt. -/
private theorem zero_offsets : (![0, 0] : Fin 2 → Nat) = fun _ => 0 := funext fun a => by fin_cases a <;> rfl

/-- The block indices over the grid: at point t the source, indicator and message windows sit on row block t, column
    block 0; the weight matrix and the bias row are one block each. -/
private theorem block_indices : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- One element of the block a point stores: if the source and indicator blocks are rows 4096·n … 4096·n + 4095 of their
    arrays and the weight and bias blocks are the whole arrays, element (p, q) of the stored block is element
    (4096·n + p, q) of the message array. -/
private theorem block_elem (nb : SE128.Idx → EReal) (oh : SE7.Idx → EReal)
    (x0 : Vec Ideal S4096x128 .f32) (x1 : Vec Ideal S4096x7 .f32) (x2 : Vec Ideal S128x896 .f32) (x3 : Vec Ideal S1x896 .f32)
    (n : Nat) (hn : n < 64)
    (h0 : ∀ (p : Fin 4096) (k : Fin 128), x0 (ix2 p k) = nb (ix2 (n0 := 262144) ⟨n * 4096 + p.val, by omega⟩ k))
    (h1 : ∀ (p : Fin 4096) (s : Fin 7), x1 (ix2 p s) = oh (ix2 (n0 := 262144) ⟨n * 4096 + p.val, by omega⟩ s))
    (p : Fin 4096) (q : Fin 128) :
    k4_pay1 (F := Ideal) x0 x2 x3 x1 (ix2 p q)
      = msgArr nb oh x2 (fun j => x3 (ix2 0 j)) (ix2 (n0 := 262144) ⟨n * 4096 + p.val, by omega⟩ q) := by
  rw [msgArr_apply]
  refine (MsgPay.msg_pay_apply4 x0 x2 x3 x1 p q).trans ?_
  simp only [h0, h1]

set_option maxHeartbeats 1000000 in
/-- What point t writes back to the message array is block t of the weighted slice sum of the arrays the region found. -/
private theorem flushed_eq (c : Dev nD) (t : Fin cfg4.N) :
    (dat4 (F := Ideal) V c).flushed 4 t = ((cfg4.win 4).blk t).view.read (Elt Ideal)
      (msgArr (V c main_v36) (V c main_v37) (V c main_arg11) (fun j => V c main_v38 (ix2 0 j))) := by
  show (cfg4.win 4).cut (grid4.coords t) ((dat4 (F := Ideal) V c).after 4 t) = _
  rw [after4_4]
  unfold out4_4
  rw [View.canon_unit_zero zero_offsets]
  simp only [View.ld_unit_zero (S := S4096x128) zero_offsets, View.ld_unit_zero (S := S128x896) zero_offsets,
    View.ld_unit_zero (S := S1x896) zero_offsets, View.ld_unit_zero (S := S4096x7) zero_offsets]
  have hN : cfg4.N = 64 := N_4
  have ht : t.val < 64 := by have := t.isLt; omega
  obtain ⟨e00, e01, e10, e11, e20, e21, e30, e31, e40, e41⟩ := block_indices t
  have hW : iblk4 V c 2 t = V c main_arg11 := by
    funext y
    show V c main_arg11 (((cfg4.win 2).blk t).view.emb y) = V c main_arg11 y
    congr 1
    funext a; apply Fin.ext
    match a with
    | ⟨0, _⟩ => show win4_2.index t (0 : Fin 2) * 128 + 1 * (y 0).val = (y 0).val; omega
    | ⟨1, _⟩ => show win4_2.index t (1 : Fin 2) * 896 + 1 * (y 1).val = (y 1).val; omega
  have hb : iblk4 V c 3 t = V c main_v38 := by
    funext y
    show V c main_v38 (((cfg4.win 3).blk t).view.emb y) = V c main_v38 y
    congr 1
    funext a; apply Fin.ext
    match a with
    | ⟨0, _⟩ => show win4_3.index t (0 : Fin 2) * 1 + 1 * (y 0).val = (y 0).val; omega
    | ⟨1, _⟩ => show win4_3.index t (1 : Fin 2) * 896 + 1 * (y 1).val = (y 1).val; omega
  rw [hW, hb]
  funext j
  obtain ⟨p, q, rfl⟩ : ∃ (p : Fin 4096) (q : Fin 128), j = ix2 p q := ⟨j 0, j 1, eq_ix2 j⟩
  refine (block_elem (V c main_v36) (V c main_v37) (iblk4 V c 0 t) (iblk4 V c 1 t) (V c main_arg11) (V c main_v38) t.val ht ?_ ?_ p q).trans ?_
  · intro p k
    show V c main_v36 (((cfg4.win 0).blk t).view.emb (ix2 p k)) = _
    congr 1
    funext a; apply Fin.ext
    match a with
    | ⟨0, _⟩ => show win4_0.index t (0 : Fin 2) * 4096 + 1 * p.val = t.val * 4096 + p.val; omega
    | ⟨1, _⟩ => show win4_0.index t (1 : Fin 2) * 128 + 1 * k.val = k.val; omega
  · intro p s
    show V c main_v37 (((cfg4.win 1).blk t).view.emb (ix2 p s)) = _
    congr 1
    funext a; apply Fin.ext
    match a with
    | ⟨0, _⟩ => show win4_1.index t (0 : Fin 2) * 4096 + 1 * p.val = t.val * 4096 + p.val; omega
    | ⟨1, _⟩ => show win4_1.index t (1 : Fin 2) * 7 + 1 * s.val = s.val; omega
  · show _ = msgArr (V c main_v36) (V c main_v37) (V c main_arg11) (fun j => V c main_v38 (ix2 0 j)) (((cfg4.win 4).blk t).view.emb (ix2 p q))
    congr 1
    funext a; apply Fin.ext
    match a with
    | ⟨0, _⟩ => show t.val * 4096 + p.val = win4_4.index t (0 : Fin 2) * 4096 + 1 * p.val; omega
    | ⟨1, _⟩ => show q.val = win4_4.index t (1 : Fin 2) * 128 + 1 * q.val; omega

/-- An index of the message array is in point t's block iff each coordinate is in the block's range on its axis. -/
private theorem mem_blk (t : Fin cfg4.N) (i : S262144x128.Idx) :
    i ∈ ((cfg4.win 4).blk t).view.set ↔ ∀ a : Fin 2, win4_4.index t a * S4096x128.size a ≤ (i a).val ∧ (i a).val < win4_4.index t a * S4096x128.size a + S4096x128.size a := by
  show i ∈ ((View.whole main_v39).slice (win4_4.rect t)).set ↔ _
  rw [View.set_slice_whole, Rect.mem_set_unit]
  exact Iff.rfl

/-- Every index of the message array is in some point's block: row r is in the block of point r / 4096. -/
private theorem covered (i : S262144x128.Idx) :
    ∃ t : Fin cfg4.N, (cfg4.win 4).flush t = true ∧ i ∈ ((cfg4.win 4).blk t).view.set := by
  have hN : cfg4.N = 64 := N_4
  have h0 : (i 0).val < 262144 := (i 0).isLt
  have h1 : (i 1).val < 128 := (i 1).isLt
  have ht : (i 0).val / 4096 < cfg4.N := by rw [hN]; omega
  obtain ⟨-, -, -, -, -, -, -, -, e40, e41⟩ := block_indices ⟨(i 0).val / 4096, ht⟩
  refine ⟨⟨(i 0).val / 4096, ht⟩, flush4_4 _, ?_⟩
  rw [mem_blk]
  intro a
  match a with
  | ⟨0, _⟩ =>
    show win4_4.index ⟨(i 0).val / 4096, ht⟩ (0 : Fin 2) * 4096 ≤ (i 0).val ∧ (i 0).val < win4_4.index ⟨(i 0).val / 4096, ht⟩ (0 : Fin 2) * 4096 + 4096
    rw [e40]; show (i 0).val / 4096 * 4096 ≤ (i 0).val ∧ (i 0).val < (i 0).val / 4096 * 4096 + 4096; omega
  | ⟨1, _⟩ =>
    show win4_4.index ⟨(i 0).val / 4096, ht⟩ (1 : Fin 2) * 128 ≤ (i 1).val ∧ (i 1).val < win4_4.index ⟨(i 0).val / 4096, ht⟩ (1 : Fin 2) * 128 + 128
    rw [e41]; omega

/-- After the first message region the message array holds, row by row, the weighted slice sum of the arrays the region found. -/
theorem final (c : Dev nD) :
    (dat4 (F := Ideal) V c).arrAt 4 cfg4.N
      = msgArr (V c main_v36) (V c main_v37) (V c main_arg11) (fun j => V c main_v38 (ix2 0 j)) :=
  (dat4 (F := Ideal) V c).arrAt_eq_of_cover 4 _ (fun t _ => flushed_eq V c t) covered

end Cert.KernelIdeal.MsgFinal4

end
-- ==== Proof.UpdFinal5.lean ====
import proofs.«423819_j7524782702912_1_alg».proof.Proof.Gen.KernelIdeal.Frame
import proofs.«423819_j7524782702912_1_alg».proof.Proof.UpdPay

noncomputable section

namespace Cert.KernelIdeal.UpdFinal5

open Idealize.ShloMosaic Idealize.ShloMosaic.TcCoe Idealize.SL.Sem Idealize.ShloMosaic.ValueIdx Cert.RelConv Cert.KernelIdeal Cert.KernelIdeal.Gen Idealize.ShloMosaic.Pipeline

variable (V : (c : Dev nD) → (b : Ref sig .tc) → Buf (Elt Ideal) ((c : Thread nD τ).loc b))

/-! The update region runs over 8 points. Point t reads rows 8192·t … 8192·t + 8191 of the node array and of the
    aggregate, the whole self-loop matrix and the whole bias row, and writes the same rows of the result. Inside its
    block the stored value at (p, q) is the node update of row p of the block, so it is the node update of row
    8192·t + p of the arrays; the eight blocks tile the 65536 rows, so the result is the updated node array. -/

/-- The origin of a rank-2 rectangle, as the constant zero function. -/
private theorem origin_zero : (![0, 0] : Fin 2 → Nat) = fun _ => 0 := funext fun a => by fin_cases a <;> rfl

/-- The block indices of the five windows at point t, over the 8 points: the node array, the aggregate and the result
    are at block row t, block column 0; the matrix and the bias row are at block (0, 0). -/
private theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- One block of the update. If x0 and x1 are rows 8192·b … 8192·b + 8191 of X and A, and x2, x3 are W and B, then the
    stored value at (p, q) of the block is the node update of X, A, W, B at row 8192·b + p, feature q. -/
private theorem block_eq (X A : SN128.Idx → EReal) (W : SW128.Idx → EReal) (B : Vec Ideal S1x128 .f32)
    (x0 x1 : Vec Ideal S8192x128 .f32) (x2 : Vec Ideal S128x128 .f32) (x3 : Vec Ideal S1x128 .f32)
    (b : Nat) (hb : b < 8)
    (h0 : ∀ (p : Fin 8192) (k : Fin 128), x0 (ix2 p k) = X (ix2 ⟨b * 8192 + p.val, by have := p.isLt; omega⟩ k))
    (h1 : ∀ (p : Fin 8192) (k : Fin 128), x1 (ix2 p k) = A (ix2 ⟨b * 8192 + p.val, by have := p.isLt; omega⟩ k))
    (h2 : x2 = W) (h3 : x3 = B) (p : Fin 8192) (q : Fin 128) :
    k5_pay1 (F := Ideal) x0 x2 x3 x1 (ix2 p q)
      = updArr X A W (fun d => B (ix2 0 d)) (ix2 ⟨b * 8192 + p.val, by have := p.isLt; omega⟩ q) := by
  subst h2 h3
  rw [UpdPay.upd_pay_apply5, updArr_apply, h1]
  exact congrArg (fun r => updRow r _ _ _ q) (funext fun k => h0 p k)

/-- What point t writes back is block t of the updated node array. An element (p, k) of a block sits in its array at
    (block row · 8192 + p, block column · 128 + k); with the block indices above that is row 8192·t + p for the node
    array, the aggregate and the result, and the element's own place for the matrix and the bias row. -/
private theorem flushed_eq (c : Dev nD) (t : Fin cfg5.N) :
    (dat5 (F := Ideal) V c).flushed 4 t
      = ((cfg5.win 4).blk t).view.read (Elt Ideal)
          (updArr (V c main_v29) (V c main_v42) (V c main_arg9) (fun d => V c main_v43 (ix2 0 d))) := by
  show (cfg5.win 4).cut (grid5.coords t) ((dat5 V c).after 4 t) = _
  rw [after5_4]
  unfold out5_4
  rw [View.canon_unit_zero origin_zero]
  simp only [View.ld_unit_zero (S := S8192x128) origin_zero, View.ld_unit_zero (S := S128x128) origin_zero,
    View.ld_unit_zero (S := S1x128) origin_zero]
  obtain ⟨e00, e01, e10, e11, e20, e21, e30, e31, e40, e41⟩ := idx_facts t
  funext j
  obtain ⟨p, q, rfl⟩ : ∃ (p : Fin 8192) (q : Fin 128), j = ix2 p q := ⟨j 0, j 1, eq_ix2 j⟩
  refine (block_eq (V c main_v29) (V c main_v42) (V c main_arg9) (V c main_v43)
    (iblk5 V c 0 t) (iblk5 V c 1 t) (iblk5 V c 2 t) (iblk5 V c 3 t) t.val t.isLt ?_ ?_ ?_ ?_ p q).trans ?_
  · -- the node array's block: rows 8192·t + p
    intro p k
    show V c main_v29 (((cfg5.win 0).blk t).view.emb (ix2 p k)) = _
    refine congrArg _ (funext fun a => Fin.ext ?_)
    match a with
    | ⟨0, _⟩ => show win5_0.index t (0 : Fin 2) * 8192 + 1 * p.val = t.val * 8192 + p.val; omega
    | ⟨1, _⟩ => show win5_0.index t (1 : Fin 2) * 128 + 1 * k.val = k.val; omega
  · -- the aggregate's block: the same rows
    intro p k
    show V c main_v42 (((cfg5.win 1).blk t).view.emb (ix2 p k)) = _
    refine congrArg _ (funext fun a => Fin.ext ?_)
    match a with
    | ⟨0, _⟩ => show win5_1.index t (0 : Fin 2) * 8192 + 1 * p.val = t.val * 8192 + p.val; omega
    | ⟨1, _⟩ => show win5_1.index t (1 : Fin 2) * 128 + 1 * k.val = k.val; omega
  · -- the self-loop matrix: its one block is the whole matrix
    funext y
    show V c main_arg9 (((cfg5.win 2).blk t).view.emb y) = V c main_arg9 y
    refine congrArg _ (funext fun a => Fin.ext ?_)
    match a with
    | ⟨0, _⟩ => show win5_2.index t (0 : Fin 2) * 128 + 1 * (y 0).val = (y 0).val; omega
    | ⟨1, _⟩ => show win5_2.index t (1 : Fin 2) * 128 + 1 * (y 1).val = (y 1).val; omega
  · -- the bias row: its one block is the whole row
    funext y
    show V c main_v43 (((cfg5.win 3).blk t).view.emb y) = V c main_v43 y
    refine congrArg _ (funext fun a => Fin.ext ?_)
    match a with
    | ⟨0, _⟩ => show win5_3.index t (0 : Fin 2) * 1 + 1 * (y 0).val = (y 0).val; omega
    | ⟨1, _⟩ => show win5_3.index t (1 : Fin 2) * 128 + 1 * (y 1).val = (y 1).val; omega
  · -- the result's block: element (p, q) of block t is element (8192·t + p, q) of the array
    show _ = updArr (V c main_v29) (V c main_v42) (V c main_arg9) (fun d => V c main_v43 (ix2 0 d))
      (((cfg5.win 4).blk t).view.emb (ix2 p q))
    refine congrArg _ (funext fun a => Fin.ext ?_)
    match a with
    | ⟨0, _⟩ => show t.val * 8192 + p.val = win5_4.index t (0 : Fin 2) * 8192 + 1 * p.val; omega
    | ⟨1, _⟩ => show q.val = win5_4.index t (1 : Fin 2) * 128 + 1 * q.val; omega

/-- An index of the result is in point t's block iff each coordinate is in the block's range on its axis. -/
private theorem mem_blk (t : Fin cfg5.N) (i : S65536x128.Idx) :
    i ∈ ((cfg5.win 4).blk t).view.set ↔ ∀ a : Fin 2, win5_4.index t a * S8192x128.size a ≤ (i a).val
      ∧ (i a).val < win5_4.index t a * S8192x128.size a + S8192x128.size a := by
  show i ∈ ((View.whole main_v44).slice (win5_4.rect t)).set ↔ _
  rw [View.set_slice_whole, Rect.mem_set_unit]
  exact Iff.rfl

/-- The eight blocks cover the array: row r lies in the block of point r / 8192, which writes back. -/
private theorem covered (i : S65536x128.Idx) :
    ∃ t : Fin cfg5.N, (cfg5.win 4).flush t = true ∧ i ∈ ((cfg5.win 4).blk t).view.set := by
  have hi0 : (i 0).val < 65536 := (i 0).isLt
  have hi1 : (i 1).val < 128 := (i 1).isLt
  have ht : (i 0).val / 8192 < grid5.N := by rw [N_5]; omega
  obtain ⟨-, -, -, -, -, -, -, -, e40, e41⟩ := idx_facts ⟨(i 0).val / 8192, ht⟩
  have e40' : win5_4.index ⟨(i 0).val / 8192, ht⟩ (0 : Fin 2) = (i 0).val / 8192 := e40
  refine ⟨⟨(i 0).val / 8192, ht⟩, flush5_4 _, ?_⟩
  rw [mem_blk]
  intro a
  match a with
  | ⟨0, _⟩ =>
    show win5_4.index ⟨(i 0).val / 8192, ht⟩ (0 : Fin 2) * 8192 ≤ (i 0).val
      ∧ (i 0).val < win5_4.index ⟨(i 0).val / 8192, ht⟩ (0 : Fin 2) * 8192 + 8192
    omega
  | ⟨1, _⟩ =>
    show win5_4.index ⟨(i 0).val / 8192, ht⟩ (1 : Fin 2) * 128 ≤ (i 1).val
      ∧ (i 1).val < win5_4.index ⟨(i 0).val / 8192, ht⟩ (1 : Fin 2) * 128 + 128
    omega

/-- After the first update region the node array holds the update of the arrays the region found. -/
theorem final (c : Dev nD) :
    (dat5 (F := Ideal) V c).arrAt 4 cfg5.N
      = updArr (V c main_v29) (V c main_v42) (V c main_arg9) (fun d => V c main_v43 (ix2 0 d)) :=
  (dat5 (F := Ideal) V c).arrAt_eq_of_cover 4
    (updArr (V c main_v29) (V c main_v42) (V c main_arg9) (fun d => V c main_v43 (ix2 0 d)))
    (fun t _ => flushed_eq V c t) covered

end Cert.KernelIdeal.UpdFinal5

end
-- ==== Proof.Walk2.lean ====
/-
  The first layer of the kernel program, boundary by boundary.  W12 is the memory at launch; three host stretches lead to
  the first region's entry (W15: the source rows gathered, the labels turned into the indicator array, the relation bias
  reshaped into a row); the first region leaves the message array (W16); a host stretch sums the messages into their
  destination nodes and reshapes the self-loop bias (W17); the second region leaves the updated node array (W18).
  Each lemma reads one buffer at one boundary as a function of the buffers at W12; out says that the node array after the
  layer is layerK of the layer's parameters as launched, when every label is in range.  keeps says that a buffer none of
  this writes is at W18 what it was at W12.
-/
import proofs.«423819_j7524782702912_1_alg».proof.Proof.Gen.KernelIdeal.Frame
import proofs.«423819_j7524782702912_1_alg».proof.Proof.KLayer
import proofs.«423819_j7524782702912_1_alg».proof.Proof.MsgFinal4
import proofs.«423819_j7524782702912_1_alg».proof.Proof.UpdFinal5
import Idealize.ShloMosaic.Lib.StableHlo.Run

set_option maxRecDepth 16384
set_option maxHeartbeats 2000000

noncomputable section

namespace Cert.KernelIdeal.Walk2

open Cert.KernelIdeal Cert.KernelIdeal.Gen Cert.KernelIdeal.Layer
open Idealize.ShloMosaic Idealize.ShloMosaic.TcCoe Idealize.SL.Sem Idealize.ShloMosaic.StableHlo Idealize.ShloMosaic.ValueIdx Cert.RelConv

variable (m : (ℓ : Loc nD τ sig) → Buf (Elt Ideal) ℓ) (ρ : Dev nD → PrngReg)

/-- Reads a buffer after the three host stretches before the first region, from the layer's entry boundary. -/
macro "read2_entry" : tactic =>
  `(tactic| (show StableHlo.after hostOps4_2 (StableHlo.after hostOps4_1 (StableHlo.after hostOps4 (W12 _ _ _))) _ = _
             after_results
             all_goals rfl))

/-- Reads a buffer after the host stretch between the two regions. -/
macro "read2_mid" : tactic =>
  `(tactic| (show StableHlo.after hostOps5 (W16 _ _ _) _ = _
             after_results
             all_goals rfl))

/-! ## The first region's entry -/

theorem src_at (c : Dev nD) : W15 m ρ c (Proc.devRef .tc main_v36)
    = srcRows (W12 m ρ c (Proc.devRef .tc main_v29)) (W12 m ρ c (Proc.devRef .tc main_arg13)) := by
  unfold srcRows
  read2_entry

theorem hot_at (c : Dev nD) : W15 m ρ c (Proc.devRef .tc main_v37) = oneHot (W12 m ρ c (Proc.devRef .tc main_arg15)) := by
  unfold oneHot
  read2_entry

theorem wr_at (c : Dev nD) : W15 m ρ c (Proc.devRef .tc main_arg11) = W12 m ρ c (Proc.devRef .tc main_arg11) := by
  read2_entry

theorem br_at (c : Dev nD) : W15 m ρ c (Proc.devRef .tc main_v38)
    = shapeCast S1x896 (W12 m ρ c (Proc.devRef .tc main_arg12)) shapeCasts_S896_S1x896 := by
  read2_entry

/-! ## The message array -/

theorem msg_at (c : Dev nD) (hrel : InRange (W12 m ρ c (Proc.devRef .tc main_arg15))) :
    W16 m ρ c (Proc.devRef .tc main_v39)
      = selArr (srcRows (W12 m ρ c (Proc.devRef .tc main_v29)) (W12 m ρ c (Proc.devRef .tc main_arg13)))
          (relOf (W12 m ρ c (Proc.devRef .tc main_arg15)) hrel) (W12 m ρ c (Proc.devRef .tc main_arg11))
          (fun j => W12 m ρ c (Proc.devRef .tc main_arg12) (ix1 j)) := by
  refine (W16_arr m ρ c 4).trans ?_
  rw [MsgFinal4.final (V15 m ρ) c]
  show msgArr (W15 m ρ c (Proc.devRef .tc main_v36)) (W15 m ρ c (Proc.devRef .tc main_v37)) (W15 m ρ c (Proc.devRef .tc main_arg11))
      (fun j => W15 m ρ c (Proc.devRef .tc main_v38) (ix2 0 j)) = _
  rw [src_at, hot_at, wr_at, br_at, oneHot_eq _ hrel, msgArr_indicator]
  have hb : (fun j : Fin 896 => shapeCast S1x896 (W12 m ρ c (Proc.devRef .tc main_arg12)) shapeCasts_S896_S1x896 (ix2 0 j))
      = fun j => W12 m ρ c (Proc.devRef .tc main_arg12) (ix1 j) := funext fun j => biasRow896 _ j
  rw [hb]

/-! ## The second region's entry -/

theorem nout_at4 (c : Dev nD) : W16 m ρ c (Proc.devRef .tc main_arg14) = W12 m ρ c (Proc.devRef .tc main_arg14) := by
  refine (W16_of_ne m ρ c main_arg14 (by decide)).trans ?_
  read2_entry

theorem agg_at (c : Dev nD) : W17 m ρ c (Proc.devRef .tc main_v42)
    = nodeSum (W12 m ρ c (Proc.devRef .tc main_arg14)) (W16 m ρ c (Proc.devRef .tc main_v39)) := by
  unfold nodeSum
  rw [← nout_at4]
  read2_mid

theorem x_at5 (c : Dev nD) : W17 m ρ c (Proc.devRef .tc main_v29) = W12 m ρ c (Proc.devRef .tc main_v29) := by
  refine Eq.trans (b := W16 m ρ c (Proc.devRef .tc main_v29)) (by read2_mid) ?_
  refine (W16_of_ne m ρ c main_v29 (by decide)).trans ?_
  read2_entry

theorem ws_at5 (c : Dev nD) : W17 m ρ c (Proc.devRef .tc main_arg9) = W12 m ρ c (Proc.devRef .tc main_arg9) := by
  refine Eq.trans (b := W16 m ρ c (Proc.devRef .tc main_arg9)) (by read2_mid) ?_
  refine (W16_of_ne m ρ c main_arg9 (by decide)).trans ?_
  read2_entry

theorem bs_at4 (c : Dev nD) : W16 m ρ c (Proc.devRef .tc main_arg10) = W12 m ρ c (Proc.devRef .tc main_arg10) := by
  refine (W16_of_ne m ρ c main_arg10 (by decide)).trans ?_
  read2_entry

theorem bs_at5 (c : Dev nD) : W17 m ρ c (Proc.devRef .tc main_v43)
    = shapeCast S1x128 (W12 m ρ c (Proc.devRef .tc main_arg10)) shapeCasts_S128_S1x128 := by
  rw [← bs_at4]
  read2_mid

/-! ## The layer -/

/-- The node array after the layer is the layer's function of the buffers at its entry boundary. -/
theorem out (c : Dev nD) (hrel : InRange (W12 m ρ c (Proc.devRef .tc main_arg15))) :
    W18 m ρ c (Proc.devRef .tc main_v44)
      = layerK (W12 m ρ c (Proc.devRef .tc main_v29)) (W12 m ρ c (Proc.devRef .tc main_arg9)) (W12 m ρ c (Proc.devRef .tc main_arg10))
          (W12 m ρ c (Proc.devRef .tc main_arg11)) (W12 m ρ c (Proc.devRef .tc main_arg12)) (W12 m ρ c (Proc.devRef .tc main_arg13))
          (W12 m ρ c (Proc.devRef .tc main_arg14)) (relOf (W12 m ρ c (Proc.devRef .tc main_arg15)) hrel) := by
  refine (W18_arr m ρ c 4).trans ?_
  rw [UpdFinal5.final (V17 m ρ) c]
  show updArr (W17 m ρ c (Proc.devRef .tc main_v29)) (W17 m ρ c (Proc.devRef .tc main_v42)) (W17 m ρ c (Proc.devRef .tc main_arg9))
      (fun d => W17 m ρ c (Proc.devRef .tc main_v43) (ix2 0 d)) = _
  rw [x_at5, agg_at, ws_at5, bs_at5, msg_at m ρ c hrel]
  have hb : (fun d : Fin 128 => shapeCast S1x128 (W12 m ρ c (Proc.devRef .tc main_arg10)) shapeCasts_S128_S1x128 (ix2 0 d))
      = fun d => W12 m ρ c (Proc.devRef .tc main_arg10) (ix1 d) := funext fun d => biasRow128 _ d
  rw [hb]
  rfl

/-- A buffer that neither region touches and no host operation of the layer writes is, after the layer, what it was before. -/
macro "layer2_keeps" : tactic =>
  `(tactic| (refine (W18_of_ne _ _ _ _ (by decide)).trans ?_
             show StableHlo.after hostOps5 (W16 _ _ _) _ = _
             after_results
             refine (W16_of_ne _ _ _ _ (by decide)).trans ?_
             read2_entry))

end Cert.KernelIdeal.Walk2

end
-- ==== Proof.Keeps.lean ====
/-
  The parameters of the later layers are buffers the earlier layers neither write nor stage: at the later layers' entry
  boundaries (W6, W12, and W18 for the graph labels) they hold what was launched.
-/
import proofs.«423819_j7524782702912_1_alg».proof.Proof.Walk0
import proofs.«423819_j7524782702912_1_alg».proof.Proof.Walk1
import proofs.«423819_j7524782702912_1_alg».proof.Proof.Walk2

set_option maxRecDepth 16384
set_option maxHeartbeats 2000000

noncomputable section

namespace Cert.KernelIdeal.Keeps

open Cert.KernelIdeal Cert.KernelIdeal.Gen Cert.KernelIdeal.Layer Cert.KernelIdeal.Walk0 Cert.KernelIdeal.Walk1 Cert.KernelIdeal.Walk2
open Idealize.ShloMosaic Idealize.ShloMosaic.TcCoe Idealize.SL.Sem Idealize.ShloMosaic.StableHlo Idealize.ShloMosaic.ValueIdx Cert.RelConv

variable (m : (ℓ : Loc nD τ sig) → Buf (Elt Ideal) ℓ) (ρ : Dev nD → PrngReg)

/-! ## After the first layer -/

theorem at6_arg5 (c : Dev nD) : W6 m ρ c (Proc.devRef .tc main_arg5) = W0 m ρ c (Proc.devRef .tc main_arg5) := by layer0_keeps
theorem at6_arg6 (c : Dev nD) : W6 m ρ c (Proc.devRef .tc main_arg6) = W0 m ρ c (Proc.devRef .tc main_arg6) := by layer0_keeps
theorem at6_arg7 (c : Dev nD) : W6 m ρ c (Proc.devRef .tc main_arg7) = W0 m ρ c (Proc.devRef .tc main_arg7) := by layer0_keeps
theorem at6_arg8 (c : Dev nD) : W6 m ρ c (Proc.devRef .tc main_arg8) = W0 m ρ c (Proc.devRef .tc main_arg8) := by layer0_keeps
theorem at6_arg9 (c : Dev nD) : W6 m ρ c (Proc.devRef .tc main_arg9) = W0 m ρ c (Proc.devRef .tc main_arg9) := by layer0_keeps
theorem at6_arg10 (c : Dev nD) : W6 m ρ c (Proc.devRef .tc main_arg10) = W0 m ρ c (Proc.devRef .tc main_arg10) := by layer0_keeps
theorem at6_arg11 (c : Dev nD) : W6 m ρ c (Proc.devRef .tc main_arg11) = W0 m ρ c (Proc.devRef .tc main_arg11) := by layer0_keeps
theorem at6_arg12 (c : Dev nD) : W6 m ρ c (Proc.devRef .tc main_arg12) = W0 m ρ c (Proc.devRef .tc main_arg12) := by layer0_keeps
theorem at6_arg13 (c : Dev nD) : W6 m ρ c (Proc.devRef .tc main_arg13) = W0 m ρ c (Proc.devRef .tc main_arg13) := by layer0_keeps
theorem at6_arg14 (c : Dev nD) : W6 m ρ c (Proc.devRef .tc main_arg14) = W0 m ρ c (Proc.devRef .tc main_arg14) := by layer0_keeps
theorem at6_arg15 (c : Dev nD) : W6 m ρ c (Proc.devRef .tc main_arg15) = W0 m ρ c (Proc.devRef .tc main_arg15) := by layer0_keeps
theorem at6_arg16 (c : Dev nD) : W6 m ρ c (Proc.devRef .tc main_arg16) = W0 m ρ c (Proc.devRef .tc main_arg16) := by layer0_keeps

/-! ## After the second layer -/

theorem at12_arg9 (c : Dev nD) : W12 m ρ c (Proc.devRef .tc main_arg9) = W0 m ρ c (Proc.devRef .tc main_arg9) :=
  (by layer1_keeps : W12 m ρ c (Proc.devRef .tc main_arg9) = W6 m ρ c (Proc.devRef .tc main_arg9)).trans (at6_arg9 m ρ c)
theorem at12_arg10 (c : Dev nD) : W12 m ρ c (Proc.devRef .tc main_arg10) = W0 m ρ c (Proc.devRef .tc main_arg10) :=
  (by layer1_keeps : W12 m ρ c (Proc.devRef .tc main_arg10) = W6 m ρ c (Proc.devRef .tc main_arg10)).trans (at6_arg10 m ρ c)
theorem at12_arg11 (c : Dev nD) : W12 m ρ c (Proc.devRef .tc main_arg11) = W0 m ρ c (Proc.devRef .tc main_arg11) :=
  (by layer1_keeps : W12 m ρ c (Proc.devRef .tc main_arg11) = W6 m ρ c (Proc.devRef .tc main_arg11)).trans (at6_arg11 m ρ c)
theorem at12_arg12 (c : Dev nD) : W12 m ρ c (Proc.devRef .tc main_arg12) = W0 m ρ c (Proc.devRef .tc main_arg12) :=
  (by layer1_keeps : W12 m ρ c (Proc.devRef .tc main_arg12) = W6 m ρ c (Proc.devRef .tc main_arg12)).trans (at6_arg12 m ρ c)
theorem at12_arg13 (c : Dev nD) : W12 m ρ c (Proc.devRef .tc main_arg13) = W0 m ρ c (Proc.devRef .tc main_arg13) :=
  (by layer1_keeps : W12 m ρ c (Proc.devRef .tc main_arg13) = W6 m ρ c (Proc.devRef .tc main_arg13)).trans (at6_arg13 m ρ c)
theorem at12_arg14 (c : Dev nD) : W12 m ρ c (Proc.devRef .tc main_arg14) = W0 m ρ c (Proc.devRef .tc main_arg14) :=
  (by layer1_keeps : W12 m ρ c (Proc.devRef .tc main_arg14) = W6 m ρ c (Proc.devRef .tc main_arg14)).trans (at6_arg14 m ρ c)
theorem at12_arg15 (c : Dev nD) : W12 m ρ c (Proc.devRef .tc main_arg15) = W0 m ρ c (Proc.devRef .tc main_arg15) :=
  (by layer1_keeps : W12 m ρ c (Proc.devRef .tc main_arg15) = W6 m ρ c (Proc.devRef .tc main_arg15)).trans (at6_arg15 m ρ c)
theorem at12_arg16 (c : Dev nD) : W12 m ρ c (Proc.devRef .tc main_arg16) = W0 m ρ c (Proc.devRef .tc main_arg16) :=
  (by layer1_keeps : W12 m ρ c (Proc.devRef .tc main_arg16) = W6 m ρ c (Proc.devRef .tc main_arg16)).trans (at6_arg16 m ρ c)

/-! ## After the third layer -/

theorem at18_arg16 (c : Dev nD) : W18 m ρ c (Proc.devRef .tc main_arg16) = W0 m ρ c (Proc.devRef .tc main_arg16) :=
  (by layer2_keeps : W18 m ρ c (Proc.devRef .tc main_arg16) = W12 m ρ c (Proc.devRef .tc main_arg16)).trans (at12_arg16 m ρ c)

end Cert.KernelIdeal.Keeps

end
-- ==== Proof.KernelValue.lean ====
/-
  What the kernel program's two results hold at the last boundary, as functions of the memory at launch, when every
  relation label is in range: the node features are three layers applied in turn to the node array, each with its own
  weights and biases and all with the same edges and labels; the graph features are the node features summed into their
  graphs by a scatter-sum into zeros.
-/
import proofs.«423819_j7524782702912_1_alg».proof.Proof.Keeps

set_option maxRecDepth 16384
set_option maxHeartbeats 2000000

noncomputable section

namespace Cert.KernelIdeal.Whole

open Cert.KernelIdeal Cert.KernelIdeal.Gen Cert.KernelIdeal.Layer
open Idealize.ShloMosaic Idealize.ShloMosaic.TcCoe Idealize.SL.Sem Idealize.ShloMosaic.StableHlo Idealize.ShloMosaic.ValueIdx Cert.RelConv

variable (m : (ℓ : Loc nD τ sig) → Buf (Elt Ideal) ℓ) (ρ : Dev nD → PrngReg)

/-- Equal label arrays give the same labelling, whatever the range proofs. -/
theorem relOf_congr {rel rel' : SE.Idx → BitVec 32} (e : rel = rel') (h : InRange rel) (h' : InRange rel') :
    relOf rel h = relOf rel' h' := by
  subst e; rfl

/-- The last host stretch leaves the node features as the third layer left them. -/
theorem node_kept (c : Dev nD) : W19 m ρ c (Proc.devRef .tc main_v44) = W18 m ρ c (Proc.devRef .tc main_v44) := by
  show StableHlo.after hostOps6 (W18 m ρ c) (Proc.devRef .tc main_v44) = _
  after_results

/-- The node features: three layers. -/
theorem node (c : Dev nD) (hrel : InRange (W0 m ρ c (Proc.devRef .tc main_arg15))) :
    W19 m ρ c (Proc.devRef .tc main_v44)
      = layerK (layerK (layerK (W0 m ρ c (Proc.devRef .tc main_arg0)) (W0 m ρ c (Proc.devRef .tc main_arg1)) (W0 m ρ c (Proc.devRef .tc main_arg2))
            (W0 m ρ c (Proc.devRef .tc main_arg3)) (W0 m ρ c (Proc.devRef .tc main_arg4)) (W0 m ρ c (Proc.devRef .tc main_arg13))
            (W0 m ρ c (Proc.devRef .tc main_arg14)) (relOf (W0 m ρ c (Proc.devRef .tc main_arg15)) hrel))
          (W0 m ρ c (Proc.devRef .tc main_arg5)) (W0 m ρ c (Proc.devRef .tc main_arg6)) (W0 m ρ c (Proc.devRef .tc main_arg7)) (W0 m ρ c (Proc.devRef .tc main_arg8))
          (W0 m ρ c (Proc.devRef .tc main_arg13)) (W0 m ρ c (Proc.devRef .tc main_arg14)) (relOf (W0 m ρ c (Proc.devRef .tc main_arg15)) hrel))
        (W0 m ρ c (Proc.devRef .tc main_arg9)) (W0 m ρ c (Proc.devRef .tc main_arg10)) (W0 m ρ c (Proc.devRef .tc main_arg11)) (W0 m ρ c (Proc.devRef .tc main_arg12))
        (W0 m ρ c (Proc.devRef .tc main_arg13)) (W0 m ρ c (Proc.devRef .tc main_arg14)) (relOf (W0 m ρ c (Proc.devRef .tc main_arg15)) hrel) := by
  have h6 : InRange (W6 m ρ c (Proc.devRef .tc main_arg15)) := by rw [Keeps.at6_arg15]; exact hrel
  have h12 : InRange (W12 m ρ c (Proc.devRef .tc main_arg15)) := by rw [Keeps.at12_arg15]; exact hrel
  rw [node_kept, Walk2.out m ρ c h12, Walk1.out m ρ c h6, Walk0.out m ρ c hrel,
    relOf_congr (Keeps.at12_arg15 m ρ c) h12 hrel, relOf_congr (Keeps.at6_arg15 m ρ c) h6 hrel,
    Keeps.at12_arg9, Keeps.at12_arg10, Keeps.at12_arg11, Keeps.at12_arg12, Keeps.at12_arg13, Keeps.at12_arg14,
    Keeps.at6_arg5, Keeps.at6_arg6, Keeps.at6_arg7, Keeps.at6_arg8, Keeps.at6_arg13, Keeps.at6_arg14]

/-- The graph features: the node features summed into their graphs. -/
theorem graph (c : Dev nD) :
    W19 m ρ c (Proc.devRef .tc main_v47)
      = Host.scatterAdd (F := Ideal) (φ := .f32) scatter_S32x128_S65536x1_S65536x128_1_0_0_1
          (broadcastInDim S32x128 ![] bcast_S_S32x128 (constant (F := Ideal) S_ .f32 0x00000000#32))
          (broadcastInDim S65536x1 ![0] bcast_S65536_S65536x1_0 (W0 m ρ c (Proc.devRef .tc main_arg16)))
          (W19 m ρ c (Proc.devRef .tc main_v44)) := by
  rw [node_kept, ← Keeps.at18_arg16 m ρ c]
  show StableHlo.after hostOps6 (W18 m ρ c) (Proc.devRef .tc main_v47) = _
  after_results
  all_goals rfl

end Cert.KernelIdeal.Whole

end
-- ==== Proof.PreDecode.lean ====
import proofs.«423819_j7524782702912_1_alg».proof.Proof.Gen.Pre_finite_inputs
import proofs.«423819_j7524782702912_1_alg».proof.Proof.Spec
import Idealize.ShloMosaic.Lib.ReduceAll
import Idealize.ShloMosaic.Lib.StableHlo.Predicate
import Idealize.ShloMosaic.Lib.ValueIdx

noncomputable section

namespace Cert.Pre_finite_inputs.Decode

open Idealize.ShloMosaic Idealize.ShloMosaic.TcCoe Idealize.SL.Sem Idealize.ShloMosaic.ValueIdx Cert.RelConv Cert.Pre_finite_inputs Cert.Pre_finite_inputs.Gen

/-- The rank-0 shape has one index. -/
private instance subsingleton_scalarIdx : Subsingleton S_.Idx := ⟨fun a b => funext fun d => d.elim0⟩

/-- The precondition gives the label range: every relation label, read as a natural number, is below 7. -/
theorem rel_inRange (main_arg0 : FVec Ideal S65536x128 .f32) (main_arg1 : FVec Ideal S128x128 .f32) (main_arg2 : FVec Ideal S128 .f32) (main_arg3 : FVec Ideal S128x896 .f32) (main_arg4 : FVec Ideal S896 .f32) (main_arg5 : FVec Ideal S128x128 .f32) (main_arg6 : FVec Ideal S128 .f32) (main_arg7 : FVec Ideal S128x896 .f32) (main_arg8 : FVec Ideal S896 .f32) (main_arg9 : FVec Ideal S128x128 .f32) (main_arg10 : FVec Ideal S128 .f32) (main_arg11 : FVec Ideal S128x896 .f32) (main_arg12 : FVec Ideal S896 .f32) (main_arg13 : IVec S262144 32) (main_arg14 : IVec S262144 32) (main_arg15 : IVec S262144 32) (main_arg16 : IVec S65536 32)
    (h : Cert.Pre_finite_inputs.fn (F := Ideal) main_arg0 main_arg1 main_arg2 main_arg3 main_arg4 main_arg5 main_arg6 main_arg7 main_arg8 main_arg9 main_arg10 main_arg11 main_arg12 main_arg13 main_arg14 main_arg15 main_arg16 = fun _ => 1#1) :
    InRange main_arg15 := by
  intro e
  -- the predicate at its one index; only the last conjunction is opened
  have h0 := congrFun h ValueIdx.ix0
  dsimp only [Cert.Pre_finite_inputs.fn, fn_part1, fn_part2, fn_part3, fn_part4] at h0
  -- the last conjunct is the conjunction over all edges of (0 ≤ label) and (label < 7)
  have hall := (IntOp.andi_eq_one.1 h0).2
  have he := Host.reduce_andi_all _ _ _ _ _ hall (ix1 e)
  obtain ⟨hge, hlt⟩ := IntOp.andi_eq_one.1 he
  -- the two broadcast constants, read at edge e
  have hz : broadcastInDim S262144 ![] Facts.bcast_S_S262144 (constantI S_ 32 0#32) (ix1 e) = 0#32 := by
    rw [StableHlo.Predicate.bcast_scalar _ Facts.h_S_]; rfl
  have hs : broadcastInDim S262144 ![] Facts.bcast_S_S262144 (constantI S_ 32 7#32) (ix1 e) = 7#32 := by
    rw [StableHlo.Predicate.bcast_scalar _ Facts.h_S_]; rfl
  -- the signed comparisons, as integer inequalities
  have hge' := IntOp.cmpi_sge.1 hge
  have hlt' := IntOp.cmpi_slt.1 hlt
  rw [hz] at hge'
  rw [hs] at hlt'
  -- a 32-bit word whose signed value lies in [0, 7) has unsigned value below 7
  have h00 : (0#32 : BitVec 32).toInt = 0 := by decide
  have h07 : (7#32 : BitVec 32).toInt = 7 := by decide
  rw [h00] at hge'
  rw [h07] at hlt'
  have hlt32 := (main_arg15 (ix1 e)).isLt
  rw [BitVec.toInt_eq_toNat_cond] at hge' hlt'
  split at hge' <;> omega

end Cert.Pre_finite_inputs.Decode

end
-- ==== Proof.LibTakeAxis1.lean ====
/-
  A gather along the middle axis of a rank-3 array, the leading axis batching and the last axis taken whole: the
  operation an index-along-an-axis read of an [n, a, d] array on its middle axis lowers to.

  The operand is [n, a, d], the start indices are [n, t, 1] (the index vector on the trailing unit axis), the result is
  [n, t, d]; operand axis 0 is a batching axis paired with start-indices axis 0, operand axis 1 is collapsed and is the
  one axis the start index names, operand axis 2 is the one offset axis and its slice is the whole axis (slice sizes
  1, 1, d). Result element (e, q, j) is the operand at (e, i, j) where i is the start index at (e, q, 0) read as a
  signed integer and clamped into [0, a - 1].
-/
import Idealize.ShloMosaic.Lib.ValueIdx

noncomputable section

namespace Cert.Lib.TakeAxis1

open Idealize.ShloMosaic Idealize.ShloMosaic.ValueIdx

variable {α : Type}

/-- The dimension numbers of a gather along the middle axis of an [n, a, d] operand at [n, t, 1] start indices, result
    [n, t, d]: offset axis 2, axis 1 collapsed and indexed, axis 0 batching on both sides, the index vector on axis 2,
    slice sizes 1, 1, d. Their conditions `wf` are decided on a program's literal shapes. -/
abbrev axis1Dims (n a d t : Nat)
    (wf : GatherDims.WF ⟨3, ![n, a, d]⟩ ⟨3, ![n, t, 1]⟩ ⟨3, ![n, t, d]⟩ [2] [1] [0] [1] [0] 2 ![1, 1, d]) :
    GatherDims ⟨3, ![n, a, d]⟩ ⟨3, ![n, t, 1]⟩ ⟨3, ![n, t, d]⟩ where
  offsetDims := [2]
  collapsedSliceDims := [1]
  operandBatchingDims := [0]
  startIndicesBatchingDims := [0]
  startIndexMap := [1]
  indexVectorDim := 2
  sliceSizes := ![1, 1, d]
  wf := wf

/-- THE GATHER READ AT (e, q, j): the operand at (e, i, j), where i is the start index at (e, q, 0) read signed and
    clamped into [0, a - 1]. -/
theorem gather_axis1_apply {n a d t w : Nat} (ha : 0 < a)
    (wf : GatherDims.WF ⟨3, ![n, a, d]⟩ ⟨3, ![n, t, 1]⟩ ⟨3, ![n, t, d]⟩ [2] [1] [0] [1] [0] 2 ![1, 1, d])
    (x : (⟨3, ![n, a, d]⟩ : Shape).Idx → α) (idx : IVec ⟨3, ![n, t, 1]⟩ w) (e : Fin n) (q : Fin t) (j : Fin d) :
    Host.gather (axis1Dims n a d t wf) x idx (ix3 e q j)
      = x (ix3 e (⟨min (idx (ix3 e q (0 : Fin 1))).toInt.toNat (a - 1), by omega⟩ : Fin a) j) := by
  unfold Host.gather
  congr 1
  funext c
  refine Fin.ext ?_
  show (axis1Dims n a d t wf).start (ix3 e q j) idx c + (axis1Dims n a d t wf).batchCoord (ix3 e q j) c
      + (axis1Dims n a d t wf).offCoord (ix3 e q j) c = _
  match c with
  | ⟨0, h0⟩ =>
    have hb : (⟨0, h0⟩ : Fin 3) ∈ (axis1Dims n a d t wf).operandBatchingDims := List.mem_cons_self
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨1, h1⟩ =>
    have hc : (⟨1, h1⟩ : Fin 3) ∈ (axis1Dims n a d t wf).collapsedSliceDims := List.mem_singleton.mpr rfl
    have hm : (⟨1, h1⟩ : Fin 3) ∈ (axis1Dims n a d t wf).startIndexMap := List.mem_singleton.mpr rfl
    have hnb : (⟨1, h1⟩ : Fin 3) ∉ (axis1Dims n a d t wf).operandBatchingDims := by
      intro h
      rcases List.mem_cons.1 h with e' | h'
      · exact absurd (congrArg Fin.val e') (show (1 : Nat) ≠ 0 by decide)
      · exact absurd h' List.not_mem_nil
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (axis1Dims n a d t wf).siIdx (ix3 e q j) ⟨List.idxOf (⟨1, h1⟩ : Fin 3) (axis1Dims n a d t wf).startIndexMap,
        List.idxOf_lt_length_iff.2 hm⟩ = ix3 e q (0 : Fin 1) := by
      funext b; refine Fin.ext ?_
      match b with
      | ⟨0, _⟩ => rfl
      | ⟨1, _⟩ => rfl
      | ⟨2, _⟩ => rfl
    rw [hsi]
    rfl
  | ⟨2, h2⟩ =>
    have hnm : (⟨2, h2⟩ : Fin 3) ∉ (axis1Dims n a d t wf).startIndexMap := by
      intro h
      rcases List.mem_cons.1 h with e' | h'
      · exact absurd (congrArg Fin.val e') (show (2 : Nat) ≠ 1 by decide)
      · exact absurd h' List.not_mem_nil
    have hnb : (⟨2, h2⟩ : Fin 3) ∉ (axis1Dims n a d t wf).operandBatchingDims := by
      intro h
      rcases List.mem_cons.1 h with e' | h'
      · exact absurd (congrArg Fin.val e') (show (2 : Nat) ≠ 0 by decide)
      · exact absurd h' List.not_mem_nil
    have hnc : (⟨2, h2⟩ : Fin 3) ∉ (axis1Dims n a d t wf).collapsedSliceDims := by
      intro h
      rcases List.mem_cons.1 h with e' | h'
      · exact absurd (congrArg Fin.val e') (show (2 : Nat) ≠ 1 by decide)
      · exact absurd h' List.not_mem_nil
    have hk : (⟨2, h2⟩ : Fin 3) ∈ (axis1Dims n a d t wf).sKept := (GatherDims.mem_sKept _ _).mpr ⟨hnc, hnb⟩
    rw [GatherDims.batchCoord_eq_zero _ _ _ hnb, Nat.add_zero]
    unfold GatherDims.start
    rw [dif_neg hnm, Nat.zero_add]
    unfold GatherDims.offCoord
    rw [dif_pos hk]
    rfl

end Cert.Lib.TakeAxis1

end
-- ==== Proof.RefMsg.lean ====
/-
  The reference's per-edge message is the selected-slice array of the gathered source rows.

  The reference forms the affine image of every gathered row in 7·128 columns, cuts it into seven slices of 128, and
  reads, along the slice axis, the slice named by the edge's label: the label has 7 added where it is negative, is
  tested to lie in [0, 6] (the test and-reduced over a unit axis), is clamped into [0, 6] by the gather, and the gathered
  slice is kept where the test holds. A label whose natural reading is below 7 is not negative as a signed word, passes
  both tests and is its own clamp, so row e of the result is slice (label of e) of the affine image of row e: column
  128·label + d of (∑ k, row[k] · W[k, ·]) + b.
-/
import proofs.«423819_j7524782702912_1_alg».proof.Proof.RefReadCut
import proofs.«423819_j7524782702912_1_alg».proof.Proof.Spec
import proofs.«423819_j7524782702912_1_alg».proof.Proof.LibTakeAxis1
import Idealize.ShloMosaic.Lib.StableHlo.Predicate
import Idealize.ShloMosaic.Lib.ReduceAll
import Idealize.ShloMosaic.Lib.ValueIdx
import Idealize.ShloMosaic.Lib.Pipeline.Value
import Idealize.ShloMosaic.PureOps.Ideal.Laws

noncomputable section

namespace Cert.ReferenceIdeal.Msg

open Idealize.ShloMosaic Idealize.ShloMosaic.TcCoe Idealize.SL.Sem Idealize.ShloMosaic.ValueIdx Cert.RelConv Cert.ReferenceIdeal Cert.ReferenceIdeal.Gen Cert.ReferenceIdeal.Read

/-! ### A label below 7, as a 32-bit word -/

/-- A 32-bit word below 7 is not negative as a signed word. -/
private theorem slt_zero_of_lt (v : BitVec 32) (h : v.toNat < 7) : IntOp.cmpi .slt v 0#32 = 0#1 := by
  refine eq_zero_of_ne_one fun hh => ?_
  have hv : v.toInt = (v.toNat : Int) := BitVec.toInt_eq_toNat_of_lt (by omega)
  rw [IntOp.cmpi_slt, hv, show (0#32 : BitVec 32).toInt = 0 from by decide] at hh
  omega

/-- The index the reference reads with (7 added to a negative label): a label below 7 is kept as it is. -/
private theorem wrap_of_lt (v : BitVec 32) (h : v.toNat < 7) :
    Scalar.select (IntOp.cmpi .slt v 0#32) (IntOp.addi v 7#32) v = v := by
  rw [slt_zero_of_lt v h, select_zero]

/-- Both range tests (at least 0, at most 6) hold of a label below 7. -/
private theorem inb_of_lt (v : BitVec 32) (h : v.toNat < 7) :
    IntOp.andi (IntOp.cmpi .sge v 0#32) (IntOp.cmpi .sle v 6#32) = 1#1 := by
  have hv : v.toInt = (v.toNat : Int) := BitVec.toInt_eq_toNat_of_lt (by omega)
  refine IntOp.andi_eq_one.2 ⟨?_, ?_⟩
  · rw [IntOp.cmpi_sge, hv, show (0#32 : BitVec 32).toInt = 0 from by decide]
    omega
  · rw [IntOp.cmpi_sle, hv, show (6#32 : BitVec 32).toInt = 6 from by decide]
    omega

/-- Read signed and clamped into [0, 6], a label below 7 is itself. -/
private theorem clamp_of_lt (v : BitVec 32) (h : v.toNat < 7) : min v.toInt.toNat (7 - 1) = v.toNat := by
  have hv : v.toInt = (v.toNat : Int) := BitVec.toInt_eq_toNat_of_lt (by omega)
  rw [hv, Int.toNat_natCast]
  omega

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-! ### The index array and the range test of the reference -/

/-- The index array the reference gathers with holds, at edge e, the label of e. -/
private theorem idx_apply (rel : IVec S262144 32) (hrel : InRange rel) (i : S262144x1x1.Idx) :
    val_main_call0_v4 (F := Ideal) rel i = rel (ix1 (i 0)) := by
  have hi : idx_main_v16 i = ix1 (i 0) := funext fun a => Fin.ext (by match a with | ⟨0, _⟩ => rfl)
  rw [val_main_call0_v4_apply, val_main_call0_v1_apply, val_main_call0_v3_apply, val_main_v16_apply,
    val_main_call0_v0_apply, val_main_call0_c_apply, val_main_call0_v2_apply, val_main_call0_c_0_apply, hi]
  exact wrap_of_lt _ (hrel (i 0))

/-- The range test of the reference holds at every edge. -/
private theorem inb_apply (rel : IVec S262144 32) (hrel : InRange rel) (i : S262144x1x1.Idx) :
    val_main_call0_v10 (F := Ideal) rel i = 1#1 := by
  rw [val_main_call0_v10_apply, val_main_call0_v6_apply, val_main_call0_v9_apply, idx_apply rel hrel,
    val_main_call0_v5_apply, val_main_call0_c_2_apply, val_main_call0_v8_apply, val_main_call0_v7_apply,
    val_main_call0_c_1_apply]
  exact inb_of_lt _ (hrel (i 0))

/-- The and-reduction of the range test over its unit axis is 1 at every edge. -/
private theorem ok_apply (rel : IVec S262144 32) (hrel : InRange rel) (j : S262144x1.Idx) :
    val_main_call0_v11 (F := Ideal) rel j = 1#1 := by
  unfold val_main_call0_v11
  rw [Host.reduce_eq_foldl]
  exact foldl_andi_one _ (inb_apply rel hrel) _

/-! ### The message array -/

/-- With every label in range, the reference's per-edge message (the affine image of the gathered source rows, cut into
    seven slices, the slice of the edge's label taken along the slice axis) is the selected-slice array of the gathered rows. -/
theorem msg_eq (x : Vec Ideal S65536x128 .f32) (Wr : Vec Ideal S128x896 .f32) (br : Vec Ideal S896 .f32)
    (nin rel : IVec S262144 32) (hrel : InRange rel) :
    val_main_v18 (F := Ideal) x Wr br nin rel
      = selArr (val_main_v10 (F := Ideal) x nin) (relOf rel hrel) Wr (fun j => br (ix1 j)) := by
  funext i
  obtain ⟨e, d, rfl⟩ : ∃ (e : Fin 262144) (d : Fin 128), i = ix2 e d := ⟨i 0, i 1, eq_ix2 i⟩
  -- the result is read at (e, 0, d) of the rank-3 select
  have h18 : idx_main_v18 (ix2 e d) = ix3 e (0 : Fin 1) d := funext fun a => Fin.ext (by
    match a with
    | ⟨0, _⟩ => show (e.val * 128 + d.val) / 128 = e.val; have := d.isLt; omega
    | ⟨1, _⟩ => rfl
    | ⟨2, _⟩ => show (e.val * 128 + d.val) % 128 = d.val; have := d.isLt; omega)
  rw [selArr_apply, val_main_v18_apply, h18, val_main_v17_apply, val_main_call0_v13_apply, ok_apply rel hrel, select_one]
  -- the gather reads slice (label of e) of row e
  have hg : ∀ Y : Vec Ideal S262144x7x128 .f32,
      Host.gather gather_S262144x7x128_S262144x1x1_S262144x1x128_2_1_0_0_1_2_11128 Y (val_main_call0_v4 (F := Ideal) rel)
        (ix3 e (0 : Fin 1) d) = Y (ix3 e (relOf rel hrel e) d) := fun Y => by
    refine (Cert.Lib.TakeAxis1.gather_axis1_apply (n := 262144) (a := 7) (d := 128) (t := 1) (by decide)
      gather_S262144x7x128_S262144x1x1_S262144x1x128_2_1_0_0_1_2_11128_wf Y _ e 0 d).trans
      (congrArg (fun r : Fin 7 => Y (ix3 e r d)) (Fin.ext ?_))
    show min (val_main_call0_v4 (F := Ideal) rel (ix3 e (0 : Fin 1) (0 : Fin 1))).toInt.toNat (7 - 1) = (rel (ix1 e)).toNat
    rw [idx_apply rel hrel]
    exact clamp_of_lt _ (hrel e)
  unfold val_main_call0_v12
  rw [hg]
  -- slice r, feature d of the reshaped affine image is its column 128 r + d
  have h15 : idx_main_v15 (ix3 e (relOf rel hrel e) d) = ix2 e (col (relOf rel hrel e) d) := funext fun a => Fin.ext (by
    have hr := (relOf rel hrel e).isLt
    have hd := d.isLt
    match a with
    | ⟨0, _⟩ =>
      show ((e.val * 7 + (relOf rel hrel e).val) * 128 + d.val) / 896 = e.val
      omega
    | ⟨1, _⟩ =>
      show ((e.val * 7 + (relOf rel hrel e).val) * 128 + d.val) % 896 = 128 * (relOf rel hrel e).val + d.val
      omega)
  rw [val_main_v15_apply, h15, val_main_v14_apply, val_main_v11_apply, val_main_v13_apply, val_main_v12_apply]
  have hl : ∀ (c : Fin 896) (k : Fin 128), lidx_main_v11 (ix2 e c) k = ix2 e k := fun c k => funext fun a => Fin.ext (by
    match a with
    | ⟨0, _⟩ => rfl
    | ⟨1, _⟩ => rfl)
  have hw : ∀ (c : Fin 896) (k : Fin 128), ridx_main_v11 (ix2 e c) k = ix2 k c := fun c k => funext fun a => Fin.ext (by
    match a with
    | ⟨0, _⟩ => rfl
    | ⟨1, _⟩ => rfl)
  have hb : ∀ c : Fin 896, idx_main_v12 (idx_main_v13 (ix2 e c)) = ix1 c := fun c => funext fun a => Fin.ext (by
    match a with
    | ⟨0, _⟩ => rfl)
  simp only [hl, hw, hb]
  rfl

end Cert.ReferenceIdeal.Msg

end
-- ==== Proof.RefLayer.lean ====
import proofs.«423819_j7524782702912_1_alg».proof.Proof.RefReadCut
import proofs.«423819_j7524782702912_1_alg».proof.Proof.Spec
import proofs.«423819_j7524782702912_1_alg».proof.Proof.RefMsg
import Idealize.ShloMosaic.Lib.ValueIdx
import Idealize.ShloMosaic.Lib.Pipeline.Value
import Idealize.ShloMosaic.PureOps.Ideal.Laws

noncomputable section

namespace Cert.ReferenceIdeal.Layer

open Idealize.ShloMosaic Idealize.ShloMosaic.TcCoe Idealize.SL.Sem Idealize.ShloMosaic.ValueIdx Cert.RelConv Cert.ReferenceIdeal Cert.ReferenceIdeal.Gen Cert.ReferenceIdeal.Read

/-- The left operand of the self-loop product is read at row n, column k: the contraction runs along the node's own row. -/
private theorem lidx_ix2 (n : Fin 65536) (d k : Fin 128) : lidx_main_v0 (ix2 n d) k = ix2 n k :=
  funext fun a => Fin.ext (by match a with | ⟨0, _⟩ => rfl | ⟨1, _⟩ => rfl)

/-- The right operand of the self-loop product is read at row k, column d: the contraction runs down column d of the weights. -/
private theorem ridx_ix2 (n : Fin 65536) (d k : Fin 128) : ridx_main_v0 (ix2 n d) k = ix2 k d :=
  funext fun a => Fin.ext (by match a with | ⟨0, _⟩ => rfl | ⟨1, _⟩ => rfl)

/-- The bias, spread to one row and then down all the rows, is read at the column alone. -/
private theorem bidx_ix1 (n : Fin 65536) (d : Fin 128) : idx_main_v1 (idx_main_v2 (ix2 n d)) = ix1 d :=
  funext fun a => Fin.ext (by match a with | ⟨0, _⟩ => rfl)

/-- The self-loop affine map at node n, feature d: the sum over k of x[n,k] · Ws[k,d], plus bs[d]. -/
private theorem self_apply (x : Vec Ideal S65536x128 .f32) (Ws : Vec Ideal S128x128 .f32) (bs : Vec Ideal S128 .f32)
    (n : Fin 65536) (d : Fin 128) :
    val_main_v3 (F := Ideal) x Ws bs (ix2 n d) = (∑ k : Fin 128, x (ix2 n k) * Ws (ix2 k d)) + bs (ix1 d) := by
  rw [val_main_v3_apply, val_main_v0_apply, val_main_v2_apply, val_main_v1_apply]
  simp only [lidx_ix2, ridx_ix2, bidx_ix1, Ideal.addf_def]

/-- The clamp's other operand, the zero word spread over the node array, is the extended real 0 at every index. -/
private theorem zero_apply (i : S65536x128.Idx) : val_main_call1_v0 (F := Ideal) i = 0 := by
  rw [val_main_call1_v0_apply, val_main_call1_cst_apply]
  simp only [Ideal.ofBits_def, Ideal.ofBits_zero_f32]

/-- The aggregate of the layer is the scatter-sum of the selected-slice messages: the scatter-sum is one and the same
    operation on both sides, and only its last operand, the per-edge message array, is rewritten. -/
private theorem agg_eq (x : Vec Ideal S65536x128 .f32) (Wr : Vec Ideal S128x896 .f32) (br : Vec Ideal S896 .f32)
    (nin nout rel : IVec S262144 32) (hrel : InRange rel) :
    val_main_v21 (F := Ideal) x Wr br nin nout rel
      = Host.scatterAdd (F := Ideal) (φ := .f32) scatter_S65536x128_S262144x1_S262144x128_1_0_0_1 (val_main_v19 (F := Ideal)) (val_main_v20 (F := Ideal) nout)
          (selArr (val_main_v10 (F := Ideal) x nin) (relOf rel hrel) Wr (fun j => br (ix1 j))) := by
  unfold val_main_v21
  rw [Cert.ReferenceIdeal.Msg.msg_eq x Wr br nin rel hrel]

/-- One layer of the reference, with every label in range: the update of the node array by the scatter-sum, over destination
    nodes, of the selected-slice messages of the gathered source rows. -/
theorem layer_eq (x : Vec Ideal S65536x128 .f32) (Ws : Vec Ideal S128x128 .f32) (bs : Vec Ideal S128 .f32)
    (Wr : Vec Ideal S128x896 .f32) (br : Vec Ideal S896 .f32) (nin nout rel : IVec S262144 32) (hrel : InRange rel) :
    val_main_v24 (F := Ideal) x Ws bs Wr br nin nout rel
      = updArr x
          (Host.scatterAdd (F := Ideal) (φ := .f32) scatter_S65536x128_S262144x1_S262144x128_1_0_0_1 (val_main_v19 (F := Ideal)) (val_main_v20 (F := Ideal) nout)
            (selArr (val_main_v10 (F := Ideal) x nin) (relOf rel hrel) Wr (fun j => br (ix1 j))))
          Ws (fun d => bs (ix1 d)) := by
  -- Both sides carry the same aggregate array. At node n, feature d the value is
  -- max ((self-loop map + aggregate), 0) + x[n,d], with the self-loop map in closed form and the clamp's bound equal to 0.
  rw [← agg_eq x Wr br nin nout rel hrel]
  funext i
  obtain ⟨n, d, rfl⟩ : ∃ (n : Fin 65536) (d : Fin 128), i = ix2 n d := ⟨i 0, i 1, eq_ix2 i⟩
  rw [updArr_apply]
  unfold updRow
  rw [val_main_v24_apply, val_main_v23_apply, val_main_v22_apply, self_apply, zero_apply]
  simp only [Ideal.addf_def, Ideal.maximumf_def]

end Cert.ReferenceIdeal.Layer

end
-- ==== Proof.Bridge.lean ====
/-
  The two programs' layers are one function.  The kernel program's layer in normal form (Cert.KernelIdeal.Layer.layerK)
  and the right-hand side of the reference's layer equation (Cert.ReferenceIdeal.Layer.layer_eq) are the same update of
  the same scatter-sum of the same selected-slice array of the same gathered rows: the two programs spell the gather, the
  scatter-sum and their index and zero operands with the same operations over their own copies of the same records.  So,
  with every label in range, three kernel layers are the reference's node features, and the graph sums agree.
-/
import proofs.«423819_j7524782702912_1_alg».proof.Proof.KLayer
import proofs.«423819_j7524782702912_1_alg».proof.Proof.RefLayer

set_option maxRecDepth 16384

noncomputable section

namespace Cert.Bridge

open Idealize.ShloMosaic Idealize.ShloMosaic.TcCoe Idealize.SL.Sem Idealize.ShloMosaic.ValueIdx Cert.RelConv
open Cert.KernelIdeal.Layer (layerK)

/-- One layer. -/
theorem layer (x : Vec Ideal Cert.KernelIdeal.S65536x128 .f32) (Ws : Vec Ideal Cert.KernelIdeal.S128x128 .f32) (bs : Vec Ideal Cert.KernelIdeal.S128 .f32) (Wr : Vec Ideal Cert.KernelIdeal.S128x896 .f32) (br : Vec Ideal Cert.KernelIdeal.S896 .f32)
    (nin nout rel : IVec Cert.KernelIdeal.S262144 32) (hrel : InRange rel) :
    layerK x Ws bs Wr br nin nout (relOf rel hrel)
      = Cert.ReferenceIdeal.Read.val_main_v24 (F := Ideal) x Ws bs Wr br nin nout rel := by
  rw [Cert.ReferenceIdeal.Layer.layer_eq x Ws bs Wr br nin nout rel hrel]
  rfl

/-- Three layers: the node features. -/
theorem node (x0 : Vec Ideal Cert.KernelIdeal.S65536x128 .f32) (x1 : Vec Ideal Cert.KernelIdeal.S128x128 .f32) (x2 : Vec Ideal Cert.KernelIdeal.S128 .f32) (x3 : Vec Ideal Cert.KernelIdeal.S128x896 .f32) (x4 : Vec Ideal Cert.KernelIdeal.S896 .f32)
    (x5 : Vec Ideal Cert.KernelIdeal.S128x128 .f32) (x6 : Vec Ideal Cert.KernelIdeal.S128 .f32) (x7 : Vec Ideal Cert.KernelIdeal.S128x896 .f32) (x8 : Vec Ideal Cert.KernelIdeal.S896 .f32)
    (x9 : Vec Ideal Cert.KernelIdeal.S128x128 .f32) (x10 : Vec Ideal Cert.KernelIdeal.S128 .f32) (x11 : Vec Ideal Cert.KernelIdeal.S128x896 .f32) (x12 : Vec Ideal Cert.KernelIdeal.S896 .f32)
    (x13 x14 x15 : IVec Cert.KernelIdeal.S262144 32) (hrel : InRange x15) :
    layerK (layerK (layerK x0 x1 x2 x3 x4 x13 x14 (relOf x15 hrel)) x5 x6 x7 x8 x13 x14 (relOf x15 hrel)) x9 x10 x11 x12 x13 x14 (relOf x15 hrel)
      = Cert.ReferenceIdeal.Read.val_main_v24 (F := Ideal)
          (Cert.ReferenceIdeal.Read.val_main_v24 (F := Ideal)
            (Cert.ReferenceIdeal.Read.val_main_v24 (F := Ideal) x0 x1 x2 x3 x4 x13 x14 x15) x5 x6 x7 x8 x13 x14 x15)
          x9 x10 x11 x12 x13 x14 x15 := by
  rw [layer, layer, layer]

/-- The graph sums: the two programs sum the same node features into the same graphs. -/
theorem graph (x16 : IVec Cert.KernelIdeal.S65536 32) (y : Vec Ideal Cert.KernelIdeal.S65536x128 .f32) :
    Host.scatterAdd (F := Ideal) (φ := .f32) Cert.KernelIdeal.scatter_S32x128_S65536x1_S65536x128_1_0_0_1
        (broadcastInDim Cert.KernelIdeal.S32x128 ![] Cert.KernelIdeal.Facts₀.bcast_S_S32x128 (constant (F := Ideal) Cert.KernelIdeal.S_ .f32 0x00000000#32))
        (broadcastInDim Cert.KernelIdeal.S65536x1 ![0] Cert.KernelIdeal.Facts₀.bcast_S65536_S65536x1_0 x16) y
      = Host.scatterAdd (F := Ideal) (φ := .f32) Cert.ReferenceIdeal.scatter_S32x128_S65536x1_S65536x128_1_0_0_1
        (Cert.ReferenceIdeal.Read.val_main_v75 (F := Ideal)) (Cert.ReferenceIdeal.Read.val_main_v76 (F := Ideal) x16) y := rfl

end Cert.Bridge

end
-- ==== Proof.RefOps.lean ====
import proofs.«423819_j7524782702912_1_alg».proof.Proof.RefRunCut

noncomputable section

namespace Cert.ReferenceIdeal.Walk

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Operations 0 to 50 of @main. -/
abbrev opsA : List (HloOp τ sig (Elt F)) :=
  [ binary main_arg0 main_arg1 main_v0 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    unary main_arg2 main_v1 (broadcastInDim S1x128 ![1] bcast_S128_S1x128_1 : (⟨S128, .f32⟩ : BufTy).Contents (Elt F) → (⟨S1x128, .f32⟩ : BufTy).Contents (Elt F)),
    unary main_v1 main_v2 (broadcastInDim S65536x128 ![0, 1] bcast_S1x128_S65536x128_0_1 : (⟨S1x128, .f32⟩ : BufTy).Contents (Elt F) → (⟨S65536x128, .f32⟩ : BufTy).Contents (Elt F)),
    binary main_v0 main_v2 main_v3 (addf : (⟨S65536x128, .f32⟩ : BufTy).Contents (Elt F) → (⟨S65536x128, .f32⟩ : BufTy).Contents (Elt F) → (⟨S65536x128, .f32⟩ : BufTy).Contents (Elt F)),
    nullary main_c (constantI S_ 32 0#32),
    unary main_c main_v4 (broadcastInDim S262144 ![] bcast_S_S262144 : (⟨S_, .i32⟩ : BufTy).Contents (Elt F) → (⟨S262144, .i32⟩ : BufTy).Contents (Elt F)),
    binary main_arg13 main_v4 main_v5 (cmpi .slt : (⟨S262144, .i32⟩ : BufTy).Contents (Elt F) → (⟨S262144, .i32⟩ : BufTy).Contents (Elt F) → (⟨S262144, .i1⟩ : BufTy).Contents (Elt F)),
    nullary main_c_0 (constantI S_ 32 65536#32),
    unary main_c_0 main_v6 (broadcastInDim S262144 ![] bcast_S_S262144 : (⟨S_, .i32⟩ : BufTy).Contents (Elt F) → (⟨S262144, .i32⟩ : BufTy).Contents (Elt F)),
    binary main_arg13 main_v6 main_v7 (addi : (⟨S262144, .i32⟩ : BufTy).Contents (Elt F) → (⟨S262144, .i32⟩ : BufTy).Contents (Elt F) → (⟨S262144, .i32⟩ : BufTy).Contents (Elt F)),
    ternary main_v5 main_v7 main_arg13 main_v8 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v8 main_v9 (broadcastInDim S262144x1 ![0] bcast_S262144_S262144x1_0 : (⟨S262144, .i32⟩ : BufTy).Contents (Elt F) → (⟨S262144x1, .i32⟩ : BufTy).Contents (Elt F)),
    binary main_arg0 main_v9 main_v10 ((fun x i => Host.gather gather_S65536x128_S262144x1_S262144x128_1_0_n_n_0_1_1128 x i) : (⟨S65536x128, .f32⟩ : BufTy).Contents (Elt F) → (⟨S262144x1, .i32⟩ : BufTy).Contents (Elt F) → (⟨S262144x128, .f32⟩ : BufTy).Contents (Elt F)),
    binary main_v10 main_arg3 main_v11 ((fun l r => Host.dotGeneral dot_S262144x128_S128x896_S262144x896_1_0_0_1_n_n none l r) : (⟨S262144x128, .f32⟩ : BufTy).Contents (Elt F) → (⟨S128x896, .f32⟩ : BufTy).Contents (Elt F) → (⟨S262144x896, .f32⟩ : BufTy).Contents (Elt F)),
    unary main_arg4 main_v12 (broadcastInDim S1x896 ![1] bcast_S896_S1x896_1 : (⟨S896, .f32⟩ : BufTy).Contents (Elt F) → (⟨S1x896, .f32⟩ : BufTy).Contents (Elt F)),
    unary main_v12 main_v13 (broadcastInDim S262144x896 ![0, 1] bcast_S1x896_S262144x896_0_1 : (⟨S1x896, .f32⟩ : BufTy).Contents (Elt F) → (⟨S262144x896, .f32⟩ : BufTy).Contents (Elt F)),
    binary main_v11 main_v13 main_v14 (addf : (⟨S262144x896, .f32⟩ : BufTy).Contents (Elt F) → (⟨S262144x896, .f32⟩ : BufTy).Contents (Elt F) → (⟨S262144x896, .f32⟩ : BufTy).Contents (Elt F)),
    reshape main_v14 main_v15 rfl shapeCasts_S262144x896_S262144x7x128,
    unary main_arg15 main_v16 (broadcastInDim S262144x1x1 ![0] bcast_S262144_S262144x1x1_0 : (⟨S262144, .i32⟩ : BufTy).Contents (Elt F) → (⟨S262144x1x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S262144x1x1, .i32⟩) main_call0_v0) (broadcastInDim S262144x1x1 ![] bcast_S_S262144x1x1),
    TRef.binary (TRef.of (T := ⟨S262144x1x1, .i32⟩) main_v16) (TRef.of (T := ⟨S262144x1x1, .i32⟩) main_call0_v0) (TRef.of (T := ⟨S262144x1x1, .i1⟩) main_call0_v1) (cmpi .slt),
    TRef.nullary (TRef.of (T := ⟨S_, .i32⟩) main_call0_c_0) (constantI S_ 32 7#32),
    TRef.unary (TRef.of (T := ⟨S_, .i32⟩) main_call0_c_0) (TRef.of (T := ⟨S262144x1x1, .i32⟩) main_call0_v2) (broadcastInDim S262144x1x1 ![] bcast_S_S262144x1x1),
    TRef.binary (TRef.of (T := ⟨S262144x1x1, .i32⟩) main_v16) (TRef.of (T := ⟨S262144x1x1, .i32⟩) main_call0_v2) (TRef.of (T := ⟨S262144x1x1, .i32⟩) main_call0_v3) addi,
    TRef.ternary (TRef.of (T := ⟨S262144x1x1, .i1⟩) main_call0_v1) (TRef.of (T := ⟨S262144x1x1, .i32⟩) main_call0_v3) (TRef.of (T := ⟨S262144x1x1, .i32⟩) main_v16) (TRef.of (T := ⟨S262144x1x1, .i32⟩) main_call0_v4) select,
    TRef.nullary (TRef.of (T := ⟨S1, .i32⟩) main_call0_c_1) (constantI S1 32 6#32),
    TRef.nullary (TRef.of (T := ⟨S_, .i32⟩) main_call0_c_2) (constantI S_ 32 0#32),
    TRef.unary (TRef.of (T := ⟨S_, .i32⟩) main_call0_c_2) (TRef.of (T := ⟨S262144x1x1, .i32⟩) main_call0_v5) (broadcastInDim S262144x1x1 ![] bcast_S_S262144x1x1),
    TRef.binary (TRef.of (T := ⟨S262144x1x1, .i32⟩) main_call0_v4) (TRef.of (T := ⟨S262144x1x1, .i32⟩) main_call0_v5) (TRef.of (T := ⟨S262144x1x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S262144x1x1, .i32⟩) main_call0_v8) (broadcastInDim S262144x1x1 ![0, 1, 2] bcast_S1x1x1_S262144x1x1_0_1_2),
    TRef.binary (TRef.of (T := ⟨S262144x1x1, .i32⟩) main_call0_v4) (TRef.of (T := ⟨S262144x1x1, .i32⟩) main_call0_v8) (TRef.of (T := ⟨S262144x1x1, .i1⟩) main_call0_v9) (cmpi .sle),
    TRef.binary (TRef.of (T := ⟨S262144x1x1, .i1⟩) main_call0_v6) (TRef.of (T := ⟨S262144x1x1, .i1⟩) main_call0_v9) (TRef.of (T := ⟨S262144x1x1, .i1⟩) main_call0_v10) andi,
    TRef.nullary (TRef.of (T := ⟨S_, .i1⟩) main_call0_c_3) (constantI S_ 1 1#1),
    TRef.binary (TRef.of (T := ⟨S262144x1x1, .i1⟩) main_call0_v10) (TRef.of (T := ⟨S_, .i1⟩) main_call0_c_3) (TRef.of (T := ⟨S262144x1, .i1⟩) main_call0_v11) (fun x v => Host.reduce IntOp.andi x v reducesTo_S262144x1x1_S262144x1_d2 h_S_),
    TRef.binary (TRef.of (T := ⟨S262144x7x128, .f32⟩) main_v15) (TRef.of (T := ⟨S262144x1x1, .i32⟩) main_call0_v4) (TRef.of (T := ⟨S262144x1x128, .f32⟩) main_call0_v12) (fun x i => Host.gather gather_S262144x7x128_S262144x1x1_S262144x1x128_2_1_0_0_1_2_11128 x i),
    TRef.unary (TRef.of (T := ⟨S262144x1, .i1⟩) main_call0_v11) (TRef.of (T := ⟨S262144x1x128, .i1⟩) main_call0_v13) (broadcastInDim S262144x1x128 ![0, 1] bcast_S262144x1_S262144x1x128_0_1),
    TRef.nullary (TRef.of (T := ⟨S_, .f32⟩) main_call0_cst) (constant S_ .f32 0x7FC00000#32),
    TRef.unary (TRef.of (T := ⟨S_, .f32⟩) main_call0_cst) (TRef.of (T := ⟨S262144x1x128, .f32⟩) main_call0_v14) (broadcastInDim S262144x1x128 ![] bcast_S_S262144x1x128),
    TRef.ternary (TRef.of (T := ⟨S262144x1x128, .i1⟩) main_call0_v13) (TRef.of (T := ⟨S262144x1x128, .f32⟩) main_call0_v12) (TRef.of (T := ⟨S262144x1x128, .f32⟩) main_call0_v14) (TRef.of (T := ⟨S262144x1x128, .f32⟩) main_v17) select,
    reshape main_v17 main_v18 rfl shapeCasts_S262144x1x128_S262144x128,
    nullary main_cst (constant S_ .f32 0x00000000#32),
    unary main_cst main_v19 (broadcastInDim S65536x128 ![] bcast_S_S65536x128 : (⟨S_, .f32⟩ : BufTy).Contents (Elt F) → (⟨S65536x128, .f32⟩ : BufTy).Contents (Elt F)),
    unary main_arg14 main_v20 (broadcastInDim S262144x1 ![0] bcast_S262144_S262144x1_0 : (⟨S262144, .i32⟩ : BufTy).Contents (Elt F) → (⟨S262144x1, .i32⟩ : BufTy).Contents (Elt F)),
    ternary main_v19 main_v20 main_v18 main_v21 ((fun x i u => Host.scatterAdd scatter_S65536x128_S262144x1_S262144x128_1_0_0_1 x i u) : (⟨S65536x128, .f32⟩ : BufTy).Contents (Elt F) → (⟨S262144x1, .i32⟩ : BufTy).Contents (Elt F) → (⟨S262144x128, .f32⟩ : BufTy).Contents (Elt F) → (⟨S65536x128, .f32⟩ : BufTy).Contents (Elt F)),
    binary main_v3 main_v21 main_v22 (addf : (⟨S65536x128, .f32⟩ : BufTy).Contents (Elt F) → (⟨S65536x128, .f32⟩ : BufTy).Contents (Elt F) → (⟨S65536x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S65536x128, .f32⟩) main_call1_v0) (broadcastInDim S65536x128 ![] bcast_S_S65536x128),
    TRef.binary (TRef.of (T := ⟨S65536x128, .f32⟩) main_v22) (TRef.of (T := ⟨S65536x128, .f32⟩) main_call1_v0) (TRef.of (T := ⟨S65536x128, .f32⟩) main_v23) maximumf,
    binary main_v23 main_arg0 main_v24 (addf : (⟨S65536x128, .f32⟩ : BufTy).Contents (Elt F) → (⟨S65536x128, .f32⟩ : BufTy).Contents (Elt F) → (⟨S65536x128, .f32⟩ : BufTy).Contents (Elt F)) ]

/-- Operations 51 to 101 of @main. -/
abbrev opsB : List (HloOp τ sig (Elt F)) :=
  [ binary main_v24 main_arg5 main_v25 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    unary main_arg6 main_v26 (broadcastInDim S1x128 ![1] bcast_S128_S1x128_1 : (⟨S128, .f32⟩ : BufTy).Contents (Elt F) → (⟨S1x128, .f32⟩ : BufTy).Contents (Elt F)),
    unary main_v26 main_v27 (broadcastInDim S65536x128 ![0, 1] bcast_S1x128_S65536x128_0_1 : (⟨S1x128, .f32⟩ : BufTy).Contents (Elt F) → (⟨S65536x128, .f32⟩ : BufTy).Contents (Elt F)),
    binary main_v25 main_v27 main_v28 (addf : (⟨S65536x128, .f32⟩ : BufTy).Contents (Elt F) → (⟨S65536x128, .f32⟩ : BufTy).Contents (Elt F) → (⟨S65536x128, .f32⟩ : BufTy).Contents (Elt F)),
    nullary main_c_1 (constantI S_ 32 0#32),
    unary main_c_1 main_v29 (broadcastInDim S262144 ![] bcast_S_S262144 : (⟨S_, .i32⟩ : BufTy).Contents (Elt F) → (⟨S262144, .i32⟩ : BufTy).Contents (Elt F)),
    binary main_arg13 main_v29 main_v30 (cmpi .slt : (⟨S262144, .i32⟩ : BufTy).Contents (Elt F) → (⟨S262144, .i32⟩ : BufTy).Contents (Elt F) → (⟨S262144, .i1⟩ : BufTy).Contents (Elt F)),
    nullary main_c_2 (constantI S_ 32 65536#32),
    unary main_c_2 main_v31 (broadcastInDim S262144 ![] bcast_S_S262144 : (⟨S_, .i32⟩ : BufTy).Contents (Elt F) → (⟨S262144, .i32⟩ : BufTy).Contents (Elt F)),
    binary main_arg13 main_v31 main_v32 (addi : (⟨S262144, .i32⟩ : BufTy).Contents (Elt F) → (⟨S262144, .i32⟩ : BufTy).Contents (Elt F) → (⟨S262144, .i32⟩ : BufTy).Contents (Elt F)),
    ternary main_v30 main_v32 main_arg13 main_v33 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v33 main_v34 (broadcastInDim S262144x1 ![0] bcast_S262144_S262144x1_0 : (⟨S262144, .i32⟩ : BufTy).Contents (Elt F) → (⟨S262144x1, .i32⟩ : BufTy).Contents (Elt F)),
    binary main_v24 main_v34 main_v35 ((fun x i => Host.gather gather_S65536x128_S262144x1_S262144x128_1_0_n_n_0_1_1128 x i) : (⟨S65536x128, .f32⟩ : BufTy).Contents (Elt F) → (⟨S262144x1, .i32⟩ : BufTy).Contents (Elt F) → (⟨S262144x128, .f32⟩ : BufTy).Contents (Elt F)),
    binary main_v35 main_arg7 main_v36 ((fun l r => Host.dotGeneral dot_S262144x128_S128x896_S262144x896_1_0_0_1_n_n none l r) : (⟨S262144x128, .f32⟩ : BufTy).Contents (Elt F) → (⟨S128x896, .f32⟩ : BufTy).Contents (Elt F) → (⟨S262144x896, .f32⟩ : BufTy).Contents (Elt F)),
    unary main_arg8 main_v37 (broadcastInDim S1x896 ![1] bcast_S896_S1x896_1 : (⟨S896, .f32⟩ : BufTy).Contents (Elt F) → (⟨S1x896, .f32⟩ : BufTy).Contents (Elt F)),
    unary main_v37 main_v38 (broadcastInDim S262144x896 ![0, 1] bcast_S1x896_S262144x896_0_1 : (⟨S1x896, .f32⟩ : BufTy).Contents (Elt F) → (⟨S262144x896, .f32⟩ : BufTy).Contents (Elt F)),
    binary main_v36 main_v38 main_v39 (addf : (⟨S262144x896, .f32⟩ : BufTy).Contents (Elt F) → (⟨S262144x896, .f32⟩ : BufTy).Contents (Elt F) → (⟨S262144x896, .f32⟩ : BufTy).Contents (Elt F)),
    reshape main_v39 main_v40 rfl shapeCasts_S262144x896_S262144x7x128,
    unary main_arg15 main_v41 (broadcastInDim S262144x1x1 ![0] bcast_S262144_S262144x1x1_0 : (⟨S262144, .i32⟩ : BufTy).Contents (Elt F) → (⟨S262144x1x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S262144x1x1, .i32⟩) main_call2_v0) (broadcastInDim S262144x1x1 ![] bcast_S_S262144x1x1),
    TRef.binary (TRef.of (T := ⟨S262144x1x1, .i32⟩) main_v41) (TRef.of (T := ⟨S262144x1x1, .i32⟩) main_call2_v0) (TRef.of (T := ⟨S262144x1x1, .i1⟩) main_call2_v1) (cmpi .slt),
    TRef.nullary (TRef.of (T := ⟨S_, .i32⟩) main_call2_c_0) (constantI S_ 32 7#32),
    TRef.unary (TRef.of (T := ⟨S_, .i32⟩) main_call2_c_0) (TRef.of (T := ⟨S262144x1x1, .i32⟩) main_call2_v2) (broadcastInDim S262144x1x1 ![] bcast_S_S262144x1x1),
    TRef.binary (TRef.of (T := ⟨S262144x1x1, .i32⟩) main_v41) (TRef.of (T := ⟨S262144x1x1, .i32⟩) main_call2_v2) (TRef.of (T := ⟨S262144x1x1, .i32⟩) main_call2_v3) addi,
    TRef.ternary (TRef.of (T := ⟨S262144x1x1, .i1⟩) main_call2_v1) (TRef.of (T := ⟨S262144x1x1, .i32⟩) main_call2_v3) (TRef.of (T := ⟨S262144x1x1, .i32⟩) main_v41) (TRef.of (T := ⟨S262144x1x1, .i32⟩) main_call2_v4) select,
    TRef.nullary (TRef.of (T := ⟨S1, .i32⟩) main_call2_c_1) (constantI S1 32 6#32),
    TRef.nullary (TRef.of (T := ⟨S_, .i32⟩) main_call2_c_2) (constantI S_ 32 0#32),
    TRef.unary (TRef.of (T := ⟨S_, .i32⟩) main_call2_c_2) (TRef.of (T := ⟨S262144x1x1, .i32⟩) main_call2_v5) (broadcastInDim S262144x1x1 ![] bcast_S_S262144x1x1),
    TRef.binary (TRef.of (T := ⟨S262144x1x1, .i32⟩) main_call2_v4) (TRef.of (T := ⟨S262144x1x1, .i32⟩) main_call2_v5) (TRef.of (T := ⟨S262144x1x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S262144x1x1, .i32⟩) main_call2_v8) (broadcastInDim S262144x1x1 ![0, 1, 2] bcast_S1x1x1_S262144x1x1_0_1_2),
    TRef.binary (TRef.of (T := ⟨S262144x1x1, .i32⟩) main_call2_v4) (TRef.of (T := ⟨S262144x1x1, .i32⟩) main_call2_v8) (TRef.of (T := ⟨S262144x1x1, .i1⟩) main_call2_v9) (cmpi .sle),
    TRef.binary (TRef.of (T := ⟨S262144x1x1, .i1⟩) main_call2_v6) (TRef.of (T := ⟨S262144x1x1, .i1⟩) main_call2_v9) (TRef.of (T := ⟨S262144x1x1, .i1⟩) main_call2_v10) andi,
    TRef.nullary (TRef.of (T := ⟨S_, .i1⟩) main_call2_c_3) (constantI S_ 1 1#1),
    TRef.binary (TRef.of (T := ⟨S262144x1x1, .i1⟩) main_call2_v10) (TRef.of (T := ⟨S_, .i1⟩) main_call2_c_3) (TRef.of (T := ⟨S262144x1, .i1⟩) main_call2_v11) (fun x v => Host.reduce IntOp.andi x v reducesTo_S262144x1x1_S262144x1_d2 h_S_),
    TRef.binary (TRef.of (T := ⟨S262144x7x128, .f32⟩) main_v40) (TRef.of (T := ⟨S262144x1x1, .i32⟩) main_call2_v4) (TRef.of (T := ⟨S262144x1x128, .f32⟩) main_call2_v12) (fun x i => Host.gather gather_S262144x7x128_S262144x1x1_S262144x1x128_2_1_0_0_1_2_11128 x i),
    TRef.unary (TRef.of (T := ⟨S262144x1, .i1⟩) main_call2_v11) (TRef.of (T := ⟨S262144x1x128, .i1⟩) main_call2_v13) (broadcastInDim S262144x1x128 ![0, 1] bcast_S262144x1_S262144x1x128_0_1),
    TRef.nullary (TRef.of (T := ⟨S_, .f32⟩) main_call2_cst) (constant S_ .f32 0x7FC00000#32),
    TRef.unary (TRef.of (T := ⟨S_, .f32⟩) main_call2_cst) (TRef.of (T := ⟨S262144x1x128, .f32⟩) main_call2_v14) (broadcastInDim S262144x1x128 ![] bcast_S_S262144x1x128),
    TRef.ternary (TRef.of (T := ⟨S262144x1x128, .i1⟩) main_call2_v13) (TRef.of (T := ⟨S262144x1x128, .f32⟩) main_call2_v12) (TRef.of (T := ⟨S262144x1x128, .f32⟩) main_call2_v14) (TRef.of (T := ⟨S262144x1x128, .f32⟩) main_v42) select,
    reshape main_v42 main_v43 rfl shapeCasts_S262144x1x128_S262144x128,
    nullary main_cst_3 (constant S_ .f32 0x00000000#32),
    unary main_cst_3 main_v44 (broadcastInDim S65536x128 ![] bcast_S_S65536x128 : (⟨S_, .f32⟩ : BufTy).Contents (Elt F) → (⟨S65536x128, .f32⟩ : BufTy).Contents (Elt F)),
    unary main_arg14 main_v45 (broadcastInDim S262144x1 ![0] bcast_S262144_S262144x1_0 : (⟨S262144, .i32⟩ : BufTy).Contents (Elt F) → (⟨S262144x1, .i32⟩ : BufTy).Contents (Elt F)),
    ternary main_v44 main_v45 main_v43 main_v46 ((fun x i u => Host.scatterAdd scatter_S65536x128_S262144x1_S262144x128_1_0_0_1 x i u) : (⟨S65536x128, .f32⟩ : BufTy).Contents (Elt F) → (⟨S262144x1, .i32⟩ : BufTy).Contents (Elt F) → (⟨S262144x128, .f32⟩ : BufTy).Contents (Elt F) → (⟨S65536x128, .f32⟩ : BufTy).Contents (Elt F)),
    binary main_v28 main_v46 main_v47 (addf : (⟨S65536x128, .f32⟩ : BufTy).Contents (Elt F) → (⟨S65536x128, .f32⟩ : BufTy).Contents (Elt F) → (⟨S65536x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S65536x128, .f32⟩) main_call3_v0) (broadcastInDim S65536x128 ![] bcast_S_S65536x128),
    TRef.binary (TRef.of (T := ⟨S65536x128, .f32⟩) main_v47) (TRef.of (T := ⟨S65536x128, .f32⟩) main_call3_v0) (TRef.of (T := ⟨S65536x128, .f32⟩) main_v48) maximumf,
    binary main_v48 main_v24 main_v49 (addf : (⟨S65536x128, .f32⟩ : BufTy).Contents (Elt F) → (⟨S65536x128, .f32⟩ : BufTy).Contents (Elt F) → (⟨S65536x128, .f32⟩ : BufTy).Contents (Elt F)) ]

/-- Operations 102 to 152 of @main. -/
abbrev opsC : List (HloOp τ sig (Elt F)) :=
  [ binary main_v49 main_arg9 main_v50 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    unary main_arg10 main_v51 (broadcastInDim S1x128 ![1] bcast_S128_S1x128_1 : (⟨S128, .f32⟩ : BufTy).Contents (Elt F) → (⟨S1x128, .f32⟩ : BufTy).Contents (Elt F)),
    unary main_v51 main_v52 (broadcastInDim S65536x128 ![0, 1] bcast_S1x128_S65536x128_0_1 : (⟨S1x128, .f32⟩ : BufTy).Contents (Elt F) → (⟨S65536x128, .f32⟩ : BufTy).Contents (Elt F)),
    binary main_v50 main_v52 main_v53 (addf : (⟨S65536x128, .f32⟩ : BufTy).Contents (Elt F) → (⟨S65536x128, .f32⟩ : BufTy).Contents (Elt F) → (⟨S65536x128, .f32⟩ : BufTy).Contents (Elt F)),
    nullary main_c_4 (constantI S_ 32 0#32),
    unary main_c_4 main_v54 (broadcastInDim S262144 ![] bcast_S_S262144 : (⟨S_, .i32⟩ : BufTy).Contents (Elt F) → (⟨S262144, .i32⟩ : BufTy).Contents (Elt F)),
    binary main_arg13 main_v54 main_v55 (cmpi .slt : (⟨S262144, .i32⟩ : BufTy).Contents (Elt F) → (⟨S262144, .i32⟩ : BufTy).Contents (Elt F) → (⟨S262144, .i1⟩ : BufTy).Contents (Elt F)),
    nullary main_c_5 (constantI S_ 32 65536#32),
    unary main_c_5 main_v56 (broadcastInDim S262144 ![] bcast_S_S262144 : (⟨S_, .i32⟩ : BufTy).Contents (Elt F) → (⟨S262144, .i32⟩ : BufTy).Contents (Elt F)),
    binary main_arg13 main_v56 main_v57 (addi : (⟨S262144, .i32⟩ : BufTy).Contents (Elt F) → (⟨S262144, .i32⟩ : BufTy).Contents (Elt F) → (⟨S262144, .i32⟩ : BufTy).Contents (Elt F)),
    ternary main_v55 main_v57 main_arg13 main_v58 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v58 main_v59 (broadcastInDim S262144x1 ![0] bcast_S262144_S262144x1_0 : (⟨S262144, .i32⟩ : BufTy).Contents (Elt F) → (⟨S262144x1, .i32⟩ : BufTy).Contents (Elt F)),
    binary main_v49 main_v59 main_v60 ((fun x i => Host.gather gather_S65536x128_S262144x1_S262144x128_1_0_n_n_0_1_1128 x i) : (⟨S65536x128, .f32⟩ : BufTy).Contents (Elt F) → (⟨S262144x1, .i32⟩ : BufTy).Contents (Elt F) → (⟨S262144x128, .f32⟩ : BufTy).Contents (Elt F)),
    binary main_v60 main_arg11 main_v61 ((fun l r => Host.dotGeneral dot_S262144x128_S128x896_S262144x896_1_0_0_1_n_n none l r) : (⟨S262144x128, .f32⟩ : BufTy).Contents (Elt F) → (⟨S128x896, .f32⟩ : BufTy).Contents (Elt F) → (⟨S262144x896, .f32⟩ : BufTy).Contents (Elt F)),
    unary main_arg12 main_v62 (broadcastInDim S1x896 ![1] bcast_S896_S1x896_1 : (⟨S896, .f32⟩ : BufTy).Contents (Elt F) → (⟨S1x896, .f32⟩ : BufTy).Contents (Elt F)),
    unary main_v62 main_v63 (broadcastInDim S262144x896 ![0, 1] bcast_S1x896_S262144x896_0_1 : (⟨S1x896, .f32⟩ : BufTy).Contents (Elt F) → (⟨S262144x896, .f32⟩ : BufTy).Contents (Elt F)),
    binary main_v61 main_v63 main_v64 (addf : (⟨S262144x896, .f32⟩ : BufTy).Contents (Elt F) → (⟨S262144x896, .f32⟩ : BufTy).Contents (Elt F) → (⟨S262144x896, .f32⟩ : BufTy).Contents (Elt F)),
    reshape main_v64 main_v65 rfl shapeCasts_S262144x896_S262144x7x128,
    unary main_arg15 main_v66 (broadcastInDim S262144x1x1 ![0] bcast_S262144_S262144x1x1_0 : (⟨S262144, .i32⟩ : BufTy).Contents (Elt F) → (⟨S262144x1x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S262144x1x1, .i32⟩) main_call4_v0) (broadcastInDim S262144x1x1 ![] bcast_S_S262144x1x1),
    TRef.binary (TRef.of (T := ⟨S262144x1x1, .i32⟩) main_v66) (TRef.of (T := ⟨S262144x1x1, .i32⟩) main_call4_v0) (TRef.of (T := ⟨S262144x1x1, .i1⟩) main_call4_v1) (cmpi .slt),
    TRef.nullary (TRef.of (T := ⟨S_, .i32⟩) main_call4_c_0) (constantI S_ 32 7#32),
    TRef.unary (TRef.of (T := ⟨S_, .i32⟩) main_call4_c_0) (TRef.of (T := ⟨S262144x1x1, .i32⟩) main_call4_v2) (broadcastInDim S262144x1x1 ![] bcast_S_S262144x1x1),
    TRef.binary (TRef.of (T := ⟨S262144x1x1, .i32⟩) main_v66) (TRef.of (T := ⟨S262144x1x1, .i32⟩) main_call4_v2) (TRef.of (T := ⟨S262144x1x1, .i32⟩) main_call4_v3) addi,
    TRef.ternary (TRef.of (T := ⟨S262144x1x1, .i1⟩) main_call4_v1) (TRef.of (T := ⟨S262144x1x1, .i32⟩) main_call4_v3) (TRef.of (T := ⟨S262144x1x1, .i32⟩) main_v66) (TRef.of (T := ⟨S262144x1x1, .i32⟩) main_call4_v4) select,
    TRef.nullary (TRef.of (T := ⟨S1, .i32⟩) main_call4_c_1) (constantI S1 32 6#32),
    TRef.nullary (TRef.of (T := ⟨S_, .i32⟩) main_call4_c_2) (constantI S_ 32 0#32),
    TRef.unary (TRef.of (T := ⟨S_, .i32⟩) main_call4_c_2) (TRef.of (T := ⟨S262144x1x1, .i32⟩) main_call4_v5) (broadcastInDim S262144x1x1 ![] bcast_S_S262144x1x1),
    TRef.binary (TRef.of (T := ⟨S262144x1x1, .i32⟩) main_call4_v4) (TRef.of (T := ⟨S262144x1x1, .i32⟩) main_call4_v5) (TRef.of (T := ⟨S262144x1x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S262144x1x1, .i32⟩) main_call4_v8) (broadcastInDim S262144x1x1 ![0, 1, 2] bcast_S1x1x1_S262144x1x1_0_1_2),
    TRef.binary (TRef.of (T := ⟨S262144x1x1, .i32⟩) main_call4_v4) (TRef.of (T := ⟨S262144x1x1, .i32⟩) main_call4_v8) (TRef.of (T := ⟨S262144x1x1, .i1⟩) main_call4_v9) (cmpi .sle),
    TRef.binary (TRef.of (T := ⟨S262144x1x1, .i1⟩) main_call4_v6) (TRef.of (T := ⟨S262144x1x1, .i1⟩) main_call4_v9) (TRef.of (T := ⟨S262144x1x1, .i1⟩) main_call4_v10) andi,
    TRef.nullary (TRef.of (T := ⟨S_, .i1⟩) main_call4_c_3) (constantI S_ 1 1#1),
    TRef.binary (TRef.of (T := ⟨S262144x1x1, .i1⟩) main_call4_v10) (TRef.of (T := ⟨S_, .i1⟩) main_call4_c_3) (TRef.of (T := ⟨S262144x1, .i1⟩) main_call4_v11) (fun x v => Host.reduce IntOp.andi x v reducesTo_S262144x1x1_S262144x1_d2 h_S_),
    TRef.binary (TRef.of (T := ⟨S262144x7x128, .f32⟩) main_v65) (TRef.of (T := ⟨S262144x1x1, .i32⟩) main_call4_v4) (TRef.of (T := ⟨S262144x1x128, .f32⟩) main_call4_v12) (fun x i => Host.gather gather_S262144x7x128_S262144x1x1_S262144x1x128_2_1_0_0_1_2_11128 x i),
    TRef.unary (TRef.of (T := ⟨S262144x1, .i1⟩) main_call4_v11) (TRef.of (T := ⟨S262144x1x128, .i1⟩) main_call4_v13) (broadcastInDim S262144x1x128 ![0, 1] bcast_S262144x1_S262144x1x128_0_1),
    TRef.nullary (TRef.of (T := ⟨S_, .f32⟩) main_call4_cst) (constant S_ .f32 0x7FC00000#32),
    TRef.unary (TRef.of (T := ⟨S_, .f32⟩) main_call4_cst) (TRef.of (T := ⟨S262144x1x128, .f32⟩) main_call4_v14) (broadcastInDim S262144x1x128 ![] bcast_S_S262144x1x128),
    TRef.ternary (TRef.of (T := ⟨S262144x1x128, .i1⟩) main_call4_v13) (TRef.of (T := ⟨S262144x1x128, .f32⟩) main_call4_v12) (TRef.of (T := ⟨S262144x1x128, .f32⟩) main_call4_v14) (TRef.of (T := ⟨S262144x1x128, .f32⟩) main_v67) select,
    reshape main_v67 main_v68 rfl shapeCasts_S262144x1x128_S262144x128,
    nullary main_cst_6 (constant S_ .f32 0x00000000#32),
    unary main_cst_6 main_v69 (broadcastInDim S65536x128 ![] bcast_S_S65536x128 : (⟨S_, .f32⟩ : BufTy).Contents (Elt F) → (⟨S65536x128, .f32⟩ : BufTy).Contents (Elt F)),
    unary main_arg14 main_v70 (broadcastInDim S262144x1 ![0] bcast_S262144_S262144x1_0 : (⟨S262144, .i32⟩ : BufTy).Contents (Elt F) → (⟨S262144x1, .i32⟩ : BufTy).Contents (Elt F)),
    ternary main_v69 main_v70 main_v68 main_v71 ((fun x i u => Host.scatterAdd scatter_S65536x128_S262144x1_S262144x128_1_0_0_1 x i u) : (⟨S65536x128, .f32⟩ : BufTy).Contents (Elt F) → (⟨S262144x1, .i32⟩ : BufTy).Contents (Elt F) → (⟨S262144x128, .f32⟩ : BufTy).Contents (Elt F) → (⟨S65536x128, .f32⟩ : BufTy).Contents (Elt F)),
    binary main_v53 main_v71 main_v72 (addf : (⟨S65536x128, .f32⟩ : BufTy).Contents (Elt F) → (⟨S65536x128, .f32⟩ : BufTy).Contents (Elt F) → (⟨S65536x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S65536x128, .f32⟩) main_call5_v0) (broadcastInDim S65536x128 ![] bcast_S_S65536x128),
    TRef.binary (TRef.of (T := ⟨S65536x128, .f32⟩) main_v72) (TRef.of (T := ⟨S65536x128, .f32⟩) main_call5_v0) (TRef.of (T := ⟨S65536x128, .f32⟩) main_v73) maximumf,
    binary main_v73 main_v49 main_v74 (addf : (⟨S65536x128, .f32⟩ : BufTy).Contents (Elt F) → (⟨S65536x128, .f32⟩ : BufTy).Contents (Elt F) → (⟨S65536x128, .f32⟩ : BufTy).Contents (Elt F)) ]

/-- Operations 153 to 156 of @main. -/
abbrev opsT : List (HloOp τ sig (Elt F)) :=
  [ nullary main_cst_7 (constant S_ .f32 0x00000000#32),
    unary main_cst_7 main_v75 (broadcastInDim S32x128 ![] bcast_S_S32x128 : (⟨S_, .f32⟩ : BufTy).Contents (Elt F) → (⟨S32x128, .f32⟩ : BufTy).Contents (Elt F)),
    unary main_arg16 main_v76 (broadcastInDim S65536x1 ![0] bcast_S65536_S65536x1_0 : (⟨S65536, .i32⟩ : BufTy).Contents (Elt F) → (⟨S65536x1, .i32⟩ : BufTy).Contents (Elt F)),
    ternary main_v75 main_v76 main_v74 main_v77 ((fun x i u => Host.scatterAdd scatter_S32x128_S65536x1_S65536x128_1_0_0_1 x i u) : (⟨S32x128, .f32⟩ : BufTy).Contents (Elt F) → (⟨S65536x1, .i32⟩ : BufTy).Contents (Elt F) → (⟨S65536x128, .f32⟩ : BufTy).Contents (Elt F) → (⟨S32x128, .f32⟩ : BufTy).Contents (Elt F)) ]

/-- @main's operation list is the four stretches in a row. -/
theorem ops_eq : (ops (F := F)) = opsA ++ (opsB ++ (opsC ++ opsT)) := rfl

end Cert.ReferenceIdeal.Walk

end
-- ==== Proof.RefWalk.lean ====
/-
  The reference program's run, read layer by layer.  Its @main is one list of 157 host operations: three stretches of 51
  (one layer each: the self-loop affine map, the gather of the source rows, the affine map into the seven relation slices,
  the slice taken along the relation axis, the scatter-sum, the clamp and the residual) and a tail of four (the graph
  sums).  The fold of the operations over a valuation splits at those points (after_ops, over the list cut into its four literal
  stretches); over ANY valuation at its entry
  each layer's stretch leaves in its output buffer the layer function val_main_v24 of the buffers it reads (layerA, layerB,
  layerC: the three stretches apply the same operations to different buffers), and writes none of the later layers'
  parameters.  So the node features are the layer function applied three times to the arguments, the graph sums their
  scatter-sum, and the arguments stay.
-/
import proofs.«423819_j7524782702912_1_alg».proof.Proof.RefReadCut
import proofs.«423819_j7524782702912_1_alg».proof.Proof.RefOps
import Idealize.ShloMosaic.Lib.StableHlo.Run

set_option maxRecDepth 16384
set_option maxHeartbeats 4000000

noncomputable section

namespace Cert.ReferenceIdeal.Walk

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The fold over two stretches in a row is the second stretch's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem after_ops (V : Valuation τ sig (Elt F)) :
    after (ops (F := F)) V = after opsT (after opsC (after opsB (after opsA V))) := by
  rw [ops_eq, after_append, after_append, after_append]

/-- Reads a buffer after a stretch. -/
macro "chunk_reads" : tactic =>
  `(tactic| (after_results_simp
             all_goals (try simp only [TRef.ofBuf, TRef.toBuf, cast_eq])
             all_goals (try rfl)))

/-- Reads a layer's output after its stretch: the composed term the fold leaves, its inlined callees' typed-reference casts
    cleared, against the layer function with its stages written out. -/
macro "layer_reads" : tactic =>
  `(tactic| (after_results_simp
             all_goals (try simp only [TRef.ofBuf, TRef.toBuf, cast_eq])
             all_goals (simp only [val_main_v0, val_main_v1, val_main_v2, val_main_v3, val_main_c, val_main_v4, val_main_v5, val_main_c_0, val_main_v6, val_main_v7, val_main_v8, val_main_v9, val_main_v10, val_main_v11, val_main_v12, val_main_v13, val_main_v14, val_main_v15, val_main_v16, val_main_call0_c, val_main_call0_v0, val_main_call0_v1, val_main_call0_c_0, val_main_call0_v2, val_main_call0_v3, val_main_call0_v4, val_main_call0_c_1, val_main_call0_c_2, val_main_call0_v5, val_main_call0_v6, val_main_call0_v7, val_main_call0_v8, val_main_call0_v9, val_main_call0_v10, val_main_call0_c_3, val_main_call0_v11, val_main_call0_v12, val_main_call0_v13, val_main_call0_cst, val_main_call0_v14, val_main_v17, val_main_v18, val_main_cst, val_main_v19, val_main_v20, val_main_v21, val_main_v22, val_main_call1_cst, val_main_call1_v0, val_main_v23, val_main_v24])
             all_goals (try rfl)))

/-- A buffer no operation of @main writes. -/
macro "ops_keeps" : tactic =>
  `(tactic| (refine StableHlo.after_of_forall_not_mem _ _ (List.forall_iff_forall_mem.mp ?_)
             simp only [ops, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-! ## Each layer's stretch, over any valuation at its entry -/

theorem layerA (V : Valuation τ sig (Elt F)) :
    after opsA V (Proc.devRef .tc main_v24) = val_main_v24 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) (V (Proc.devRef .tc main_arg15)) := by
  layer_reads

theorem layerB (V : Valuation τ sig (Elt F)) :
    after opsB V (Proc.devRef .tc main_v49) = val_main_v24 (F := F) (V (Proc.devRef .tc main_v24)) (V (Proc.devRef .tc main_arg5)) (V (Proc.devRef .tc main_arg6)) (V (Proc.devRef .tc main_arg7)) (V (Proc.devRef .tc main_arg8)) (V (Proc.devRef .tc main_arg13)) (V (Proc.devRef .tc main_arg14)) (V (Proc.devRef .tc main_arg15)) := by
  layer_reads

theorem layerC (V : Valuation τ sig (Elt F)) :
    after opsC V (Proc.devRef .tc main_v74) = val_main_v24 (F := F) (V (Proc.devRef .tc main_v49)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  layer_reads

theorem tail_graph (V : Valuation τ sig (Elt F)) :
    after opsT V (Proc.devRef .tc main_v77)
      = Host.scatterAdd scatter_S32x128_S65536x1_S65536x128_1_0_0_1 (val_main_v75 (F := F)) (val_main_v76 (F := F) (V (Proc.devRef .tc main_arg16))) (V (Proc.devRef .tc main_v74)) := by
  chunk_reads

theorem tail_node (V : Valuation τ sig (Elt F)) : after opsT V (Proc.devRef .tc main_v74) = V (Proc.devRef .tc main_v74) := by
  chunk_reads

/-! ## What the stretches leave alone -/

theorem keepA_arg5 (V : Valuation τ sig (Elt F)) : after opsA V (Proc.devRef .tc main_arg5) = V (Proc.devRef .tc main_arg5) := by chunk_reads
theorem keepA_arg6 (V : Valuation τ sig (Elt F)) : after opsA V (Proc.devRef .tc main_arg6) = V (Proc.devRef .tc main_arg6) := by chunk_reads
theorem keepA_arg7 (V : Valuation τ sig (Elt F)) : after opsA V (Proc.devRef .tc main_arg7) = V (Proc.devRef .tc main_arg7) := by chunk_reads
theorem keepA_arg8 (V : Valuation τ sig (Elt F)) : after opsA V (Proc.devRef .tc main_arg8) = V (Proc.devRef .tc main_arg8) := by chunk_reads
theorem keepA_arg9 (V : Valuation τ sig (Elt F)) : after opsA V (Proc.devRef .tc main_arg9) = V (Proc.devRef .tc main_arg9) := by chunk_reads
theorem keepA_arg10 (V : Valuation τ sig (Elt F)) : after opsA V (Proc.devRef .tc main_arg10) = V (Proc.devRef .tc main_arg10) := by chunk_reads
theorem keepA_arg11 (V : Valuation τ sig (Elt F)) : after opsA V (Proc.devRef .tc main_arg11) = V (Proc.devRef .tc main_arg11) := by chunk_reads
theorem keepA_arg12 (V : Valuation τ sig (Elt F)) : after opsA V (Proc.devRef .tc main_arg12) = V (Proc.devRef .tc main_arg12) := by chunk_reads
theorem keepA_arg13 (V : Valuation τ sig (Elt F)) : after opsA V (Proc.devRef .tc main_arg13) = V (Proc.devRef .tc main_arg13) := by chunk_reads
theorem keepA_arg14 (V : Valuation τ sig (Elt F)) : after opsA V (Proc.devRef .tc main_arg14) = V (Proc.devRef .tc main_arg14) := by chunk_reads
theorem keepA_arg15 (V : Valuation τ sig (Elt F)) : after opsA V (Proc.devRef .tc main_arg15) = V (Proc.devRef .tc main_arg15) := by chunk_reads
theorem keepA_arg16 (V : Valuation τ sig (Elt F)) : after opsA V (Proc.devRef .tc main_arg16) = V (Proc.devRef .tc main_arg16) := by chunk_reads
theorem keepB_arg9 (V : Valuation τ sig (Elt F)) : after opsB V (Proc.devRef .tc main_arg9) = V (Proc.devRef .tc main_arg9) := by chunk_reads
theorem keepB_arg10 (V : Valuation τ sig (Elt F)) : after opsB V (Proc.devRef .tc main_arg10) = V (Proc.devRef .tc main_arg10) := by chunk_reads
theorem keepB_arg11 (V : Valuation τ sig (Elt F)) : after opsB V (Proc.devRef .tc main_arg11) = V (Proc.devRef .tc main_arg11) := by chunk_reads
theorem keepB_arg12 (V : Valuation τ sig (Elt F)) : after opsB V (Proc.devRef .tc main_arg12) = V (Proc.devRef .tc main_arg12) := by chunk_reads
theorem keepB_arg13 (V : Valuation τ sig (Elt F)) : after opsB V (Proc.devRef .tc main_arg13) = V (Proc.devRef .tc main_arg13) := by chunk_reads
theorem keepB_arg14 (V : Valuation τ sig (Elt F)) : after opsB V (Proc.devRef .tc main_arg14) = V (Proc.devRef .tc main_arg14) := by chunk_reads
theorem keepB_arg15 (V : Valuation τ sig (Elt F)) : after opsB V (Proc.devRef .tc main_arg15) = V (Proc.devRef .tc main_arg15) := by chunk_reads
theorem keepB_arg16 (V : Valuation τ sig (Elt F)) : after opsB V (Proc.devRef .tc main_arg16) = V (Proc.devRef .tc main_arg16) := by chunk_reads
theorem keepC_arg16 (V : Valuation τ sig (Elt F)) : after opsC V (Proc.devRef .tc main_arg16) = V (Proc.devRef .tc main_arg16) := by chunk_reads

theorem arg0_kept (V : Valuation τ sig (Elt F)) : after (ops (F := F)) V (Proc.devRef .tc main_arg0) = V (Proc.devRef .tc main_arg0) := by ops_keeps
theorem arg1_kept (V : Valuation τ sig (Elt F)) : after (ops (F := F)) V (Proc.devRef .tc main_arg1) = V (Proc.devRef .tc main_arg1) := by ops_keeps
theorem arg2_kept (V : Valuation τ sig (Elt F)) : after (ops (F := F)) V (Proc.devRef .tc main_arg2) = V (Proc.devRef .tc main_arg2) := by ops_keeps
theorem arg3_kept (V : Valuation τ sig (Elt F)) : after (ops (F := F)) V (Proc.devRef .tc main_arg3) = V (Proc.devRef .tc main_arg3) := by ops_keeps
theorem arg4_kept (V : Valuation τ sig (Elt F)) : after (ops (F := F)) V (Proc.devRef .tc main_arg4) = V (Proc.devRef .tc main_arg4) := by ops_keeps
theorem arg5_kept (V : Valuation τ sig (Elt F)) : after (ops (F := F)) V (Proc.devRef .tc main_arg5) = V (Proc.devRef .tc main_arg5) := by ops_keeps
theorem arg6_kept (V : Valuation τ sig (Elt F)) : after (ops (F := F)) V (Proc.devRef .tc main_arg6) = V (Proc.devRef .tc main_arg6) := by ops_keeps
theorem arg7_kept (V : Valuation τ sig (Elt F)) : after (ops (F := F)) V (Proc.devRef .tc main_arg7) = V (Proc.devRef .tc main_arg7) := by ops_keeps
theorem arg8_kept (V : Valuation τ sig (Elt F)) : after (ops (F := F)) V (Proc.devRef .tc main_arg8) = V (Proc.devRef .tc main_arg8) := by ops_keeps
theorem arg9_kept (V : Valuation τ sig (Elt F)) : after (ops (F := F)) V (Proc.devRef .tc main_arg9) = V (Proc.devRef .tc main_arg9) := by ops_keeps
theorem arg10_kept (V : Valuation τ sig (Elt F)) : after (ops (F := F)) V (Proc.devRef .tc main_arg10) = V (Proc.devRef .tc main_arg10) := by ops_keeps
theorem arg11_kept (V : Valuation τ sig (Elt F)) : after (ops (F := F)) V (Proc.devRef .tc main_arg11) = V (Proc.devRef .tc main_arg11) := by ops_keeps
theorem arg12_kept (V : Valuation τ sig (Elt F)) : after (ops (F := F)) V (Proc.devRef .tc main_arg12) = V (Proc.devRef .tc main_arg12) := by ops_keeps
theorem arg13_kept (V : Valuation τ sig (Elt F)) : after (ops (F := F)) V (Proc.devRef .tc main_arg13) = V (Proc.devRef .tc main_arg13) := by ops_keeps
theorem arg14_kept (V : Valuation τ sig (Elt F)) : after (ops (F := F)) V (Proc.devRef .tc main_arg14) = V (Proc.devRef .tc main_arg14) := by ops_keeps
theorem arg15_kept (V : Valuation τ sig (Elt F)) : after (ops (F := F)) V (Proc.devRef .tc main_arg15) = V (Proc.devRef .tc main_arg15) := by ops_keeps
theorem arg16_kept (V : Valuation τ sig (Elt F)) : after (ops (F := F)) V (Proc.devRef .tc main_arg16) = V (Proc.devRef .tc main_arg16) := by ops_keeps

/-! ## The results -/

/-- The node features after @main: the layer function three times. -/
theorem node (V : Valuation τ sig (Elt F)) :
    after (ops (F := F)) V (Proc.devRef .tc main_v74)
      = val_main_v24 (F := F) (val_main_v24 (F := F) (val_main_v24 (F := F) (V (Proc.devRef .tc main_arg0)) (V (Proc.devRef .tc main_arg1)) (V (Proc.devRef .tc main_arg2)) (V (Proc.devRef .tc main_arg3)) (V (Proc.devRef .tc main_arg4)) (V (Proc.devRef .tc main_arg13)) (V (Proc.devRef .tc main_arg14)) (V (Proc.devRef .tc main_arg15))) (V (Proc.devRef .tc main_arg5)) (V (Proc.devRef .tc main_arg6)) (V (Proc.devRef .tc main_arg7)) (V (Proc.devRef .tc main_arg8)) (V (Proc.devRef .tc main_arg13)) (V (Proc.devRef .tc main_arg14)) (V (Proc.devRef .tc main_arg15))) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [after_ops, tail_node, layerC, layerB, layerA,
    keepB_arg9, keepB_arg10, keepB_arg11, keepB_arg12, keepB_arg13, keepB_arg14, keepB_arg15,
    keepA_arg5, keepA_arg6, keepA_arg7, keepA_arg8, keepA_arg9, keepA_arg10, keepA_arg11, keepA_arg12, keepA_arg13, keepA_arg14, keepA_arg15]

/-- The graph sums after @main: the scatter-sum of the node features. -/
theorem graph (V : Valuation τ sig (Elt F)) :
    after (ops (F := F)) V (Proc.devRef .tc main_v77)
      = Host.scatterAdd scatter_S32x128_S65536x1_S65536x128_1_0_0_1 (val_main_v75 (F := F)) (val_main_v76 (F := F) (V (Proc.devRef .tc main_arg16)))
          (after (ops (F := F)) V (Proc.devRef .tc main_v74)) := by
  rw [after_ops, tail_graph, tail_node, keepC_arg16, keepB_arg16, keepA_arg16]

/-- The node features as a function of the launch memory. -/
def nodeOf (m : (ℓ : Loc nD τ sig) → Buf (Elt F) ℓ) (c : Dev nD) : (⟨S65536x128, .f32⟩ : BufTy).Contents (Elt F) :=
  val_main_v24 (F := F) (val_main_v24 (F := F) (val_main_v24 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg13)) (m ((c.tc : Thread nD τ).loc main_arg14)) (m ((c.tc : Thread nD τ).loc main_arg15))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15))) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- The graph sums as a function of the launch memory. -/
def graphOf (m : (ℓ : Loc nD τ sig) → Buf (Elt F) ℓ) (c : Dev nD) : (⟨S32x128, .f32⟩ : BufTy).Contents (Elt F) :=
  Host.scatterAdd scatter_S32x128_S65536x1_S65536x128_1_0_0_1 (val_main_v75 (F := F)) (val_main_v76 (F := F) (m ((c.tc : Thread nD τ).loc main_arg16))) (nodeOf m c)

/-- Every weakly fair execution of the reference terminates with the graph sums and the node features at those functions
    of the launch memory, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = graphOf m c
      ∧ r.2.mem ((c.tc : Thread nD τ).loc main_v74) = nodeOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
    ⟨(h c main_v77).trans ((graph _).trans (by rw [node]; rfl)),
      (h c main_v74).trans ((node _).trans rfl),
      (h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _),
      (h c main_arg7).trans (arg7_kept _),
      (h c main_arg8).trans (arg8_kept _),
      (h c main_arg9).trans (arg9_kept _),
      (h c main_arg10).trans (arg10_kept _),
      (h c main_arg11).trans (arg11_kept _),
      (h c main_arg12).trans (arg12_kept _),
      (h c main_arg13).trans (arg13_kept _),
      (h c main_arg14).trans (arg14_kept _),
      (h c main_arg15).trans (arg15_kept _),
      (h c main_arg16).trans (arg16_kept _)⟩)
    (run_after m ρ)

end Cert.ReferenceIdeal.Walk

end
-- ==== Proof.lean ====
/-
  Three layers of a relational graph convolution and a sum readout: the Pallas program against its jnp reference, over the
  extended reals, for finite float inputs and relation labels in 0..6.

  Per layer both programs gather the source row of every edge, apply one affine map into 7·128 columns, keep the 128
  columns of the edge's relation, sum the kept rows into the destination nodes, and update every node by
  max (x·W_self + b_self + aggregate) 0 + x.  They differ in how the relation's columns are kept: the kernel multiplies
  the seven column slices by the indicator row of the label (an all-zero row when the label is outside 0..6) and adds them
  up, the reference reads the slice along the relation axis (wrapping a negative label, filling with a NaN pattern beyond
  6).  Inside 0..6 the two agree on every extended real, since a zero weight annihilates its slice also at the
  infinities and zero is neutral for the sum (Cert.RelConv.msgRow_indicator); outside they do not, which is why the label
  range is part of the precondition.  The self-loop map, the bias rows, the clamp and the residual are the same
  operations in both, the kernel's taken block by block (the blocks are whole rows, and every operation acts row by row).

  The kernel program's frames are the generated ones.  Its value run is the same launch with the two result arrays named
  at the last boundary (Cert.KernelIdeal.ValueRun.run); Cert.KernelIdeal.Whole reads those two arrays as three layers
  and a graph sum of the launch memory; Cert.Bridge identifies a kernel layer with the reference's layer function.  The
  reference's run, read layer by layer (Cert.ReferenceIdeal.Walk), has its node features at that function applied three
  times and its graph sums at their scatter-sum; its frame is that run with the results dropped.
  The ideal pass changed nothing, so preserves is trivial.
-/
import proofs.«423819_j7524782702912_1_alg».proof.Defs
import proofs.«423819_j7524782702912_1_alg».proof.Proof.Gen.Kernel
import proofs.«423819_j7524782702912_1_alg».proof.Proof.Gen.Kernel.Skeleton
import proofs.«423819_j7524782702912_1_alg».proof.Proof.Gen.Kernel.Launch
import proofs.«423819_j7524782702912_1_alg».proof.Proof.Gen.Kernel.Points
import proofs.«423819_j7524782702912_1_alg».proof.Proof.Gen.Kernel.Frame
import proofs.«423819_j7524782702912_1_alg».proof.Proof.Gen.KernelIdeal
import proofs.«423819_j7524782702912_1_alg».proof.Proof.Gen.KernelIdeal.Skeleton
import proofs.«423819_j7524782702912_1_alg».proof.Proof.Gen.KernelIdeal.Launch
import proofs.«423819_j7524782702912_1_alg».proof.Proof.Gen.KernelIdeal.Points
import proofs.«423819_j7524782702912_1_alg».proof.Proof.Gen.KernelIdeal.Frame
import proofs.«423819_j7524782702912_1_alg».proof.Proof.Gen.ReferenceIdeal
import proofs.«423819_j7524782702912_1_alg».proof.Proof.Gen.Pre_finite_inputs
import proofs.«423819_j7524782702912_1_alg».proof.Proof.KernelRun
import proofs.«423819_j7524782702912_1_alg».proof.Proof.KernelValue
import proofs.«423819_j7524782702912_1_alg».proof.Proof.PreDecode
import proofs.«423819_j7524782702912_1_alg».proof.Proof.Bridge
import proofs.«423819_j7524782702912_1_alg».proof.Proof.RefWalk
import Idealize.ShloMosaic.Adequacy
import Idealize.ShloMosaic.Init

set_option maxRecDepth 16384

noncomputable section

namespace Cert.Proof

open Idealize.ShloMosaic Idealize.ShloMosaic.TcCoe Idealize.SL.Sem Cert.RelConv

/-- The word-level kernel runs, and leaves its arguments as launched: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Walk.run (F := Ideal) m ρ)

/-- The ideal pass rewrote nothing. -/
theorem preserves : Cert.preserves_Kernel_KernelIdeal := trivial

/-- From memories that agree on the arguments both programs end with the same graph sums and the same node features. -/
theorem algebraic : Cert.algebraic_KernelIdeal_ReferenceIdeal := by
  intro m ρ m' ρ' hpre hagree
  have hrel : ∀ c : Dev Cert.KernelIdeal.nD,
      InRange (Cert.KernelIdeal.Gen.W0 m ρ c (Proc.devRef .tc Cert.KernelIdeal.main_arg15)) :=
    fun c => Cert.Pre_finite_inputs.Decode.rel_inRange _ _ _ _ _ _ _ _ _ _ _ _ _ _ _ _ _ (hpre c)
  refine ⟨fun c => Cert.KernelIdeal.Gen.W19 m ρ c (Proc.devRef .tc Cert.KernelIdeal.main_v47),
    fun c => Cert.KernelIdeal.Gen.W19 m ρ c (Proc.devRef .tc Cert.KernelIdeal.main_v44),
    Cert.KernelIdeal.ValueRun.run (F := Ideal) m ρ, ?_⟩
  refine (θ_run Cert.ReferenceIdeal.defs _ _).mono (fun r h c => ?_) (Cert.ReferenceIdeal.Walk.run (F := Ideal) m' ρ')
  obtain ⟨h77, h74, hargs⟩ := h c
  obtain ⟨a0, a1, a2, a3, a4, a5, a6, a7, a8, a9, a10, a11, a12, a13, a14, a15, a16⟩ := hagree c
  -- the node features: the reference's layer function three times, a kernel layer each
  have hnode : Cert.ReferenceIdeal.Walk.nodeOf m' c = Cert.KernelIdeal.Gen.W19 m ρ c (Proc.devRef .tc Cert.KernelIdeal.main_v44) := by
    unfold Cert.ReferenceIdeal.Walk.nodeOf
    rw [a0, a1, a2, a3, a4, a5, a6, a7, a8, a9, a10, a11, a12, a13, a14, a15, Cert.KernelIdeal.Whole.node m ρ c (hrel c)]
    exact (Cert.Bridge.node _ _ _ _ _ _ _ _ _ _ _ _ _ _ _ _ (hrel c)).symm
  -- the graph sums: the same scatter-sum of the same node features
  have hgraph : Cert.ReferenceIdeal.Walk.graphOf m' c = Cert.KernelIdeal.Gen.W19 m ρ c (Proc.devRef .tc Cert.KernelIdeal.main_v47) := by
    unfold Cert.ReferenceIdeal.Walk.graphOf
    rw [hnode, a16, Cert.KernelIdeal.Whole.graph m ρ c]
    exact (Cert.Bridge.graph _ _).symm
  exact ⟨h77.trans hgraph, h74.trans hnode, hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
